-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x100x4 : Shape := ⟨3, ![20000, 100, 4]⟩
abbrev S20000 : Shape := ⟨1, ![20000]⟩
abbrev S20000x4 : Shape := ⟨2, ![20000, 4]⟩
abbrev S9x64 : Shape := ⟨2, ![9, 64]⟩
abbrev S64 : Shape := ⟨1, ![64]⟩
abbrev S_ : Shape := ⟨0, ![]⟩

class Facts : Prop where
  bcast_S_S20000x100x4 : S_.BroadcastsInDim S20000x100x4 (![] : Fin 0 → Fin S20000x100x4.rank)
  reducesTo_S20000x100x4_S_d0_1_2 : S20000x100x4.ReducesTo [0, 1, 2] S_
  h_S_ : 0 < S_.numel
  bcast_S_S9x64 : S_.BroadcastsInDim S9x64 (![] : Fin 0 → Fin S9x64.rank)
  reducesTo_S9x64_S_d0_1 : S9x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : FVec F S20000x100x4 .f32) (main_arg1 : IVec S20000 32) (main_arg2 : IVec S20000x4 32) (main_arg3 : FVec F S9x64 .f32) (main_arg4 : FVec F S64 .f32) (main_arg5 : FVec F S64 .f32) : IVec S_ 1 :=
  let main_v0 : FVec F S20000x100x4 .f32 := Host.absf main_arg0
  let main_cst : FVec F S_ .f32 := constant S_ .f32 0x7F800000#32
  let main_v1 : FVec F S20000x100x4 .f32 := broadcastInDim S20000x100x4 ![] bcast_S_S20000x100x4 main_cst
  let main_v2 : IVec S20000x100x4 1 := cmpf .olt main_v0 main_v1
  let main_c : IVec S_ 1 := constantI S_ 1 1#1
  let main_v3 : IVec S_ 1 := (fun x v => Host.reduce IntOp.andi x v reducesTo_S20000x100x4_S_d0_1_2 h_S_) main_v2 main_c
  let main_v4 : FVec F S9x64 .f32 := Host.absf main_arg3
  let main_cst_0 : FVec F S_ .f32 := constant S_ .f32 0x7F800000#32
  let main_v5 : FVec F S9x64 .f32 := broadcastInDim S9x64 ![] bcast_S_S9x64 main_cst_0
  let main_v6 : IVec S9x64 1 := cmpf .olt main_v4 main_v5
  let main_c_1 : IVec S_ 1 := constantI S_ 1 1#1
  let main_v7 : IVec S_ 1 := (fun x v => Host.reduce IntOp.andi x v reducesTo_S9x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S20000x100x4 : Shape := ⟨3, ![20000, 100, 4]⟩
abbrev S20000 : Shape := ⟨1, ![20000]⟩
abbrev S20000x4 : Shape := ⟨2, ![20000, 4]⟩
abbrev S9x64 : Shape := ⟨2, ![9, 64]⟩
abbrev S64 : Shape := ⟨1, ![64]⟩
abbrev S20000x1 : Shape := ⟨2, ![20000, 1]⟩
abbrev S_ : Shape := ⟨0, ![]⟩
abbrev S20000x5 : Shape := ⟨2, ![20000, 5]⟩
abbrev S20000x8 : Shape := ⟨2, ![20000, 8]⟩
abbrev S400x100x4 : Shape := ⟨3, ![400, 100, 4]⟩
abbrev S400x8 : Shape := ⟨2, ![400, 8]⟩
abbrev S400x1 : Shape := ⟨2, ![400, 1]⟩
abbrev S400x1x1 : Shape := ⟨3, ![400, 1, 1]⟩
abbrev S400x100x3 : Shape := ⟨3, ![400, 100, 3]⟩
abbrev S400x3 : Shape := ⟨2, ![400, 3]⟩
abbrev S400x1x3 : Shape := ⟨3, ![400, 1, 3]⟩
abbrev S400x100x1 : Shape := ⟨3, ![400, 100, 1]⟩
abbrev S400x100x2 : Shape := ⟨3, ![400, 100, 2]⟩
abbrev S400x100 : Shape := ⟨2, ![400, 100]⟩
abbrev S400x100x9 : Shape := ⟨3, ![400, 100, 9]⟩
abbrev S40000x9 : Shape := ⟨2, ![40000, 9]⟩
abbrev S40000x64 : Shape := ⟨2, ![40000, 64]⟩
abbrev S20000x64 : Shape := ⟨2, ![20000, 64]⟩
abbrev S400x64 : Shape := ⟨2, ![400, 64]⟩
abbrev S1x64 : Shape := ⟨2, ![1, 64]⟩
abbrev S400x100x64 : Shape := ⟨3, ![400, 100, 64]⟩

abbrev nBuf : Space → Nat
  | .hbm => 49
  | .vmem => 16
  | .smem => 0
  | _ => 0

abbrev bufTy : (tb : Table) → Fin (tcTables nBuf tb) → BufTy
  | .hbm, ⟨0, _⟩ => ⟨S20000x100x4, .f32⟩
  | .hbm, ⟨1, _⟩ => ⟨S20000, .i32⟩
  | .hbm, ⟨2, _⟩ => ⟨S20000x4, .i32⟩
  | .hbm, ⟨3, _⟩ => ⟨S9x64, .f32⟩
  | .hbm, ⟨4, _⟩ => ⟨S64, .f32⟩
  | .hbm, ⟨5, _⟩ => ⟨S64, .f32⟩
  | .hbm, ⟨6, _⟩ => ⟨S20000, .f32⟩
  | .hbm, ⟨7, _⟩ => ⟨S20000x1, .i32⟩
  | .hbm, ⟨8, _⟩ => ⟨S20000, .i32⟩
  | .hbm, ⟨9, _⟩ => ⟨S20000, .f32⟩
  | .hbm, ⟨10, _⟩ => ⟨S_, .f32⟩
  | .hbm, ⟨11, _⟩ => ⟨S20000, .f32⟩
  | .hbm, ⟨12, _⟩ => ⟨S20000, .f32⟩
  | .hbm, ⟨13, _⟩ => ⟨S_, .f32⟩
  | .hbm, ⟨14, _⟩ => ⟨S20000, .f32⟩
  | .hbm, ⟨15, _⟩ => ⟨S20000, .f32⟩
  | .hbm, ⟨16, _⟩ => ⟨S20000x1, .i32⟩
  | .hbm, ⟨17, _⟩ => ⟨S20000, .i32⟩
  | .hbm, ⟨18, _⟩ => ⟨S20000, .f32⟩
  | .hbm, ⟨19, _⟩ => ⟨S_, .f32⟩
  | .hbm, ⟨20, _⟩ => ⟨S20000, .f32⟩
  | .hbm, ⟨21, _⟩ => ⟨S20000, .f32⟩
  | .hbm, ⟨22, _⟩ => ⟨S_, .f32⟩
  | .hbm, ⟨23, _⟩ => ⟨S20000, .f32⟩
  | .hbm, ⟨24, _⟩ => ⟨S20000, .f32⟩
  | .hbm, ⟨25, _⟩ => ⟨S_, .f32⟩
  | .hbm, ⟨26, _⟩ => ⟨S20000x5, .f32⟩
  | .hbm, ⟨27, _⟩ => ⟨S20000x1, .f32⟩
  | .hbm, ⟨28, _⟩ => ⟨S20000x1, .f32⟩
  | .hbm, ⟨29, _⟩ => ⟨S20000x1, .f32⟩
  | .hbm, ⟨30, _⟩ => ⟨S20000x8, .f32⟩
  | .hbm, ⟨31, _⟩ => ⟨S64, .f32⟩
  | .hbm, ⟨32, _⟩ => ⟨S64, .f32⟩
  | .hbm, ⟨33, _⟩ => ⟨S_, .f32⟩
  | .hbm, ⟨34, _⟩ => ⟨S64, .f32⟩
  | .hbm, ⟨35, _⟩ => ⟨S64, .f32⟩
  | .hbm, ⟨36, _⟩ => ⟨S_, .f32⟩
  | .hbm, ⟨37, _⟩ => ⟨S64, .f32⟩
  | .hbm, ⟨38, _⟩ => ⟨S64, .f32⟩
  | .hbm, ⟨39, _⟩ => ⟨S64, .f32⟩
  | .hbm, ⟨40, _⟩ => ⟨S64, .f32⟩
  | .hbm, ⟨41, _⟩ => ⟨S_, .f32⟩
  | .hbm, ⟨42, _⟩ => ⟨S64, .f32⟩
  | .hbm, ⟨43, _⟩ => ⟨S64, .f32⟩
  | .hbm, ⟨44, _⟩ => ⟨S64, .f32⟩
  | .hbm, ⟨45, _⟩ => ⟨S64, .f32⟩
  | .hbm, ⟨46, _⟩ => ⟨S64, .f32⟩
  | .hbm, ⟨47, _⟩ => ⟨S64, .f32⟩
  | .hbm, ⟨48, _⟩ => ⟨S20000x64, .f32⟩
  | .local _ .vmem, ⟨0, _⟩ => ⟨S400x100x4, .f32⟩
  | .local _ .vmem, ⟨1, _⟩ => ⟨S400x100x4, .f32⟩
  | .local _ .vmem, ⟨2, _⟩ => ⟨S400x8, .f32⟩
  | .local _ .vmem, ⟨3, _⟩ => ⟨S400x8, .f32⟩
  | .local _ .vmem, ⟨4, _⟩ => ⟨S9x64, .f32⟩
  | .local _ .vmem, ⟨5, _⟩ => ⟨S64, .f32⟩
  | .local _ .vmem, ⟨6, _⟩ => ⟨S64, .f32⟩
  | .local _ .vmem, ⟨7, _⟩ => ⟨S400x100x4, .f32⟩
  | .local _ .vmem, ⟨8, _⟩ => ⟨S400x100x4, .f32⟩
  | .local _ .vmem, ⟨9, _⟩ => ⟨S400x8, .f32⟩
  | .local _ .vmem, ⟨10, _⟩ => ⟨S400x8, .f32⟩
  | .local _ .vmem, ⟨11, _⟩ => ⟨S9x64, .f32⟩
  | .local _ .vmem, ⟨12, _⟩ => ⟨S64, .f32⟩
  | .local _ .vmem, ⟨13, _⟩ => ⟨S64, .f32⟩
  | .local _ .vmem, ⟨14, _⟩ => ⟨S400x64, .f32⟩
  | .local _ .vmem, ⟨15, _⟩ => ⟨S400x64, .f32⟩
  | _, _ => ⟨S20000x100x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20_0 : Ref sig .tc := ⟨.hbm, 31, rfl⟩
abbrev main_v20_1 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_cst_5 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_6 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15

abbrev nD : Nat := 1
abbrev τ : Topo := Topo.v7x

variable {F : FTy → Type} [FloatOps F]

abbrev grid0 : Pipeline.Grid := ⟨1, ![50], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 2 → Memref sig .tc .vmem S400x100x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S400x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S9x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev grid1 : Pipeline.Grid := ⟨1, ![50], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x100x4 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S400x8 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S9x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S400x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S20000x4_S20000x1_0_3 : S20000x4.Slices ![0, 3] S20000x1
  shapeCasts_S20000x1_S20000 : S20000x1.ShapeCasts S20000
  bcast_S_S20000 : S_.BroadcastsInDim S20000 (![] : Fin 0 → Fin S20000.rank)
  slices_S20000x4_S20000x1_0_2 : S20000x4.Slices ![0, 2] S20000x1
  bcast_S_S20000x5 : S_.BroadcastsInDim S20000x5 (![] : Fin 0 → Fin S20000x5.rank)
  bcast_S20000_S20000x1_0 : S20000.BroadcastsInDim S20000x1 (![0] : Fin 1 → Fin S20000x1.rank)
  concatenates_S20000x1_S20000x1_S20000x1_S20000x5_S20000x8_d1 : Shape.Concatenates [S20000x1, S20000x1, S20000x1, S20000x5] S20000x8 1
  inb_S64_S64_0 : ∀ a, (![0] : Fin 1 → Nat) a + S64.size a ≤ S64.size a
  h_S64 : 0 < S64.numel
  inb_S400x100x4_S400x100x4_0_0_0 : ∀ a, (![0, 0, 0] : Fin 3 → Nat) a + S400x100x4.size a ≤ S400x100x4.size a
  h_S400x100x4 : 0 < S400x100x4.numel
  inb_S400x8_S400x8_0_0 : ∀ a, (![0, 0] : Fin 2 → Nat) a + S400x8.size a ≤ S400x8.size a
  h_S400x8 : 0 < S400x8.numel
  shapeCasts_S400x8_S400x8 : S400x8.ShapeCasts S400x8
  slices_S400x8_o0_0_S400x1 : S400x8.Slices ![0, 0] S400x1
  slices_S400x8_o0_1_S400x1 : S400x8.Slices ![0, 1] S400x1
  slices_S400x8_o0_2_S400x1 : S400x8.Slices ![0, 2] S400x1
  shapeCasts_S400x1_S400x1x1 : S400x1.ShapeCasts S400x1x1
  slices_S400x100x4_o0_0_0_S400x100x3 : S400x100x4.Slices ![0, 0, 0] S400x100x3
  reduces_S400x100x3_S400x3 : S400x100x3.Reduces [1] S400x3
  shapeCasts_S400x3_S400x1x3 : S400x3.ShapeCasts S400x1x3
  broadcasts_S400x1x1_S400x1x3 : S400x1x1.Broadcasts S400x1x3
  broadcasts_S400x1x3_S400x100x3 : S400x1x3.Broadcasts S400x100x3
  slices_S400x100x4_o0_0_0_S400x100x1 : S400x100x4.Slices ![0, 0, 0] S400x100x1
  broadcasts_S400x1x1_S400x100x1 : S400x1x1.Broadcasts S400x100x1
  slices_S400x100x4_o0_0_1_S400x100x1 : S400x100x4.Slices ![0, 0, 1] S400x100x1
  concatenates_S400x100x1_S400x100x1_S400x100x2_d2 : Shape.Concatenates [S400x100x1, S400x100x1] S400x100x2 2
  iota_S400x100_d1_w32 : S400x100.Iotas .tc 32 [1]
  broadcasts_S400x1_S400x100 : S400x1.Broadcasts S400x100
  natLt_1_32 : 1 < 32
  shapeCasts_S400x100_S400x100x1 : S400x100.ShapeCasts S400x100x1
  concatenates_S400x100x4_S400x100x3_S400x100x2_S400x100x9_d2 : Shape.Concatenates [S400x100x4, S400x100x3, S400x100x2] S400x100x9 2
  broadcasts_S400x100x1_S400x100x9 : S400x100x1.Broadcasts S400x100x9
  shapeCasts_S400x100x9_S40000x9 : S400x100x9.ShapeCasts S40000x9
  bitsLt_bf16_f32 : FTy.bits .bf16 < FTy.bits .f32
  inb_S9x64_S9x64_0_0 : ∀ a, (![0, 0] : Fin 2 → Nat) a + S9x64.size a ≤ S9x64.size a
  h_S9x64 : 0 < S9x64.numel
  shapeCasts_S64_S64 : S64.ShapeCasts S64
  reduces_S40000x64_S64 : S40000x64.Reduces [0] S64
  bcast_S_S64 : S_.BroadcastsInDim S64 (![] : Fin 0 → Fin S64.rank)
  shapeCasts_S64_S1x64 : S64.ShapeCasts S1x64
  broadcasts_S1x64_S40000x64 : S1x64.Broadcasts S40000x64
  shapeCasts_S40000x64_S400x100x64 : S40000x64.ShapeCasts S400x100x64
  reduces_S400x100x64_S400x64 : S400x100x64.Reduces [1] S400x64
  inb_S400x64_S400x64_0_0 : ∀ a, (![0, 0] : Fin 2 → Nat) a + S400x64.size a ≤ S400x64.size a
  h_S400x64 : 0 < S400x64.numel
  dot_S40000x9_S9x64_S40000x64_1_0_0_1_n_n_wf : DotDims.WF S40000x9 S9x64 S40000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x100x4.size a ≤ S20000x100x4.size a
  hwx0_0 : ∀ i : grid0.Coords, EltTy.bits .f32 = 32 ∨ (Rect.block (s := S20000x100x4) S400x100x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S400x8.size a ≤ S20000x8.size a
  hwx0_1 : ∀ i : grid0.Coords, EltTy.bits .f32 = 32 ∨ (Rect.block (s := S20000x8) S400x8.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S9x64.size a ≤ S9x64.size a
  hwx0_2 : ∀ i : grid0.Coords, EltTy.bits .f32 = 32 ∨ (Rect.block (s := S9x64) S9x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64.size a ≤ S64.size a
  hwx0_3 : ∀ i : grid0.Coords, EltTy.bits .f32 = 32 ∨ (Rect.block (s := S64) S64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x100x4.size a ≤ S20000x100x4.size a
  hwx1_0 : ∀ i : grid1.Coords, EltTy.bits .f32 = 32 ∨ (Rect.block (s := S20000x100x4) S400x100x4.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S400x8.size a ≤ S20000x8.size a
  hwx1_1 : ∀ i : grid1.Coords, EltTy.bits .f32 = 32 ∨ (Rect.block (s := S20000x8) S400x8.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S9x64.size a ≤ S9x64.size a
  hwx1_2 : ∀ i : grid1.Coords, EltTy.bits .f32 = 32 ∨ (Rect.block (s := S9x64) S9x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64.size a ≤ S64.size a
  hwx1_3 : ∀ i : grid1.Coords, EltTy.bits .f32 = 32 ∨ (Rect.block (s := S64) S64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64.size a ≤ S64.size a
  hwx1_4 : ∀ i : grid1.Coords, EltTy.bits .f32 = 32 ∨ (Rect.block (s := S64) S64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S400x64.size a ≤ S20000x64.size a
  hwx1_5 : ∀ i : grid1.Coords, EltTy.bits .f32 = 32 ∨ (Rect.block (s := S20000x64) S400x64.size (cc1_transform_5 i) (hinb1_5 i)).WholeWords (EltTy.packing .f32)

variable [Facts₀]

def dot_S40000x9_S9x64_S40000x64_1_0_0_1_n_n : DotDims S40000x9 S9x64 S40000x64 where
  lhsContracting := [1]
  rhsContracting := [0]
  lhsNonContracting := [0]
  rhsNonContracting := [1]
  lhsBatch := []
  rhsBatch := []
  wf := dot_S40000x9_S9x64_S40000x64_1_0_0_1_n_n_wf

abbrev win0_0 : Pipeline.Window sig grid0 :=
  Pipeline.Window.ofSpec (Memref.whole main_arg0) S400x100x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S400x8.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S9x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v20_0) S64.size cc0_transform_3 reads0_3 true true 1 stage0_3 sem0_3
    hrank0 hreads0_3 hinb0_3 nbuf0_3 (Memref.isWhole_whole _) hwx0_3 hstage0_3

abbrev win0_4 : Pipeline.Window sig grid0 :=
  Pipeline.Window.ofSpec (Memref.whole main_v20_1) S64.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg0) S400x100x4.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v19) S400x8.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S9x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v30) S64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v32) S64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v33) S400x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S20000x100x4 : Shape := ⟨3, ![20000, 100, 4]⟩
abbrev S20000 : Shape := ⟨1, ![20000]⟩
abbrev S20000x4 : Shape := ⟨2, ![20000, 4]⟩
abbrev S9x64 : Shape := ⟨2, ![9, 64]⟩
abbrev S64 : Shape := ⟨1, ![64]⟩
abbrev S20000x1x1 : Shape := ⟨3, ![20000, 1, 1]⟩
abbrev S20000x1 : Shape := ⟨2, ![20000, 1]⟩
abbrev S_ : Shape := ⟨0, ![]⟩
abbrev S100 : Shape := ⟨1, ![100]⟩
abbrev S1x100 : Shape := ⟨2, ![1, 100]⟩
abbrev S20000x100 : Shape := ⟨2, ![20000, 100]⟩
abbrev S20000x100x1 : Shape := ⟨3, ![20000, 100, 1]⟩
abbrev S20000x100x3 : Shape := ⟨3, ![20000, 100, 3]⟩
abbrev S20000x3 : Shape := ⟨2, ![20000, 3]⟩
abbrev S20000x1x3 : Shape := ⟨3, ![20000, 1, 3]⟩
abbrev S20000x100x2 : Shape := ⟨3, ![20000, 100, 2]⟩
abbrev S20000x100x9 : Shape := ⟨3, ![20000, 100, 9]⟩
abbrev S20000x100x64 : Shape := ⟨3, ![20000, 100, 64]⟩
abbrev S1x1x64 : Shape := ⟨3, ![1, 1, 64]⟩
abbrev S20000x64 : Shape := ⟨2, ![20000, 64]⟩

abbrev nBuf : Space → Nat
  | .hbm => 95
  | .vmem => 0
  | .smem => 0
  | _ => 0

abbrev bufTy : (tb : Table) → Fin (tcTables nBuf tb) → BufTy
  | .hbm, ⟨0, _⟩ => ⟨S20000x100x4, .f32⟩
  | .hbm, ⟨1, _⟩ => ⟨S20000, .i32⟩
  | .hbm, ⟨2, _⟩ => ⟨S20000x4, .i32⟩
  | .hbm, ⟨3, _⟩ => ⟨S9x64, .f32⟩
  | .hbm, ⟨4, _⟩ => ⟨S64, .f32⟩
  | .hbm, ⟨5, _⟩ => ⟨S64, .f32⟩
  | .hbm, ⟨6, _⟩ => ⟨S20000, .f32⟩
  | .hbm, ⟨7, _⟩ => ⟨S20000x1x1, .f32⟩
  | .hbm, ⟨8, _⟩ => ⟨S20000x1, .i32⟩
  | .hbm, ⟨9, _⟩ => ⟨S20000, .i32⟩
  | .hbm, ⟨10, _⟩ => ⟨S20000, .f32⟩
  | .hbm, ⟨11, _⟩ => ⟨S20000x1, .f32⟩
  | .hbm, ⟨12, _⟩ => ⟨S_, .f32⟩
  | .hbm, ⟨13, _⟩ => ⟨S20000x1, .f32⟩
  | .hbm, ⟨14, _⟩ => ⟨S20000x1, .f32⟩
  | .hbm, ⟨15, _⟩ => ⟨S_, .f32⟩
  | .hbm, ⟨16, _⟩ => ⟨S20000x1, .f32⟩
  | .hbm, ⟨17, _⟩ => ⟨S20000x1, .f32⟩
  | .hbm, ⟨18, _⟩ => ⟨S20000x1, .i32⟩
  | .hbm, ⟨19, _⟩ => ⟨S20000, .i32⟩
  | .hbm, ⟨20, _⟩ => ⟨S20000, .f32⟩
  | .hbm, ⟨21, _⟩ => ⟨S20000x1, .f32⟩
  | .hbm, ⟨22, _⟩ => ⟨S_, .f32⟩
  | .hbm, ⟨23, _⟩ => ⟨S20000x1, .f32⟩
  | .hbm, ⟨24, _⟩ => ⟨S20000x1, .f32⟩
  | .hbm, ⟨25, _⟩ => ⟨S_, .f32⟩
  | .hbm, ⟨26, _⟩ => ⟨S20000x1, .f32⟩
  | .hbm, ⟨27, _⟩ => ⟨S20000x1, .f32⟩
  | .hbm, ⟨28, _⟩ => ⟨S100, .i32⟩
  | .hbm, ⟨29, _⟩ => ⟨S1x100, .i32⟩
  | .hbm, ⟨30, _⟩ => ⟨S20000x1, .i32⟩
  | .hbm, ⟨31, _⟩ => ⟨S20000x100, .i32⟩
  | .hbm, ⟨32, _⟩ => ⟨S20000x100, .i32⟩
  | .hbm, ⟨33, _⟩ => ⟨S20000x100, .i1⟩
  | .hbm, ⟨34, _⟩ => ⟨S20000x100, .f32⟩
  | .hbm, ⟨35, _⟩ => ⟨S20000x100x1, .f32⟩
  | .hbm, ⟨36, _⟩ => ⟨S20000x100x3, .f32⟩
  | .hbm, ⟨37, _⟩ => ⟨S_, .f32⟩
  | .hbm, ⟨38, _⟩ => ⟨S20000x3, .f32⟩
  | .hbm, ⟨39, _⟩ => ⟨S20000x1x3, .f32⟩
  | .hbm, ⟨40, _⟩ => ⟨S20000x1x3, .f32⟩
  | .hbm, ⟨41, _⟩ => ⟨S20000x1x3, .f32⟩
  | .hbm, ⟨42, _⟩ => ⟨S20000x100x3, .f32⟩
  | .hbm, ⟨43, _⟩ => ⟨S20000x100x3, .f32⟩
  | .hbm, ⟨44, _⟩ => ⟨S20000x100x3, .f32⟩
  | .hbm, ⟨45, _⟩ => ⟨S20000x100x1, .f32⟩
  | .hbm, ⟨46, _⟩ => ⟨S20000x100, .f32⟩
  | .hbm, ⟨47, _⟩ => ⟨S20000x100, .f32⟩
  | .hbm, ⟨48, _⟩ => ⟨S20000x100, .f32⟩
  | .hbm, ⟨49, _⟩ => ⟨S20000x100x1, .f32⟩
  | .hbm, ⟨50, _⟩ => ⟨S20000x100, .f32⟩
  | .hbm, ⟨51, _⟩ => ⟨S20000x100, .f32⟩
  | .hbm, ⟨52, _⟩ => ⟨S20000x100, .f32⟩
  | .hbm, ⟨53, _⟩ => ⟨S20000x100x1, .f32⟩
  | .hbm, ⟨54, _⟩ => ⟨S20000x100x1, .f32⟩
  | .hbm, ⟨55, _⟩ => ⟨S20000x100x2, .f32⟩
  | .hbm, ⟨56, _⟩ => ⟨S20000x100x9, .f32⟩
  | .hbm, ⟨57, _⟩ => ⟨S20000x100x9, .f32⟩
  | .hbm, ⟨58, _⟩ => ⟨S20000x100x9, .f32⟩
  | .hbm, ⟨59, _⟩ => ⟨S20000x100x64, .f32⟩
  | .hbm, ⟨60, _⟩ => ⟨S_, .f32⟩
  | .hbm, ⟨61, _⟩ => ⟨S64, .f32⟩
  | .hbm, ⟨62, _⟩ => ⟨S_, .f32⟩
  | .hbm, ⟨63, _⟩ => ⟨S64, .f32⟩
  | .hbm, ⟨64, _⟩ => ⟨S64, .f32⟩
  | .hbm, ⟨65, _⟩ => ⟨S1x1x64, .f32⟩
  | .hbm, ⟨66, _⟩ => ⟨S20000x100x64, .f32⟩
  | .hbm, ⟨67, _⟩ => ⟨S20000x100x64, .f32⟩
  | .hbm, ⟨68, _⟩ => ⟨S20000x100x64, .f32⟩
  | .hbm, ⟨69, _⟩ => ⟨S_, .f32⟩
  | .hbm, ⟨70, _⟩ => ⟨S64, .f32⟩
  | .hbm, ⟨71, _⟩ => ⟨S_, .f32⟩
  | .hbm, ⟨72, _⟩ => ⟨S64, .f32⟩
  | .hbm, ⟨73, _⟩ => ⟨S64, .f32⟩
  | .hbm, ⟨74, _⟩ => ⟨S1x1x64, .f32⟩
  | .hbm, ⟨75, _⟩ => ⟨S20000x100x64, .f32⟩
  | .hbm, ⟨76, _⟩ => ⟨S20000x100x64, .f32⟩
  | .hbm, ⟨77, _⟩ => ⟨S_, .f32⟩
  | .hbm, ⟨78, _⟩ => ⟨S64, .f32⟩
  | .hbm, ⟨79, _⟩ => ⟨S64, .f32⟩
  | .hbm, ⟨80, _⟩ => ⟨S64, .f32⟩
  | .hbm, ⟨81, _⟩ => ⟨S1x1x64, .f32⟩
  | .hbm, ⟨82, _⟩ => ⟨S20000x100x64, .f32⟩
  | .hbm, ⟨83, _⟩ => ⟨S20000x100x64, .f32⟩
  | .hbm, ⟨84, _⟩ => ⟨S1x1x64, .f32⟩
  | .hbm, ⟨85, _⟩ => ⟨S20000x100x64, .f32⟩
  | .hbm, ⟨86, _⟩ => ⟨S20000x100x64, .f32⟩
  | .hbm, ⟨87, _⟩ => ⟨S1x1x64, .f32⟩
  | .hbm, ⟨88, _⟩ => ⟨S20000x100x64, .f32⟩
  | .hbm, ⟨89, _⟩ => ⟨S20000x100x64, .f32⟩
  | .hbm, ⟨90, _⟩ => ⟨S_, .f32⟩
  | .hbm, ⟨91, _⟩ => ⟨S20000x100x64, .f32⟩
  | .hbm, ⟨92, _⟩ => ⟨S20000x100x64, .f32⟩
  | .hbm, ⟨93, _⟩ => ⟨S_, .f32⟩
  | .hbm, ⟨94, _⟩ => ⟨S20000x64, .f32⟩
  | _, _ => ⟨S20000x100x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_3 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_cst_4 : Ref sig .tc := ⟨.hbm, 60, rfl⟩
abbrev main_v49 : Ref sig .tc := ⟨.hbm, 61, rfl⟩
abbrev main_cst_5 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_cst_6 : Ref sig .tc := ⟨.hbm, 69, rfl⟩
abbrev main_v56 : Ref sig .tc := ⟨.hbm, 70, rfl⟩
abbrev main_cst_7 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_cst_8 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_call0_cst : Ref sig .tc := ⟨.hbm, 90, rfl⟩
abbrev main_call0_v0 : Ref sig .tc := ⟨.hbm, 91, rfl⟩
abbrev main_v74 : Ref sig .tc := ⟨.hbm, 92, rfl⟩
abbrev main_cst_9 : Ref sig .tc := ⟨.hbm, 93, rfl⟩
abbrev main_v75 : Ref sig .tc := ⟨.hbm, 94, rfl⟩

abbrev nD : Nat := 1
abbrev τ : Topo := Topo.v7x

variable {F : FTy → Type} [FloatOps F]

class Facts₀ : Prop where
  bcast_S20000_S20000x1x1_0 : S20000.BroadcastsInDim S20000x1x1 (![0] : Fin 1 → Fin S20000x1x1.rank)
  slices_S20000x4_S20000x1_0_3 : S20000x4.Slices ![0, 3] S20000x1
  shapeCasts_S20000x1_S20000 : S20000x1.ShapeCasts S20000
  bcast_S20000_S20000x1_0 : S20000.BroadcastsInDim S20000x1 (![0] : Fin 1 → Fin S20000x1.rank)
  bcast_S_S20000x1 : S_.BroadcastsInDim S20000x1 (![] : Fin 0 → Fin S20000x1.rank)
  slices_S20000x4_S20000x1_0_2 : S20000x4.Slices ![0, 2] S20000x1
  bcast_S100_S1x100_1 : S100.BroadcastsInDim S1x100 (![1] : Fin 1 → Fin S1x100.rank)
  bcast_S1x100_S20000x100_0_1 : S1x100.BroadcastsInDim S20000x100 (![0, 1] : Fin 2 → Fin S20000x100.rank)
  bcast_S20000x1_S20000x100_0_1 : S20000x1.BroadcastsInDim S20000x100 (![0, 1] : Fin 2 → Fin S20000x100.rank)
  bcast_S20000x100_S20000x100x1_0_1 : S20000x100.BroadcastsInDim S20000x100x1 (![0, 1] : Fin 2 → Fin S20000x100x1.rank)
  slices_S20000x100x4_S20000x100x3_0_0_0 : S20000x100x4.Slices ![0, 0, 0] S20000x100x3
  reducesTo_S20000x100x3_S20000x3_d1 : S20000x100x3.ReducesTo [1] S20000x3
  h_S_ : 0 < S_.numel
  bcast_S20000x3_S20000x1x3_0_2 : S20000x3.BroadcastsInDim S20000x1x3 (![0, 2] : Fin 2 → Fin S20000x1x3.rank)
  bcast_S20000x1x1_S20000x1x3_0_1_2 : S20000x1x1.BroadcastsInDim S20000x1x3 (![0, 1, 2] : Fin 3 → Fin S20000x1x3.rank)
  bcast_S20000x1x3_S20000x100x3_0_1_2 : S20000x1x3.BroadcastsInDim S20000x100x3 (![0, 1, 2] : Fin 3 → Fin S20000x100x3.rank)
  slices_S20000x100x4_S20000x100x1_0_0_0 : S20000x100x4.Slices ![0, 0, 0] S20000x100x1
  shapeCasts_S20000x100x1_S20000x100 : S20000x100x1.ShapeCasts S20000x100
  slices_S20000x100x4_S20000x100x1_0_0_1 : S20000x100x4.Slices ![0, 0, 1] S20000x100x1
  concatenates_S20000x100x1_S20000x100x1_S20000x100x2_d2 : Shape.Concatenates [S20000x100x1, S20000x100x1] S20000x100x2 2
  concatenates_S20000x100x4_S20000x100x3_S20000x100x2_S20000x100x9_d2 : Shape.Concatenates [S20000x100x4, S20000x100x3, S20000x100x2] S20000x100x9 2
  bcast_S20000x100x1_S20000x100x9_0_1_2 : S20000x100x1.BroadcastsInDim S20000x100x9 (![0, 1, 2] : Fin 3 → Fin S20000x100x9.rank)
  reducesTo_S20000x100x64_S64_d0_1 : S20000x100x64.ReducesTo [0, 1] S64
  bcast_S_S64 : S_.BroadcastsInDim S64 (![] : Fin 0 → Fin S64.rank)
  bcast_S64_S1x1x64_2 : S64.BroadcastsInDim S1x1x64 (![2] : Fin 1 → Fin S1x1x64.rank)
  bcast_S1x1x64_S20000x100x64_0_1_2 : S1x1x64.BroadcastsInDim S20000x100x64 (![0, 1, 2] : Fin 3 → Fin S20000x100x64.rank)
  bcast_S_S20000x100x64 : S_.BroadcastsInDim S20000x100x64 (![] : Fin 0 → Fin S20000x100x64.rank)
  reducesTo_S20000x100x64_S20000x64_d1 : S20000x100x64.ReducesTo [1] S20000x64
  dot_S20000x100x9_S9x64_S20000x100x64_2_0_01_1_n_n_wf : DotDims.WF S20000x100x9 S9x64 S20000x100x64 [2] [0] [0, 1] [1] [] []

variable [Facts₀]

def dot_S20000x100x9_S9x64_S20000x100x64_2_0_01_1_n_n : DotDims S20000x100x9 S9x64 S20000x100x64 where
  lhsContracting := [2]
  rhsContracting := [0]
  lhsNonContracting := [0, 1]
  rhsNonContracting := [1]
  lhsBatch := []
  rhsBatch := []
  wf := dot_S20000x100x9_S9x64_S20000x100x64_2_0_01_1_n_n_wf

class Facts : Prop extends Facts₀ where

variable [Facts]
-- ==== Proof.MainDefs.lean ====
/-
  The normalise-and-pool pass as a pipeline region, at any contents `V` of the core's buffers when the region is
  entered.

  The grid has 50 points; point `t` sees pillars 400 t .. 400 t + 399 (windows 0 and 1), the whole weight matrix
  (window 2) and the folded scale and shift vectors (windows 3 and 4), and writes the 400 x 64 block of the result
  (window 5): per pillar and channel the maximum over the pillar's points of the rectified `x * scale + shift`.
  Nothing is carried between points.
-/
import proofs.«117744_j60705067762261_1_alg».proof.Proof.Gen.KernelIdeal.Launch
import proofs.«117744_j60705067762261_1_alg».proof.Proof.Gen.KernelIdeal.Skeleton
import proofs.«117744_j60705067762261_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- One grid point's result block from its five input blocks. -/
def main1 (x : Vec F S400x100x4 .f32) (a : Vec F S400x8 .f32) (w : Vec F S9x64 .f32) (sc sh : Vec F S64 .f32) :
    Vec F S400x64 .f32 :=
  k1_pay1 (k1_pay2 x a w sc) (k1_pay3 sh)

/-- The region's proof data on core `c`: the arrays as the region finds them; after the body at point `t` each
    input's buffer at its block and the output's at `main1` of the input blocks. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => main1 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t
    = main1 (iblk1 V c 0 t) (iblk1 V c 1 t) (iblk1 V c 2 t) (iblk1 V c 3 t) (iblk1 V c 4 t) := by dsimp only [dat1]

end Cert.KernelIdeal.Hand

end
-- ==== Proof.MainBody.lean ====
/-
  The body obligation of the normalise-and-pool region.

  At every one of the 50 grid points the kernel body reads its five input staging buffers whole, computes one
  400 x 64 block `main1 x a w sc sh` from what it read, and overwrites the output staging buffer whole with it.
  There is no branch and nothing is carried from point to point, so the obligation has three ingredients:

  * an input's staging buffer holds that window's block at EVERY point, whether the pipeline fetched it there or
    not. Windows 0 and 1 move with the point and are fetched each time; windows 2, 3 and 4 (weights, scale, shift)
    have a constant block index, are fetched at the first point only, and are left in place by the body, so the
    buffer still holds the block at every later point (`before1_0` … `before1_4`);
  * the body's triple on abstract whole buffers (`sound_kernel1`): a load through the full rectangle at offset
    zero reads the buffer's contents, and a single store through the full rectangle leaves exactly its payload,
    whatever the buffer held before;
  * the two put together at a point, with the region's invariant and the core's dues passing through untouched
    (`sound_body1`), which is the library's obligation once its conjunction over the six windows is written out
    (`body_obligation1`).
-/
import proofs.«117744_j60705067762261_1_alg».proof.Proof.MainDefs
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input windows' staging buffers hold their blocks

For an input window whose block the body leaves in place, the buffer before the body at a point holds what a fetch at
that point would put there: at a fetched point by the fetch, at an unfetched point because the block index has not
moved since the last fetch and nothing wrote the buffer in between. None of the five windows is clipped at the array's
edge (400 divides 20000) and none has an idle point. -/

/-- Input window 0 (the 400 x 100 x 4 block of pillar points): its current staging buffer holds its block at point `t`. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)

/-- Input window 1 (the 400 x 8 block of per-pillar auxiliary values): its current staging buffer holds its block at point `t`. -/
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

/-- Input window 2 (the whole 9 x 64 weight matrix): its current staging buffer holds its block at point `t`. -/
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

/-- Input window 3 (the 64 folded scales): its current staging buffer holds its block at point `t`. -/
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)

/-- Input window 4 (the 64 folded shifts): its current staging buffer holds its block at point `t`. -/
theorem before1_4 (c : Dev nD) (t : Fin cfg1.N) (d) : (dat1 V c).before 4 t d = iblk1 V c 4 t :=
  ((dat1 V c).before_in_eq_fetched 4 rfl (fun _ => rfl) (fun _ _ _ => rfl)
    (fun t => by rw [after1_4]; unfold Dat.blockOf iblk1; rw [A_eq1]; try rfl) t d).trans
    (by unfold Dat.fetched Dat.blockOf iblk1; rw [A_eq1]; try rfl)

/-! ## Offsets that are all zero

A whole-buffer access is printed as the rectangle of the buffer's own sizes at the literal offsets `![0, …, 0]`; the
library's facts about such a rectangle ask that the offsets be the constant-zero function. -/

theorem zero1 : (![0] : Fin 1 → Nat) = fun _ => 0 := funext fun a => by fin_cases a <;> rfl
theorem zero2 : (![0, 0] : Fin 2 → Nat) = fun _ => 0 := funext fun a => by fin_cases a <;> rfl
theorem zero3 : (![0, 0, 0] : Fin 3 → Nat) = fun _ => 0 := funext fun a => by fin_cases a <;> rfl

/-! ## The body's triple -/

set_option maxHeartbeats 1000000 in
/-- The kernel body on whole buffers. Given the five input buffers at read contents `x a w sc sh` and the output buffer
    at anything, it runs to the continuation with the inputs as they were and the output at `main1 x a w sc sh`.

    The body's memory operations are five whole-buffer loads, one whole-buffer load of the output (its value is not
    used) and one whole-buffer store. Running them leaves the output buffer at "its old contents overwritten by one
    piece", and one pure fact to prove: reading that back gives `main1` of the inputs' contents. The piece's rectangle
    is the whole shape, so it covers every index and the read is the piece's payload; the payload is `k1_pay1 (k1_pay2 …)
    (k1_pay3 …)` of the five loaded values, and each loaded value, taken through the whole shape at offset zero, is the
    buffer's contents. That is `main1` by definition. -/
theorem sound_kernel1 (c : Dev nD) (E : Set ℕ) (i : grid1.Coords)
    (arg1 : Memref sig .tc .vmem S400x100x4 .f32) (harg1 : arg1.IsWhole)
    (arg2 : Memref sig .tc .vmem S400x8 .f32) (harg2 : arg2.IsWhole)
    (arg3 : Memref sig .tc .vmem S9x64 .f32) (harg3 : arg3.IsWhole)
    (arg4 : Memref sig .tc .vmem S64 .f32) (harg4 : arg4.IsWhole)
    (arg5 : Memref sig .tc .vmem S64 .f32) (harg5 : arg5.IsWhole)
    (arg6 : Memref sig .tc .vmem S400x64 .f32) (harg6 : arg6.IsWhole)
    (x : Vec F S400x100x4 .f32) (a : Vec F S400x8 .f32) (w : Vec F S9x64 .f32) (sc sh : Vec F S64 .f32)
    (K : PUnit → sProp 𝕄) :
    iprop(owns (c : Thread nD τ) arg1 fullShare x ∗ owns (c : Thread nD τ) arg2 fullShare a
        ∗ owns (c : Thread nD τ) arg3 fullShare w ∗ owns (c : Thread nD τ) arg4 fullShare sc
        ∗ owns (c : Thread nD τ) arg5 fullShare sh ∗ (∃ d, owns (c : Thread nD τ) arg6 fullShare d)
        ∗ (iprop(owns (c : Thread nD τ) arg1 fullShare x ∗ owns (c : Thread nD τ) arg2 fullShare a
            ∗ owns (c : Thread nD τ) arg3 fullShare w ∗ owns (c : Thread nD τ) arg4 fullShare sc
            ∗ owns (c : Thread nD τ) arg5 fullShare sh
            ∗ owns (c : Thread nD τ) arg6 fullShare (main1 x a w sc sh)) -∗ K ⟨⟩))
      ⊢ wp frame (wpE (defs₀ (F := F)) Variants.none c none) E
          (cc1_main_kernel i arg1 harg1 arg2 harg2 arg3 harg3 arg4 harg4 arg5 harg5 arg6 harg6) K := by
  simp only [cc1_main_kernel_eq_skeleton]; unfold cc1_main_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1 hf2 hf3 hf4 hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  rw [View.read_writes_eq_canon _ _ _
    (fun y => ⟨_, List.mem_singleton_self _, View.mem_set_unit_zero zero2 inb_S400x64_S400x64_0_0 y⟩)]
  rw [View.canon_unit_zero zero2]
  unfold main1
  sl_unfold_run_names
  simp only [View.readAt_eq_ld, View.ld_unit_zero (S := S400x100x4) zero3, View.ld_unit_zero (S := S400x8) zero2,
    View.ld_unit_zero (S := S9x64) zero2, View.ld_unit_zero (S := S64) zero1]

/-! ## The body obligation, at a generic point -/

/-- What the body is called with at point `t`: the region's invariant, what the core owes, and the six current staging
    buffers, each at what the pipeline left in it before the body. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- What the body returns: the same invariant and dues, each staging buffer at what the proof data say the body leaves. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point. The five input buffers hold their blocks (`before1_0` … `before1_4`), the output buffer holds
    anything, so the kernel's triple applies with the blocks as the read contents; the invariant and the core's dues are
    the same before and after a point and pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _
    (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation at every point: its pre- and postcondition conjoin the six windows one by one, and
    are then the body's at that point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.StatsDefs.lean ====
/-
  The statistics pass as a pipeline region, at any contents `V` of the core's buffers when the region is entered.

  The grid has 50 points; point `t` sees pillars 400 t .. 400 t + 399 (windows 0 and 1) and the whole weight
  matrix (window 2). The two outputs, the per-channel sum and sum of squares (windows 3 and 4), are 64-vectors whose
  block never moves: their staging buffers are carried from point to point and written back once, after the last
  point. At point 0 the body first stores zeros into both; at every point it adds the block's column sums.
  `step0` is one point's effect on the pair of accumulators, `outsAt0` its iteration along the grid.
-/
import proofs.«117744_j60705067762261_1_alg».proof.Proof.Gen.KernelIdeal.Launch
import proofs.«117744_j60705067762261_1_alg».proof.Proof.Gen.KernelIdeal.Skeleton
import proofs.«117744_j60705067762261_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- One grid point's effect on the two accumulators `(s, q)`: the block's column sums of the linear layer's output
    are added to `s`, the column sums of its squares to `q`. -/
def step0 (x : Vec F S400x100x4 .f32) (a : Vec F S400x8 .f32) (w : Vec F S9x64 .f32) (s q : Vec F S64 .f32) :
    Vec F S64 .f32 × Vec F S64 .f32 :=
  (k0_pay1 (k0_pay6 s) (k0_pay7 x a w), k0_pay2 (k0_pay5 x a w) q)

/-- What the two accumulators hold after the body at point `n`: from zeros at point 0, from what the point before
    left at every later point. -/
def outsAt0 (c : Dev nD) : (n : ℕ) → n < cfg0.N → Vec F S64 .f32 × Vec F S64 .f32
  | 0, hn => step0 (iblk0 V c 0 ⟨0, hn⟩) (iblk0 V c 1 ⟨0, hn⟩) (iblk0 V c 2 ⟨0, hn⟩) k0_pay3 k0_pay4
  | n + 1, hn => step0 (iblk0 V c 0 ⟨n + 1, hn⟩) (iblk0 V c 1 ⟨n + 1, hn⟩) (iblk0 V c 2 ⟨n + 1, hn⟩)
      (outsAt0 c n (Nat.lt_of_succ_lt hn)).1 (outsAt0 c n (Nat.lt_of_succ_lt hn)).2

/-- The region's proof data on core `c`: the arrays as the region finds them; after the body at point `t` each
    input's buffer at its block and the two accumulators at `outsAt0`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
    | ⟨4, _⟩ => (outsAt0 V c t.val t.isLt).2
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]
theorem after0_4 (c : Dev nD) (t : Fin cfg0.N) : (dat0 V c).after 4 t = (outsAt0 V c t.val t.isLt).2 := by dsimp only [dat0]

end Cert.KernelIdeal.Hand

end
-- ==== Proof.StatsBody.lean ====
/-
  The body obligation of the statistics pass (pipeline region 0, a grid of 50 points).

  At every grid point the body reads three whole input blocks (400 pillars, their auxiliary row, the weight matrix),
  and two 64-vector accumulators: the per-channel sum `s` and sum of squares `q` of the linear layer's output. At the
  grid's first point it first stores zeros into both. In either case it then loads `s`, stores `s + colsum`, loads
  `q`, stores `q + colsum of squares`: one `step0` of the pair. The accumulators' blocks never move, so their
  staging buffers are written back only after the last point, and a later point finds in them what the point before
  left. The proof follows that story:

  * the branch condition in closed form (it holds at point 0 only);
  * the body run in each of the two cases, to the buffers at `step0` of what they held (of zeros, at point 0);
  * what the pipeline hands the body at a point: each input's block; at a later point the accumulators as the
    point before left them;
  * `outsAt0` unfolded by case; the obligation at a generic point by cases.
-/
import proofs.«117744_j60705067762261_1_alg».proof.Proof.StatsDefs
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch condition -/

/-- The condition of the body's one `scf.if` (is this the grid's first point?), from the grid coordinates. -/
abbrev cond0_0 (i : grid0.Coords) : Prop := (Scalar.cmpi .ne (Scalar.extui (Scalar.cmpi .eq (BitVec.ofNat 32 (i 0).val) 0#32)) 0#32) = 1#1

/-- It holds at the first of the 50 points only: decided over the grid. -/
theorem hcond0_0 : ∀ t : Fin cfg0.N, cond0_0 (grid0.coords t) ↔ t.val % 50 = 0 :=
  (by decide +kernel : ∀ t : Fin grid0.N, cond0_0 (grid0.coords t) ↔ t.val % 50 = 0)

/-! ## Whole-buffer accesses -/

/-- The zero offsets of a whole-buffer access, at each rank that occurs. -/
theorem zeroOff1 : (![0] : Fin 1 → Nat) = fun _ => 0 := funext fun a => by fin_cases a <;> rfl
theorem zeroOff2 : (![0, 0] : Fin 2 → Nat) = fun _ => 0 := funext fun a => by fin_cases a <;> rfl
theorem zeroOff3 : (![0, 0, 0] : Fin 3 → Nat) = fun _ => 0 := funext fun a => by fin_cases a <;> rfl

/-- The whole-buffer rectangle of a 64-vector, as the body's loads and stores of the accumulators spell it. -/
abbrev accRect : Rect S64 := Rect.unit (s := S64) ![0] S64.size inb_S64_S64_0

/-- A list of stores into a 64-vector buffer whose last store is through the whole-buffer rectangle covers it. -/
theorem accRect_cover_last (p : Vec F S64 .f32) (L : List (View.Piece (Elt F) S64 .f32)) (y : S64.Idx) :
    ∃ pc ∈ ((⟨accRect, p⟩ : View.Piece (Elt F) S64 .f32) :: L), y ∈ pc.1.set :=
  ⟨(⟨accRect, p⟩ : View.Piece (Elt F) S64 .f32), List.mem_cons_self, View.mem_set_unit_zero (S := S64) zeroOff1 inb_S64_S64_0 y⟩

/-- So the buffer then reads as that last store's value, whatever the earlier stores and the prior contents were. -/
theorem acc_read_last_store {sg : RefSig} {κ : Kind} {sp : Space} (v : View sg κ sp S64 .f32) (f : v.ty.Contents (Elt F))
    (p : Vec F S64 .f32) (L : List (View.Piece (Elt F) S64 .f32)) :
    v.read (Elt F) (v.writes (Elt F) f ((⟨accRect, p⟩ : View.Piece (Elt F) S64 .f32) :: L)) = p := by
  rw [View.read_writes_eq_canon _ _ _ (accRect_cover_last p L)]
  exact View.canon_cons_unit_zero (S := S64) zeroOff1 inb_S64_S64_0 p L

/-! ## The body run, case by case -/

set_option maxHeartbeats 1000000 in
/-- THE FIRST POINT. On whole staging memrefs, the inputs' at contents `x`, `a`, `w` and the accumulators' at anything,
    the body runs to the continuation with the inputs as they were and the accumulators at one step from zeros. Each
    accumulator's buffer ends with two whole-buffer stores, the zeros and then the sum: it reads as the later one,
    whose operand loaded in between reads the zeros; the input loads read the whole blocks. -/
theorem sound_kernel0_A (c : Dev nD) (E : Set ℕ) (i : grid0.Coords) (hc : cond0_0 i)
    (arg1 : Memref sig .tc .vmem S400x100x4 .f32) (harg1 : arg1.IsWhole) (arg2 : Memref sig .tc .vmem S400x8 .f32) (harg2 : arg2.IsWhole)
    (arg3 : Memref sig .tc .vmem S9x64 .f32) (harg3 : arg3.IsWhole) (arg4 : Memref sig .tc .vmem S64 .f32) (harg4 : arg4.IsWhole)
    (arg5 : Memref sig .tc .vmem S64 .f32) (harg5 : arg5.IsWhole)
    (x : Vec F S400x100x4 .f32) (a : Vec F S400x8 .f32) (w : Vec F S9x64 .f32) (K : PUnit → sProp 𝕄) :
    iprop(owns (c : Thread nD τ) arg1 fullShare x ∗ owns (c : Thread nD τ) arg2 fullShare a ∗ owns (c : Thread nD τ) arg3 fullShare w
        ∗ (∃ d, owns (c : Thread nD τ) arg4 fullShare d) ∗ (∃ d, owns (c : Thread nD τ) arg5 fullShare d)
        ∗ (iprop(owns (c : Thread nD τ) arg1 fullShare x ∗ owns (c : Thread nD τ) arg2 fullShare a ∗ owns (c : Thread nD τ) arg3 fullShare w
            ∗ owns (c : Thread nD τ) arg4 fullShare (step0 x a w k0_pay3 k0_pay4).1
            ∗ owns (c : Thread nD τ) arg5 fullShare (step0 x a w k0_pay3 k0_pay4).2) -∗ K ⟨⟩))
      ⊢ wp frame (wpE (defs₀ (F := F)) Variants.none c none) E (cc0_stats_kernel i arg1 harg1 arg2 harg2 arg3 harg3 arg4 harg4 arg5 harg5) K := by
  simp only [cc0_stats_kernel_eq_skeleton]; unfold cc0_stats_kernel_skel
  simp only [k0_part1_eq_skeleton]; unfold k0_part1_skel
  unfold owns
  iintro ⟨⟨%f1, %hf1, H1⟩, ⟨%f2, %hf2, H2⟩, ⟨%f3, %hf3, H3⟩, ⟨%d4, %f4, -, H4⟩, ⟨%d5, %f5, -, H5⟩, Hk⟩
  obtain rfl := harg1.eq_unread hf1; obtain rfl := harg2.eq_unread hf2; obtain rfl := harg3.eq_unread hf3
  sl_exec (disch := first | exact hc)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr
    swap; · iexact H4
    ipureintro
    refine (acc_read_last_store _ _ _ _).trans ?_
    dsimp only [step0]
    sl_unfold_words
    simp only [View.readAt_eq_ld, harg1.read_unread, harg2.read_unread, harg3.read_unread,
      View.ld_unit_zero (S := S400x100x4) zeroOff3, View.ld_unit_zero (S := S400x8) zeroOff2, View.ld_unit_zero (S := S9x64) zeroOff2,
      View.readCov_unit_zero (S := S64) _ zeroOff1]
  iexists _; isplitr
  swap; · iexact H5
  ipureintro
  refine (acc_read_last_store _ _ _ _).trans ?_
  dsimp only [step0]
  sl_unfold_words
  simp only [View.readAt_eq_ld, harg1.read_unread, harg2.read_unread, harg3.read_unread,
    View.ld_unit_zero (S := S400x100x4) zeroOff3, View.ld_unit_zero (S := S400x8) zeroOff2, View.ld_unit_zero (S := S9x64) zeroOff2,
    View.readCov_unit_zero (S := S64) _ zeroOff1]

set_option maxHeartbeats 1000000 in
/-- A LATER POINT. The same with the accumulators' memrefs at contents `s`, `q`: no reset, so each ends with one
    whole-buffer store whose operand is a load of what it held, and reads as one step from `(s, q)`. -/
theorem sound_kernel0_B (c : Dev nD) (E : Set ℕ) (i : grid0.Coords) (hc : ¬cond0_0 i)
    (arg1 : Memref sig .tc .vmem S400x100x4 .f32) (harg1 : arg1.IsWhole) (arg2 : Memref sig .tc .vmem S400x8 .f32) (harg2 : arg2.IsWhole)
    (arg3 : Memref sig .tc .vmem S9x64 .f32) (harg3 : arg3.IsWhole) (arg4 : Memref sig .tc .vmem S64 .f32) (harg4 : arg4.IsWhole)
    (arg5 : Memref sig .tc .vmem S64 .f32) (harg5 : arg5.IsWhole)
    (x : Vec F S400x100x4 .f32) (a : Vec F S400x8 .f32) (w : Vec F S9x64 .f32) (s q : Vec F S64 .f32) (K : PUnit → sProp 𝕄) :
    iprop(owns (c : Thread nD τ) arg1 fullShare x ∗ owns (c : Thread nD τ) arg2 fullShare a ∗ owns (c : Thread nD τ) arg3 fullShare w
        ∗ owns (c : Thread nD τ) arg4 fullShare s ∗ owns (c : Thread nD τ) arg5 fullShare q
        ∗ (iprop(owns (c : Thread nD τ) arg1 fullShare x ∗ owns (c : Thread nD τ) arg2 fullShare a ∗ owns (c : Thread nD τ) arg3 fullShare w
            ∗ owns (c : Thread nD τ) arg4 fullShare (step0 x a w s q).1
            ∗ owns (c : Thread nD τ) arg5 fullShare (step0 x a w s q).2) -∗ K ⟨⟩))
      ⊢ wp frame (wpE (defs₀ (F := F)) Variants.none c none) E (cc0_stats_kernel i arg1 harg1 arg2 harg2 arg3 harg3 arg4 harg4 arg5 harg5) K := by
  simp only [cc0_stats_kernel_eq_skeleton]; unfold cc0_stats_kernel_skel
  simp only [k0_part1_eq_skeleton]; unfold k0_part1_skel
  unfold owns
  iintro ⟨⟨%f1, %hf1, H1⟩, ⟨%f2, %hf2, H2⟩, ⟨%f3, %hf3, H3⟩, ⟨%f4, %hf4, H4⟩, ⟨%f5, %hf5, H5⟩, Hk⟩
  obtain rfl := harg1.eq_unread hf1; obtain rfl := harg2.eq_unread hf2; obtain rfl := harg3.eq_unread hf3
  obtain rfl := harg4.eq_unread hf4; obtain rfl := harg5.eq_unread hf5
  sl_exec (disch := first | exact hc)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr
    swap; · iexact H4
    ipureintro
    refine (acc_read_last_store _ _ _ _).trans ?_
    dsimp only [step0]
    sl_unfold_words
    simp only [View.readAt_eq_ld, harg1.read_unread, harg2.read_unread, harg3.read_unread, harg4.read_unread,
      View.ld_unit_zero (S := S400x100x4) zeroOff3, View.ld_unit_zero (S := S400x8) zeroOff2, View.ld_unit_zero (S := S9x64) zeroOff2,
      View.ld_unit_zero (S := S64) zeroOff1]
  iexists _; isplitr
  swap; · iexact H5
  ipureintro
  refine (acc_read_last_store _ _ _ _).trans ?_
  dsimp only [step0]
  sl_unfold_words
  simp only [View.readAt_eq_ld, harg1.read_unread, harg2.read_unread, harg3.read_unread, harg5.read_unread,
    View.ld_unit_zero (S := S400x100x4) zeroOff3, View.ld_unit_zero (S := S400x8) zeroOff2, View.ld_unit_zero (S := S9x64) zeroOff2,
    View.ld_unit_zero (S := S64) zeroOff1]

variable (V : (c : Dev nD) → (b : Ref sig .tc) → Buf (Elt F) ((c : Thread nD τ).loc b))

/-! ## What the staging buffers hold when the body is called -/

/-- The pillar block's buffer (window 0, fetched at every point) holds the point's block. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)

/-- So does the auxiliary block's buffer (window 1, fetched at every point). -/
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

/-- The weights' buffer (window 2) is fetched at the first point only; its block index never moves and the body
    leaves it in place, so at every point it holds the whole weight matrix. -/
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)

/-- At a point after the first, the buffer of the running sum (window 3) holds what the body left at the point
    before: it is written back after the last point only. -/
theorem before0_3_B (c : Dev nD) (t : Fin cfg0.N) (h0 : ¬t.val % 50 = 0) (d) :
    (dat0 V c).before 3 t d = (outsAt0 V c (t.val - 1) (Nat.lt_of_le_of_lt (Nat.sub_le _ _) t.isLt)).1 := by
  have hN : t.val < 50 := lt_of_lt_of_eq t.isLt (show cfg0.N = 50 from N_0)
  rw [Dat.before_out_kept _ 3 rfl t (by omega) (Bool.eq_false_iff.mpr fun h => by have := (flush0_3 _).mp h; dsimp only at this; omega)
    (fun _ => rfl) (fun _ _ => rfl)]
  dsimp only [dat0]

/-- Likewise the buffer of the running sum of squares (window 4). -/
theorem before0_4_B (c : Dev nD) (t : Fin cfg0.N) (h0 : ¬t.val % 50 = 0) (d) :
    (dat0 V c).before 4 t d = (outsAt0 V c (t.val - 1) (Nat.lt_of_le_of_lt (Nat.sub_le _ _) t.isLt)).2 := by
  have hN : t.val < 50 := lt_of_lt_of_eq t.isLt (show cfg0.N = 50 from N_0)
  rw [Dat.before_out_kept _ 4 rfl t (by omega) (Bool.eq_false_iff.mpr fun h => by have := (flush0_4 _).mp h; dsimp only at this; omega)
    (fun _ => rfl) (fun _ _ => rfl)]
  dsimp only [dat0]

/-! ## The accumulators point by point, by case -/

/-- At the first point the accumulators are one step from zeros. -/
theorem outsAt0_A (c : Dev nD) (t : Fin cfg0.N) (h0 : t.val % 50 = 0) :
    outsAt0 V c t.val t.isLt = step0 (iblk0 V c 0 t) (iblk0 V c 1 t) (iblk0 V c 2 t) k0_pay3 k0_pay4 := by
  obtain ⟨n, hn⟩ := t
  have hN : n < 50 := lt_of_lt_of_eq hn (show cfg0.N = 50 from N_0)
  cases n with
  | zero => rfl
  | succ n => exfalso; dsimp only at h0; omega

/-- At a later point they are one step from what the point before left. -/
theorem outsAt0_B (c : Dev nD) (t : Fin cfg0.N) (h0 : ¬t.val % 50 = 0) :
    outsAt0 V c t.val t.isLt = step0 (iblk0 V c 0 t) (iblk0 V c 1 t) (iblk0 V c 2 t)
      (outsAt0 V c (t.val - 1) (Nat.lt_of_le_of_lt (Nat.sub_le _ _) t.isLt)).1
      (outsAt0 V c (t.val - 1) (Nat.lt_of_le_of_lt (Nat.sub_le _ _) t.isLt)).2 := by
  obtain ⟨n, hn⟩ := t
  cases n with
  | zero => exact absurd (Nat.zero_mod _) h0
  | succ n => rfl

/-! ## The body obligation -/

/-- What the body is called with at point `t`, the five windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

set_option maxHeartbeats 800000 in
/-- The body at any point. The three inputs' buffers hold their blocks; at the first point the accumulators' buffers
    hold anything and the body resets them before it adds, at a later point they hold what the point before left:
    in both cases the run leaves them one step further, which is what the proof data says they hold after the point.
    The invariant and the core's debts pass through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4]
  by_cases h0 : t.val % 50 = 0
  · rw [outsAt0_A V c t h0]
    iintro ⟨HΦ, Ho, ⟨%d0, H0⟩, ⟨%d1, H1⟩, ⟨%d2, H2⟩, ⟨%d3, H3⟩, ⟨%d4, H4⟩⟩
    iapply (sound_kernel0_A c Set.univ (grid0.coords t) ((hcond0_0 t).mpr h0) _ _ _ _ _ _ _ _ _ _
      (iblk0 V c 0 t) (iblk0 V c 1 t) (iblk0 V c 2 t) _)
    isplitl [H0]; · iexact H0
    isplitl [H1]; · iexact H1
    isplitl [H2]; · iexact H2
    isplitl [H3]; · iexists _; iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  · rw [outsAt0_B V c t h0]
    simp only [before0_3_B V c t h0, before0_4_B V c t h0]
    iintro ⟨HΦ, Ho, ⟨%d0, H0⟩, ⟨%d1, H1⟩, ⟨%d2, H2⟩, ⟨%d3, H3⟩, ⟨%d4, H4⟩⟩
    iapply (sound_kernel0_B c Set.univ (grid0.coords t) (fun h => h0 ((hcond0_0 t).mp h)) _ _ _ _ _ _ _ _ _ _
      (iblk0 V c 0 t) (iblk0 V c 1 t) (iblk0 V c 2 t) _ _ _)
    isplitl [H0]; · iexact H0
    isplitl [H1]; · iexact H1
    isplitl [H2]; · iexact H2
    isplitl [H3]; · iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4

/-- The library's body obligation for the statistics pass, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.RunFold.lean ====
/-
  @main's buffer contents, item by item.

  @main is a stretch of host operations, the statistics region, a second stretch of host operations and the
  normalise-and-pool region. This module names core `c`'s buffer contents before the first item and after each
  (`W0` … `W4`): a host stretch acts as `StableHlo.after`; a region replaces each of its windows' arrays by what its
  write-backs leave after the last grid point and touches nothing else. It then reads the six argument arrays back
  through the four items to their launch contents: no host operation writes an argument, and a region changes a
  buffer only by writing an output window's block back to it, which no argument is.
-/
import proofs.«117744_j60705067762261_1_alg».proof.Proof.MainBody
import proofs.«117744_j60705067762261_1_alg».proof.Proof.StatsBody
import proofs.«117744_j60705067762261_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary of @main

@main is four items in a row: a stretch of host operations, the statistics region, a second stretch of host
operations, the normalise-and-pool region. `W0` … `W4` are core `c`'s buffer contents before the first item and
after each one. -/

/-- Core `c`'s buffers at launch: the launch state's memory. -/
abbrev W0 : Dev nD → Valuation τ sig (Elt F) := fun c b =>
  (⟨m, fun _ => 0, ρ⟩ : MemSt nD τ sig (Elt F)).mem ((c : Dev nD), b)
/-- After the first host stretch: where the statistics region is entered. -/
abbrev W1 : Dev nD → Valuation τ sig (Elt F) := fun c => StableHlo.after hostOps0 (W0 m ρ c)
/-- The same, read at the TensorCore's references (what the statistics region's proof data take). -/
abbrev V1 : (c : Dev nD) → (b : Ref sig .tc) → Buf (Elt F) ((c : Thread nD τ).loc b) := fun c b => W1 m ρ c b

/-- After the statistics region: each of its five arrays at what its write-backs leave after all 50 points, every
    other buffer as the region found it. -/
def W2 (c : Dev nD) : Valuation τ sig (Elt F) :=
  Pipeline.withArrays spec0 c (W1 m ρ c) fun w => (dat0 (V1 m ρ) c).arrAt w cfg0.N

theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w

theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb

/-- After the second host stretch: where the normalise-and-pool region is entered. -/
abbrev W3 : Dev nD → Valuation τ sig (Elt F) := fun c => StableHlo.after hostOps1 (W2 m ρ c)
/-- The same, read at the TensorCore's references. -/
abbrev V3 : (c : Dev nD) → (b : Ref sig .tc) → Buf (Elt F) ((c : Thread nD τ).loc b) := fun c b => W3 m ρ c b

/-- After the normalise-and-pool region: each of its six arrays at what its write-backs leave after all 50 points,
    every other buffer as the region found it. -/
def W4 (c : Dev nD) : Valuation τ sig (Elt F) :=
  Pipeline.withArrays spec1 c (W3 m ρ c) fun w => (dat1 (V3 m ρ) c).arrAt w cfg1.N

theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w

theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb

/-! ## What a region leaves alone

A region changes a buffer only by writing an OUTPUT window's block back to it. So a buffer that is no output window's
array leaves the region as it entered: either it is no window's array at all, or it is an input window's array, which
is never written back and so still holds the contents the proof data were given. -/

theorem W2_keep (c : Dev nD) (b : Ref sig .tc)
    (hout : ∀ w, (cfg0.win w).isOut = true → Pipeline.arrRef spec0 w ≠ b) :
    W2 m ρ c (Proc.devRef .tc b) = W1 m ρ c (Proc.devRef .tc b) := by
  by_cases h : ∃ w, Pipeline.arrRef spec0 w = b
  · obtain ⟨w, rfl⟩ := h
    have hin : (cfg0.win w).isOut = false := by
      cases hw : (cfg0.win w).isOut with
      | false => rfl
      | true => exact absurd rfl (hout w hw)
    exact (W2_arr m ρ c w).trans (((dat0 (V1 m ρ) c).arrAt_in w hin _).trans (A_eq0 (V1 m ρ) c w))
  · exact W2_of_ne m ρ c b fun w e => h ⟨w, e⟩

theorem W4_keep (c : Dev nD) (b : Ref sig .tc)
    (hout : ∀ w, (cfg1.win w).isOut = true → Pipeline.arrRef spec1 w ≠ b) :
    W4 m ρ c (Proc.devRef .tc b) = W3 m ρ c (Proc.devRef .tc b) := by
  by_cases h : ∃ w, Pipeline.arrRef spec1 w = b
  · obtain ⟨w, rfl⟩ := h
    have hin : (cfg1.win w).isOut = false := by
      cases hw : (cfg1.win w).isOut with
      | false => rfl
      | true => exact absurd rfl (hout w hw)
    exact (W4_arr m ρ c w).trans (((dat1 (V3 m ρ) c).arrAt_in w hin _).trans (A_eq1 (V3 m ρ) c w))
  · exact W4_of_ne m ρ c b fun w e => h ⟨w, e⟩

/-- A buffer that neither region writes back to and neither host stretch writes ends @main holding its launch
    contents: walk the four items backwards. -/
theorem W4_of_untouched (c : Dev nD) (b : Ref sig .tc)
    (h3 : ∀ w, (cfg1.win w).isOut = true → Pipeline.arrRef spec1 w ≠ b) (h2 : b ∉ hostOps1_W)
    (h1 : ∀ w, (cfg0.win w).isOut = true → Pipeline.arrRef spec0 w ≠ b) (h0 : b ∉ hostOps0_W) :
    W4 m ρ c (Proc.devRef .tc b) = m ((c : Thread nD τ).loc b) :=
  calc W4 m ρ c (Proc.devRef .tc b)
    _ = W3 m ρ c (Proc.devRef .tc b) := W4_keep m ρ c b h3
    _ = W2 m ρ c (Proc.devRef .tc b) := StableHlo.after_of_writes_sub hostOps1 _ hostOps1_writes h2
    _ = W1 m ρ c (Proc.devRef .tc b) := W2_keep m ρ c b h1
    _ = W0 m ρ c (Proc.devRef .tc b) := StableHlo.after_of_writes_sub hostOps0 _ hostOps0_writes h0
    _ = m ((c : Thread nD τ).loc b) := rfl

/-! ### The six arguments end as launched

No host operation writes an argument, and no argument is an output window's array (`main_arg0` and `main_arg3` are
input windows' arrays of both regions; the other four are no window's array). -/

theorem W4_main_arg0 (c : Dev nD) : W4 m ρ c (Proc.devRef .tc main_arg0) = m ((c : Thread nD τ).loc main_arg0) :=
  W4_of_untouched m ρ c main_arg0 (by decide) (by decide) (by decide) (by decide)
theorem W4_main_arg1 (c : Dev nD) : W4 m ρ c (Proc.devRef .tc main_arg1) = m ((c : Thread nD τ).loc main_arg1) :=
  W4_of_untouched m ρ c main_arg1 (by decide) (by decide) (by decide) (by decide)
theorem W4_main_arg2 (c : Dev nD) : W4 m ρ c (Proc.devRef .tc main_arg2) = m ((c : Thread nD τ).loc main_arg2) :=
  W4_of_untouched m ρ c main_arg2 (by decide) (by decide) (by decide) (by decide)
theorem W4_main_arg3 (c : Dev nD) : W4 m ρ c (Proc.devRef .tc main_arg3) = m ((c : Thread nD τ).loc main_arg3) :=
  W4_of_untouched m ρ c main_arg3 (by decide) (by decide) (by decide) (by decide)
theorem W4_main_arg4 (c : Dev nD) : W4 m ρ c (Proc.devRef .tc main_arg4) = m ((c : Thread nD τ).loc main_arg4) :=
  W4_of_untouched m ρ c main_arg4 (by decide) (by decide) (by decide) (by decide)
theorem W4_main_arg5 (c : Dev nD) : W4 m ρ c (Proc.devRef .tc main_arg5) = m ((c : Thread nD τ).loc main_arg5) :=
  W4_of_untouched m ρ c main_arg5 (by decide) (by decide) (by decide) (by decide)

end Cert.KernelIdeal.Hand

end
-- ==== Proof.Run.lean ====
/-
  The run of @main from the launch to the return.

  @main is four segments: a stretch of host operations, the statistics region, a second stretch of host operations,
  the normalise-and-pool region. Between any two of them a core holds every unscoped buffer whole, at the contents
  `W0` … `W4` of the fold, beside its generator register and the fact that it owes nothing. A host stretch moves the
  buffers from one valuation to the next. A region is entered by splitting its windows' arrays out of the unscoped
  buffers, runs its pipeline under the body obligation proved for it, and is left by putting the arrays back at what
  the write-backs made of them. Chained from the launch, this gives termination without fault and the final memory
  of every unscoped buffer (`run_all`); at the six arguments that memory is the launch memory (`frame`).
-/
import proofs.«117744_j60705067762261_1_alg».proof.Proof.RunFold

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data of both regions, and what every core holds between items -/

/-- Neither region has a prefetched table. -/
abbrev adm : (p : Fin 2) → (pcfgs (F := F) p).Adm := fun p => (cfgs p).toPCfg_adm

/-- Each region's proof data at the contents it is entered from: the statistics region at `W1`, the
    normalise-and-pool region at `W3`. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c

abbrev 𝒱₀ : Variants := Variants.none
/-- No core ever waits on another, so no level is assigned. -/
abbrev L : GSem nD τ sig → Finset Unit := fun _ => ∅
abbrev lv : GSem nD τ sig → Unit → ℕ := fun _ _ => 0

/-- What a core holds besides its unscoped buffers, the same between any two items: its generator register at some
    state, and that it owes nothing. -/
abbrev R (c : Dev nD) : sProp 𝕄 :=
  iprop((∃ r, prngReg c r) ∗ ∃ W, owes (c : Thread nD τ) (0 : CellTallies nD τ sig Unit) W)

/-- A stretch of host operations from contents `W`: it takes every unscoped buffer from `W c` to
    `StableHlo.after ops (W c)` and leaves `R c` alone. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is one of those a core holds between items. -/
theorem mem_uc (b : Ref sig .tc) (h : ¬ (Proc.devRef .tc b : DevRef τ sig).isScoped) :
    Proc.devRef .tc b ∈ Pipeline.ucRefs τ sig :=
  Finset.mem_filter.mpr ⟨StableHlo.devRef_mem_tcRefs b, h⟩

/-- What a core holds after the last item, without the "owes nothing": every unscoped buffer at `W4`, the generator
    register at some state. -/
abbrev Tₙ (c : Dev nD) : sProp 𝕄 :=
  iprop(StableHlo.held (c : Thread nD τ) (Pipeline.ucRefs τ sig) (W4 m ρ c) ∗ ∃ r, prngReg c r)

/-! ## Dues of a region whose body owes nothing

Neither kernel body signals another core or waits on a semaphore of its own, so at every point the region's dues are
"owes nothing", with no constraint on which waits the core has recorded. Entering a region that is what the core
brings, and leaving it that is what the core takes away. -/

theorem owesAt_of_owes_zero {cfg : Cfg sig Λ₀} {c : Dev nD} (dat : Dat τ (Elt F) Unit ℕ (UR sig nD τ) ℕ cfg c)
    (t : Fin (cfg.N + 1)) (h0 : dat.owed t = 0) (hrec : dat.recorded t = Set.univ) :
    (iprop(∃ W, owes (c : Thread nD τ) (0 : CellTallies nD τ sig Unit) W) : sProp 𝕄) ⊢ dat.owesAt () t := by
  unfold Dat.owesAt Pipeline.owesWithin
  rw [h0]
  iintro ⟨%W, H⟩
  iexists W
  isplitr
  · ipureintro
    intro x _
    exact Or.inl (by rw [hrec]; trivial)
  iexact H

theorem owes_zero_of_owesAt {cfg : Cfg sig Λ₀} {c : Dev nD} (dat : Dat τ (Elt F) Unit ℕ (UR sig nD τ) ℕ cfg c)
    (t : Fin (cfg.N + 1)) (h0 : dat.owed t = 0) :
    dat.owesAt () t ⊢ (iprop(∃ W, owes (c : Thread nD τ) (0 : CellTallies nD τ sig Unit) W) : sProp 𝕄) := by
  unfold Dat.owesAt Pipeline.owesWithin
  rw [h0]
  iintro ⟨%W, -, H⟩
  iexists W
  iexact H

/-! ## The two regions as segments

A region is entered from "every unscoped buffer at the boundary's contents, beside `R`" and left at the same shape
at the next boundary's contents. Four facts connect this to the pipeline:

* entry: the region's arrays are some of the unscoped buffers, so those split into the arrays (at the contents the
  proof data were given) and the rest; there is no prefetched table; "owes nothing" is the region's dues;
* the generator register goes into the region's invariant with the scoped buffers no window stages, and
* comes back out of it at the end;
* exit: the arrays at what the write-backs left, with the untouched rest, are every unscoped buffer at the next
  boundary's contents, because those contents were DEFINED as the arrays' final contents on the arrays and the old
  contents elsewhere. -/

set_option backward.isDefEq.respectTransparency.types false in
/-- The statistics region: from `W1` to `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    have hsplit := Pipeline.arrays_of_unscopedBufs (p := 0) (pcfgs (F := F)) adm (pdats m ρ) launch0.win
      launch0.arr_whole c ((pdats m ρ 0 c).share_full fun _ => rfl) (V1 m ρ c) fun _ => rfl
    rw [Pipeline.unscopedBufs_held] at hsplit
    have hdues := owesAt_of_owes_zero (pdats m ρ 0 c) 0 rfl rfl
    iintro ⟨⟨Hbufs, Hreg, Hdues⟩, -, -⟩
    imodintro
    ihave Hsp := hsplit $$ Hbufs
    icases Hsp with ⟨Harr, Hrest⟩
    isplitl [Harr]; · iexact Harr
    isplitr
    · unfold Pipeline.prefHeld
      rw [show (Finset.univ : Finset (Fin 0)) = ∅ from rfl, BI.bigSep_empty]
      iempintro
    isplitl [Hdues]; · iapply hdues; iexact Hdues
    isplitl [Hreg]; · iexact Hreg
    iexact Hrest
  hin c := by
    change _ ⊢ (Pipeline.ΦA spec0 c : sProp 𝕄)
    unfold Pipeline.ΦA
    iintro ⟨Hreg, -, Hsc⟩
    isplitl [Hsc]; · iexact Hsc
    iexact Hreg
  hout c := by
    rw [Pipeline.ownSems0_none]
    change (Pipeline.ΦA spec0 c : sProp 𝕄) ⊢ _
    unfold Pipeline.ΦA
    iintro ⟨Hsc, Hreg⟩
    isplitl [Hreg]; · iexact Hreg
    isplitr; · iempintro
    iexact Hsc
  hexit c := by
    have hjoin := Pipeline.unscopedBufs_of_arrays (p := 0) (pcfgs (F := F)) adm (Ix := Unit) (Name := ℕ)
      (U := UR sig nD τ) (Lvl := ℕ) launch0.win launch0.arr_whole c (pdats m ρ)
      ((pdats m ρ 0 c).share_full fun _ => rfl) (V1 m ρ c) (fun b => W2 m ρ c b) ((pdats m ρ 0 c).arrAt · cfg0.N)
      (fun w => (W2_arr m ρ c w).symm)
      (fun b hb => W2_of_ne m ρ c b fun w e => hb (Finset.mem_image.mpr ⟨w, Finset.mem_univ _, e⟩))
    rw [Pipeline.unscopedBufs_held] at hjoin
    have hdues := owes_zero_of_owesAt (pdats m ρ 0 c) (Fin.last _) rfl
    iintro ⟨Harr, Hdues, Hreg, Hrest⟩
    imodintro
    isplitl [Harr Hrest]
    · iapply hjoin
      isplitl [Harr]; · iexact Harr
      iexact Hrest
    isplitl [Hreg]; · iexact Hreg
    iapply hdues; iexact Hdues

set_option backward.isDefEq.respectTransparency.types false in
/-- The normalise-and-pool region: from `W3` to `W4`. It is the last item, so its exit state is written as the run's
    final state `Tₙ` beside "owes nothing". -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    have hsplit := Pipeline.arrays_of_unscopedBufs (p := 1) (pcfgs (F := F)) adm (pdats m ρ) launch1.win
      launch1.arr_whole c ((pdats m ρ 1 c).share_full fun _ => rfl) (V3 m ρ c) fun _ => rfl
    rw [Pipeline.unscopedBufs_held] at hsplit
    have hdues := owesAt_of_owes_zero (pdats m ρ 1 c) 0 rfl rfl
    iintro ⟨⟨Hbufs, Hreg, Hdues⟩, -, -⟩
    imodintro
    ihave Hsp := hsplit $$ Hbufs
    icases Hsp with ⟨Harr, Hrest⟩
    isplitl [Harr]; · iexact Harr
    isplitr
    · unfold Pipeline.prefHeld
      rw [show (Finset.univ : Finset (Fin 0)) = ∅ from rfl, BI.bigSep_empty]
      iempintro
    isplitl [Hdues]; · iapply hdues; iexact Hdues
    isplitl [Hreg]; · iexact Hreg
    iexact Hrest
  hin c := by
    change _ ⊢ (Pipeline.ΦA spec1 c : sProp 𝕄)
    unfold Pipeline.ΦA
    iintro ⟨Hreg, -, Hsc⟩
    isplitl [Hsc]; · iexact Hsc
    iexact Hreg
  hout c := by
    rw [Pipeline.ownSems0_none]
    change (Pipeline.ΦA spec1 c : sProp 𝕄) ⊢ _
    unfold Pipeline.ΦA
    iintro ⟨Hsc, Hreg⟩
    isplitl [Hreg]; · iexact Hreg
    isplitr; · iempintro
    iexact Hsc
  hexit c := by
    have hjoin := Pipeline.unscopedBufs_of_arrays (p := 1) (pcfgs (F := F)) adm (Ix := Unit) (Name := ℕ)
      (U := UR sig nD τ) (Lvl := ℕ) launch1.win launch1.arr_whole c (pdats m ρ)
      ((pdats m ρ 1 c).share_full fun _ => rfl) (V3 m ρ c) (fun b => W4 m ρ c b) ((pdats m ρ 1 c).arrAt · cfg1.N)
      (fun w => (W4_arr m ρ c w).symm)
      (fun b hb => W4_of_ne m ρ c b fun w e => hb (Finset.mem_image.mpr ⟨w, Finset.mem_univ _, e⟩))
    rw [Pipeline.unscopedBufs_held] at hjoin
    have hdues := owes_zero_of_owesAt (pdats m ρ 1 c) (Fin.last _) rfl
    iintro ⟨Harr, Hdues, Hreg, Hrest⟩
    imodintro
    isplitr [Hdues]
    · isplitl [Harr Hrest]
      · iapply hjoin
        isplitl [Harr]; · iexact Harr
        iexact Hrest
      iexact Hreg
    iapply hdues; iexact Hdues

/-! ## @main as its four segments, and the run from the launch -/

/-- @main's four items as segments, each host stretch from its boundary's contents. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]

/-- @main is the run of those segments: it is the chain of its four items, and so is the segments' run. -/
theorem main_run (c : Dev nD) : main (F := F) c = Pipeline.Seg.run (segs m ρ) :=
  (main_chain c).trans (by chain_rfl)

set_option backward.isDefEq.respectTransparency.types false in
/-- The run: from any launch memory `m` with all counters at zero and any generator registers `ρ`, every weakly fair
    execution of @main on the TensorCores terminates without fault, and in every final state each core's unscoped
    buffers hold `W4`. Three things are owed besides the segments:

    * the launch's ghost element is the pipelines' own initial element, and no core needs a ghost resource of its own;
    * the first thread state on each core: the launch hands it its unscoped buffers at `m`, which is `W0`; its generator
      register at `ρ c`, which is "at some state"; and that it owes nothing;
    * the last thread state read against a final state: a buffer held whole at given contents is what the state's
      memory holds there. -/
theorem run_all : θ_run defs (onTc (τ := τ) (main (F := F))) ⟨m, fun _ => 0, ρ⟩ (fun r => ∀ c : Dev nD,
      ∀ b ∈ Pipeline.ucRefs τ sig, r.2.mem ((c : Thread nD τ).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      have hown : (ownU (initOf (Pipeline.cells cfgs cellOf_inj) (Pipeline.launchToks cfgs cellOf_inj)) : sProp 𝕄)
          ⊢ BI.own (emb₁ (initOf (Pipeline.cells cfgs cellOf_inj) (Pipeline.launchToks cfgs cellOf_inj))) := .rfl
      have hemp : (BI.emp : sProp 𝕄) ⊢ bigSep Finset.univ (fun _ : Dev nD => (BI.emp : sProp 𝕄)) := by
        rw [BI.bigSep_emp_const]
      iintro Hu
      imodintro
      isplitl [Hu]; · iapply hown; iexact Hu
      iapply hemp; iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b))
          = StableHlo.held (c : Thread nD τ) (Pipeline.ucRefs τ sig) (W0 m ρ c)
        from Pipeline.unscopedBufs_held c (W0 m ρ c)]
      iintro ⟨⟨Hbufs, -, Hdues, -, Hreg, -⟩, -⟩
      imodintro
      isplitl [Hbufs]; · iexact Hbufs
      isplitl [Hreg]; · iexists ρ c; iexact Hreg
      iexists ∅; iexact Hdues)
    (QY := fun c s => ∀ b ∈ Pipeline.ucRefs τ sig, s.mem (((c : Thread nD τ)).1, b) = W4 m ρ c b)
    (hfin := fun c s' => by
      have hread := pointsTo_read_all (Ix := Unit) (Name := ℕ) (U := UR sig nD τ) (Lvl := ℕ) (Pipeline.ucRefs τ sig) (fun b => (((c : Thread nD τ)).1, b)) (W4 m ρ c) s'
      iintro ⟨⟨Hbufs, -⟩, HSI⟩
      unfold StableHlo.held
      imodintro
      iapply hread
      isplitl [Hbufs]; · iexact Hbufs
      iexact HSI)
    (hQ := fun s h => h)

/-- The frame claim: @main runs, and every argument array ends holding its launch contents. Each argument's buffer is
    unscoped, so the run's final memory holds `W4` there, and `W4` at an argument is the launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c)⟩) (run_all m ρ)

end Cert.KernelIdeal.Hand

end
-- ==== Proof.BitsMainDefs.lean ====
/-
  The normalise-and-pool pass as a pipeline region, at any contents `V` of the core's buffers when the region is
  entered.

  The grid has 50 points; point `t` sees pillars 400 t .. 400 t + 399 (windows 0 and 1), the whole weight matrix
  (window 2) and the folded scale and shift vectors (windows 3 and 4), and writes the 400 x 64 block of the result
  (window 5): per pillar and channel the maximum over the pillar's points of the rectified `x * scale + shift`.
  Nothing is carried between points.
-/
import proofs.«117744_j60705067762261_1_alg».proof.Proof.Gen.Kernel.Launch
import proofs.«117744_j60705067762261_1_alg».proof.Proof.Gen.Kernel.Skeleton
import proofs.«117744_j60705067762261_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- One grid point's result block from its five input blocks. -/
def main1 (x : Vec F S400x100x4 .f32) (a : Vec F S400x8 .f32) (w : Vec F S9x64 .f32) (sc sh : Vec F S64 .f32) :
    Vec F S400x64 .f32 :=
  k1_pay1 (k1_pay2 x a w sc) (k1_pay3 sh)

/-- The region's proof data on core `c`: the arrays as the region finds them; after the body at point `t` each
    input's buffer at its block and the output's at `main1` of the input blocks. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => main1 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t
    = main1 (iblk1 V c 0 t) (iblk1 V c 1 t) (iblk1 V c 2 t) (iblk1 V c 3 t) (iblk1 V c 4 t) := by dsimp only [dat1]

end Cert.Kernel.Hand

end
-- ==== Proof.BitsMainBody.lean ====
/-
  The body obligation of the normalise-and-pool region.

  At every one of the 50 grid points the kernel body reads its five input staging buffers whole, computes one
  400 x 64 block `main1 x a w sc sh` from what it read, and overwrites the output staging buffer whole with it.
  There is no branch and nothing is carried from point to point, so the obligation has three ingredients:

  * an input's staging buffer holds that window's block at EVERY point, whether the pipeline fetched it there or
    not. Windows 0 and 1 move with the point and are fetched each time; windows 2, 3 and 4 (weights, scale, shift)
    have a constant block index, are fetched at the first point only, and are left in place by the body, so the
    buffer still holds the block at every later point (`before1_0` … `before1_4`);
  * the body's triple on abstract whole buffers (`sound_kernel1`): a load through the full rectangle at offset
    zero reads the buffer's contents, and a single store through the full rectangle leaves exactly its payload,
    whatever the buffer held before;
  * the two put together at a point, with the region's invariant and the core's dues passing through untouched
    (`sound_body1`), which is the library's obligation once its conjunction over the six windows is written out
    (`body_obligation1`).
-/
import proofs.«117744_j60705067762261_1_alg».proof.Proof.BitsMainDefs
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input windows' staging buffers hold their blocks

For an input window whose block the body leaves in place, the buffer before the body at a point holds what a fetch at
that point would put there: at a fetched point by the fetch, at an unfetched point because the block index has not
moved since the last fetch and nothing wrote the buffer in between. None of the five windows is clipped at the array's
edge (400 divides 20000) and none has an idle point. -/

/-- Input window 0 (the 400 x 100 x 4 block of pillar points): its current staging buffer holds its block at point `t`. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)

/-- Input window 1 (the 400 x 8 block of per-pillar auxiliary values): its current staging buffer holds its block at point `t`. -/
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

/-- Input window 2 (the whole 9 x 64 weight matrix): its current staging buffer holds its block at point `t`. -/
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

/-- Input window 3 (the 64 folded scales): its current staging buffer holds its block at point `t`. -/
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)

/-- Input window 4 (the 64 folded shifts): its current staging buffer holds its block at point `t`. -/
theorem before1_4 (c : Dev nD) (t : Fin cfg1.N) (d) : (dat1 V c).before 4 t d = iblk1 V c 4 t :=
  ((dat1 V c).before_in_eq_fetched 4 rfl (fun _ => rfl) (fun _ _ _ => rfl)
    (fun t => by rw [after1_4]; unfold Dat.blockOf iblk1; rw [A_eq1]; try rfl) t d).trans
    (by unfold Dat.fetched Dat.blockOf iblk1; rw [A_eq1]; try rfl)

/-! ## Offsets that are all zero

A whole-buffer access is printed as the rectangle of the buffer's own sizes at the literal offsets `![0, …, 0]`; the
library's facts about such a rectangle ask that the offsets be the constant-zero function. -/

theorem zero1 : (![0] : Fin 1 → Nat) = fun _ => 0 := funext fun a => by fin_cases a <;> rfl
theorem zero2 : (![0, 0] : Fin 2 → Nat) = fun _ => 0 := funext fun a => by fin_cases a <;> rfl
theorem zero3 : (![0, 0, 0] : Fin 3 → Nat) = fun _ => 0 := funext fun a => by fin_cases a <;> rfl

/-! ## The body's triple -/

set_option maxHeartbeats 1000000 in
/-- The kernel body on whole buffers. Given the five input buffers at read contents `x a w sc sh` and the output buffer
    at anything, it runs to the continuation with the inputs as they were and the output at `main1 x a w sc sh`.

    The body's memory operations are five whole-buffer loads, one whole-buffer load of the output (its value is not
    used) and one whole-buffer store. Running them leaves the output buffer at "its old contents overwritten by one
    piece", and one pure fact to prove: reading that back gives `main1` of the inputs' contents. The piece's rectangle
    is the whole shape, so it covers every index and the read is the piece's payload; the payload is `k1_pay1 (k1_pay2 …)
    (k1_pay3 …)` of the five loaded values, and each loaded value, taken through the whole shape at offset zero, is the
    buffer's contents. That is `main1` by definition. -/
theorem sound_kernel1 (c : Dev nD) (E : Set ℕ) (i : grid1.Coords)
    (arg1 : Memref sig .tc .vmem S400x100x4 .f32) (harg1 : arg1.IsWhole)
    (arg2 : Memref sig .tc .vmem S400x8 .f32) (harg2 : arg2.IsWhole)
    (arg3 : Memref sig .tc .vmem S9x64 .f32) (harg3 : arg3.IsWhole)
    (arg4 : Memref sig .tc .vmem S64 .f32) (harg4 : arg4.IsWhole)
    (arg5 : Memref sig .tc .vmem S64 .f32) (harg5 : arg5.IsWhole)
    (arg6 : Memref sig .tc .vmem S400x64 .f32) (harg6 : arg6.IsWhole)
    (x : Vec F S400x100x4 .f32) (a : Vec F S400x8 .f32) (w : Vec F S9x64 .f32) (sc sh : Vec F S64 .f32)
    (K : PUnit → sProp 𝕄) :
    iprop(owns (c : Thread nD τ) arg1 fullShare x ∗ owns (c : Thread nD τ) arg2 fullShare a
        ∗ owns (c : Thread nD τ) arg3 fullShare w ∗ owns (c : Thread nD τ) arg4 fullShare sc
        ∗ owns (c : Thread nD τ) arg5 fullShare sh ∗ (∃ d, owns (c : Thread nD τ) arg6 fullShare d)
        ∗ (iprop(owns (c : Thread nD τ) arg1 fullShare x ∗ owns (c : Thread nD τ) arg2 fullShare a
            ∗ owns (c : Thread nD τ) arg3 fullShare w ∗ owns (c : Thread nD τ) arg4 fullShare sc
            ∗ owns (c : Thread nD τ) arg5 fullShare sh
            ∗ owns (c : Thread nD τ) arg6 fullShare (main1 x a w sc sh)) -∗ K ⟨⟩))
      ⊢ wp frame (wpE (defs₀ (F := F)) Variants.none c none) E
          (cc1_main_kernel i arg1 harg1 arg2 harg2 arg3 harg3 arg4 harg4 arg5 harg5 arg6 harg6) K := by
  simp only [cc1_main_kernel_eq_skeleton]; unfold cc1_main_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1 hf2 hf3 hf4 hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  rw [View.read_writes_eq_canon _ _ _
    (fun y => ⟨_, List.mem_singleton_self _, View.mem_set_unit_zero zero2 inb_S400x64_S400x64_0_0 y⟩)]
  rw [View.canon_unit_zero zero2]
  unfold main1
  sl_unfold_run_names
  simp only [View.readAt_eq_ld, View.ld_unit_zero (S := S400x100x4) zero3, View.ld_unit_zero (S := S400x8) zero2,
    View.ld_unit_zero (S := S9x64) zero2, View.ld_unit_zero (S := S64) zero1]

/-! ## The body obligation, at a generic point -/

/-- What the body is called with at point `t`: the region's invariant, what the core owes, and the six current staging
    buffers, each at what the pipeline left in it before the body. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- What the body returns: the same invariant and dues, each staging buffer at what the proof data say the body leaves. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point. The five input buffers hold their blocks (`before1_0` … `before1_4`), the output buffer holds
    anything, so the kernel's triple applies with the blocks as the read contents; the invariant and the core's dues are
    the same before and after a point and pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _
    (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation at every point: its pre- and postcondition conjoin the six windows one by one, and
    are then the body's at that point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.BitsStatsDefs.lean ====
/-
  The statistics pass as a pipeline region, at any contents `V` of the core's buffers when the region is entered.

  The grid has 50 points; point `t` sees pillars 400 t .. 400 t + 399 (windows 0 and 1) and the whole weight
  matrix (window 2). The two outputs, the per-channel sum and sum of squares (windows 3 and 4), are 64-vectors whose
  block never moves: their staging buffers are carried from point to point and written back once, after the last
  point. At point 0 the body first stores zeros into both; at every point it adds the block's column sums.
  `step0` is one point's effect on the pair of accumulators, `outsAt0` its iteration along the grid.
-/
import proofs.«117744_j60705067762261_1_alg».proof.Proof.Gen.Kernel.Launch
import proofs.«117744_j60705067762261_1_alg».proof.Proof.Gen.Kernel.Skeleton
import proofs.«117744_j60705067762261_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- One grid point's effect on the two accumulators `(s, q)`: the block's column sums of the linear layer's output
    are added to `s`, the column sums of its squares to `q`. -/
def step0 (x : Vec F S400x100x4 .f32) (a : Vec F S400x8 .f32) (w : Vec F S9x64 .f32) (s q : Vec F S64 .f32) :
    Vec F S64 .f32 × Vec F S64 .f32 :=
  (k0_pay1 (k0_pay6 s) (k0_pay7 x a w), k0_pay2 (k0_pay5 x a w) q)

/-- What the two accumulators hold after the body at point `n`: from zeros at point 0, from what the point before
    left at every later point. -/
def outsAt0 (c : Dev nD) : (n : ℕ) → n < cfg0.N → Vec F S64 .f32 × Vec F S64 .f32
  | 0, hn => step0 (iblk0 V c 0 ⟨0, hn⟩) (iblk0 V c 1 ⟨0, hn⟩) (iblk0 V c 2 ⟨0, hn⟩) k0_pay3 k0_pay4
  | n + 1, hn => step0 (iblk0 V c 0 ⟨n + 1, hn⟩) (iblk0 V c 1 ⟨n + 1, hn⟩) (iblk0 V c 2 ⟨n + 1, hn⟩)
      (outsAt0 c n (Nat.lt_of_succ_lt hn)).1 (outsAt0 c n (Nat.lt_of_succ_lt hn)).2

/-- The region's proof data on core `c`: the arrays as the region finds them; after the body at point `t` each
    input's buffer at its block and the two accumulators at `outsAt0`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
    | ⟨4, _⟩ => (outsAt0 V c t.val t.isLt).2
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]
theorem after0_4 (c : Dev nD) (t : Fin cfg0.N) : (dat0 V c).after 4 t = (outsAt0 V c t.val t.isLt).2 := by dsimp only [dat0]

end Cert.Kernel.Hand

end
-- ==== Proof.BitsStatsBody.lean ====
/-
  The body obligation of the statistics pass (pipeline region 0, a grid of 50 points).

  At every grid point the body reads three whole input blocks (400 pillars, their auxiliary row, the weight matrix),
  and two 64-vector accumulators: the per-channel sum `s` and sum of squares `q` of the linear layer's output. At the
  grid's first point it first stores zeros into both. In either case it then loads `s`, stores `s + colsum`, loads
  `q`, stores `q + colsum of squares`: one `step0` of the pair. The accumulators' blocks never move, so their
  staging buffers are written back only after the last point, and a later point finds in them what the point before
  left. The proof follows that story:

  * the branch condition in closed form (it holds at point 0 only);
  * the body run in each of the two cases, to the buffers at `step0` of what they held (of zeros, at point 0);
  * what the pipeline hands the body at a point: each input's block; at a later point the accumulators as the
    point before left them;
  * `outsAt0` unfolded by case; the obligation at a generic point by cases.
-/
import proofs.«117744_j60705067762261_1_alg».proof.Proof.BitsStatsDefs
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch condition -/

/-- The condition of the body's one `scf.if` (is this the grid's first point?), from the grid coordinates. -/
abbrev cond0_0 (i : grid0.Coords) : Prop := (Scalar.cmpi .ne (Scalar.extui (Scalar.cmpi .eq (BitVec.ofNat 32 (i 0).val) 0#32)) 0#32) = 1#1

/-- It holds at the first of the 50 points only: decided over the grid. -/
theorem hcond0_0 : ∀ t : Fin cfg0.N, cond0_0 (grid0.coords t) ↔ t.val % 50 = 0 :=
  (by decide +kernel : ∀ t : Fin grid0.N, cond0_0 (grid0.coords t) ↔ t.val % 50 = 0)

/-! ## Whole-buffer accesses -/

/-- The zero offsets of a whole-buffer access, at each rank that occurs. -/
theorem zeroOff1 : (![0] : Fin 1 → Nat) = fun _ => 0 := funext fun a => by fin_cases a <;> rfl
theorem zeroOff2 : (![0, 0] : Fin 2 → Nat) = fun _ => 0 := funext fun a => by fin_cases a <;> rfl
theorem zeroOff3 : (![0, 0, 0] : Fin 3 → Nat) = fun _ => 0 := funext fun a => by fin_cases a <;> rfl

/-- The whole-buffer rectangle of a 64-vector, as the body's loads and stores of the accumulators spell it. -/
abbrev accRect : Rect S64 := Rect.unit (s := S64) ![0] S64.size inb_S64_S64_0

/-- A list of stores into a 64-vector buffer whose last store is through the whole-buffer rectangle covers it. -/
theorem accRect_cover_last (p : Vec F S64 .f32) (L : List (View.Piece (Elt F) S64 .f32)) (y : S64.Idx) :
    ∃ pc ∈ ((⟨accRect, p⟩ : View.Piece (Elt F) S64 .f32) :: L), y ∈ pc.1.set :=
  ⟨(⟨accRect, p⟩ : View.Piece (Elt F) S64 .f32), List.mem_cons_self, View.mem_set_unit_zero (S := S64) zeroOff1 inb_S64_S64_0 y⟩

/-- So the buffer then reads as that last store's value, whatever the earlier stores and the prior contents were. -/
theorem acc_read_last_store {sg : RefSig} {κ : Kind} {sp : Space} (v : View sg κ sp S64 .f32) (f : v.ty.Contents (Elt F))
    (p : Vec F S64 .f32) (L : List (View.Piece (Elt F) S64 .f32)) :
    v.read (Elt F) (v.writes (Elt F) f ((⟨accRect, p⟩ : View.Piece (Elt F) S64 .f32) :: L)) = p := by
  rw [View.read_writes_eq_canon _ _ _ (accRect_cover_last p L)]
  exact View.canon_cons_unit_zero (S := S64) zeroOff1 inb_S64_S64_0 p L

/-! ## The body run, case by case -/

set_option maxHeartbeats 1000000 in
/-- THE FIRST POINT. On whole staging memrefs, the inputs' at contents `x`, `a`, `w` and the accumulators' at anything,
    the body runs to the continuation with the inputs as they were and the accumulators at one step from zeros. Each
    accumulator's buffer ends with two whole-buffer stores, the zeros and then the sum: it reads as the later one,
    whose operand loaded in between reads the zeros; the input loads read the whole blocks. -/
theorem sound_kernel0_A (c : Dev nD) (E : Set ℕ) (i : grid0.Coords) (hc : cond0_0 i)
    (arg1 : Memref sig .tc .vmem S400x100x4 .f32) (harg1 : arg1.IsWhole) (arg2 : Memref sig .tc .vmem S400x8 .f32) (harg2 : arg2.IsWhole)
    (arg3 : Memref sig .tc .vmem S9x64 .f32) (harg3 : arg3.IsWhole) (arg4 : Memref sig .tc .vmem S64 .f32) (harg4 : arg4.IsWhole)
    (arg5 : Memref sig .tc .vmem S64 .f32) (harg5 : arg5.IsWhole)
    (x : Vec F S400x100x4 .f32) (a : Vec F S400x8 .f32) (w : Vec F S9x64 .f32) (K : PUnit → sProp 𝕄) :
    iprop(owns (c : Thread nD τ) arg1 fullShare x ∗ owns (c : Thread nD τ) arg2 fullShare a ∗ owns (c : Thread nD τ) arg3 fullShare w
        ∗ (∃ d, owns (c : Thread nD τ) arg4 fullShare d) ∗ (∃ d, owns (c : Thread nD τ) arg5 fullShare d)
        ∗ (iprop(owns (c : Thread nD τ) arg1 fullShare x ∗ owns (c : Thread nD τ) arg2 fullShare a ∗ owns (c : Thread nD τ) arg3 fullShare w
            ∗ owns (c : Thread nD τ) arg4 fullShare (step0 x a w k0_pay3 k0_pay4).1
            ∗ owns (c : Thread nD τ) arg5 fullShare (step0 x a w k0_pay3 k0_pay4).2) -∗ K ⟨⟩))
      ⊢ wp frame (wpE (defs₀ (F := F)) Variants.none c none) E (cc0_stats_kernel i arg1 harg1 arg2 harg2 arg3 harg3 arg4 harg4 arg5 harg5) K := by
  simp only [cc0_stats_kernel_eq_skeleton]; unfold cc0_stats_kernel_skel
  simp only [k0_part1_eq_skeleton]; unfold k0_part1_skel
  unfold owns
  iintro ⟨⟨%f1, %hf1, H1⟩, ⟨%f2, %hf2, H2⟩, ⟨%f3, %hf3, H3⟩, ⟨%d4, %f4, -, H4⟩, ⟨%d5, %f5, -, H5⟩, Hk⟩
  obtain rfl := harg1.eq_unread hf1; obtain rfl := harg2.eq_unread hf2; obtain rfl := harg3.eq_unread hf3
  sl_exec (disch := first | exact hc)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr
    swap; · iexact H4
    ipureintro
    refine (acc_read_last_store _ _ _ _).trans ?_
    dsimp only [step0]
    sl_unfold_words
    simp only [View.readAt_eq_ld, harg1.read_unread, harg2.read_unread, harg3.read_unread,
      View.ld_unit_zero (S := S400x100x4) zeroOff3, View.ld_unit_zero (S := S400x8) zeroOff2, View.ld_unit_zero (S := S9x64) zeroOff2,
      View.readCov_unit_zero (S := S64) _ zeroOff1]
  iexists _; isplitr
  swap; · iexact H5
  ipureintro
  refine (acc_read_last_store _ _ _ _).trans ?_
  dsimp only [step0]
  sl_unfold_words
  simp only [View.readAt_eq_ld, harg1.read_unread, harg2.read_unread, harg3.read_unread,
    View.ld_unit_zero (S := S400x100x4) zeroOff3, View.ld_unit_zero (S := S400x8) zeroOff2, View.ld_unit_zero (S := S9x64) zeroOff2,
    View.readCov_unit_zero (S := S64) _ zeroOff1]

set_option maxHeartbeats 1000000 in
/-- A LATER POINT. The same with the accumulators' memrefs at contents `s`, `q`: no reset, so each ends with one
    whole-buffer store whose operand is a load of what it held, and reads as one step from `(s, q)`. -/
theorem sound_kernel0_B (c : Dev nD) (E : Set ℕ) (i : grid0.Coords) (hc : ¬cond0_0 i)
    (arg1 : Memref sig .tc .vmem S400x100x4 .f32) (harg1 : arg1.IsWhole) (arg2 : Memref sig .tc .vmem S400x8 .f32) (harg2 : arg2.IsWhole)
    (arg3 : Memref sig .tc .vmem S9x64 .f32) (harg3 : arg3.IsWhole) (arg4 : Memref sig .tc .vmem S64 .f32) (harg4 : arg4.IsWhole)
    (arg5 : Memref sig .tc .vmem S64 .f32) (harg5 : arg5.IsWhole)
    (x : Vec F S400x100x4 .f32) (a : Vec F S400x8 .f32) (w : Vec F S9x64 .f32) (s q : Vec F S64 .f32) (K : PUnit → sProp 𝕄) :
    iprop(owns (c : Thread nD τ) arg1 fullShare x ∗ owns (c : Thread nD τ) arg2 fullShare a ∗ owns (c : Thread nD τ) arg3 fullShare w
        ∗ owns (c : Thread nD τ) arg4 fullShare s ∗ owns (c : Thread nD τ) arg5 fullShare q
        ∗ (iprop(owns (c : Thread nD τ) arg1 fullShare x ∗ owns (c : Thread nD τ) arg2 fullShare a ∗ owns (c : Thread nD τ) arg3 fullShare w
            ∗ owns (c : Thread nD τ) arg4 fullShare (step0 x a w s q).1
            ∗ owns (c : Thread nD τ) arg5 fullShare (step0 x a w s q).2) -∗ K ⟨⟩))
      ⊢ wp frame (wpE (defs₀ (F := F)) Variants.none c none) E (cc0_stats_kernel i arg1 harg1 arg2 harg2 arg3 harg3 arg4 harg4 arg5 harg5) K := by
  simp only [cc0_stats_kernel_eq_skeleton]; unfold cc0_stats_kernel_skel
  simp only [k0_part1_eq_skeleton]; unfold k0_part1_skel
  unfold owns
  iintro ⟨⟨%f1, %hf1, H1⟩, ⟨%f2, %hf2, H2⟩, ⟨%f3, %hf3, H3⟩, ⟨%f4, %hf4, H4⟩, ⟨%f5, %hf5, H5⟩, Hk⟩
  obtain rfl := harg1.eq_unread hf1; obtain rfl := harg2.eq_unread hf2; obtain rfl := harg3.eq_unread hf3
  obtain rfl := harg4.eq_unread hf4; obtain rfl := harg5.eq_unread hf5
  sl_exec (disch := first | exact hc)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr
    swap; · iexact H4
    ipureintro
    refine (acc_read_last_store _ _ _ _).trans ?_
    dsimp only [step0]
    sl_unfold_words
    simp only [View.readAt_eq_ld, harg1.read_unread, harg2.read_unread, harg3.read_unread, harg4.read_unread,
      View.ld_unit_zero (S := S400x100x4) zeroOff3, View.ld_unit_zero (S := S400x8) zeroOff2, View.ld_unit_zero (S := S9x64) zeroOff2,
      View.ld_unit_zero (S := S64) zeroOff1]
  iexists _; isplitr
  swap; · iexact H5
  ipureintro
  refine (acc_read_last_store _ _ _ _).trans ?_
  dsimp only [step0]
  sl_unfold_words
  simp only [View.readAt_eq_ld, harg1.read_unread, harg2.read_unread, harg3.read_unread, harg5.read_unread,
    View.ld_unit_zero (S := S400x100x4) zeroOff3, View.ld_unit_zero (S := S400x8) zeroOff2, View.ld_unit_zero (S := S9x64) zeroOff2,
    View.ld_unit_zero (S := S64) zeroOff1]

variable (V : (c : Dev nD) → (b : Ref sig .tc) → Buf (Elt F) ((c : Thread nD τ).loc b))

/-! ## What the staging buffers hold when the body is called -/

/-- The pillar block's buffer (window 0, fetched at every point) holds the point's block. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)

/-- So does the auxiliary block's buffer (window 1, fetched at every point). -/
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

/-- The weights' buffer (window 2) is fetched at the first point only; its block index never moves and the body
    leaves it in place, so at every point it holds the whole weight matrix. -/
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)

/-- At a point after the first, the buffer of the running sum (window 3) holds what the body left at the point
    before: it is written back after the last point only. -/
theorem before0_3_B (c : Dev nD) (t : Fin cfg0.N) (h0 : ¬t.val % 50 = 0) (d) :
    (dat0 V c).before 3 t d = (outsAt0 V c (t.val - 1) (Nat.lt_of_le_of_lt (Nat.sub_le _ _) t.isLt)).1 := by
  have hN : t.val < 50 := lt_of_lt_of_eq t.isLt (show cfg0.N = 50 from N_0)
  rw [Dat.before_out_kept _ 3 rfl t (by omega) (Bool.eq_false_iff.mpr fun h => by have := (flush0_3 _).mp h; dsimp only at this; omega)
    (fun _ => rfl) (fun _ _ => rfl)]
  dsimp only [dat0]

/-- Likewise the buffer of the running sum of squares (window 4). -/
theorem before0_4_B (c : Dev nD) (t : Fin cfg0.N) (h0 : ¬t.val % 50 = 0) (d) :
    (dat0 V c).before 4 t d = (outsAt0 V c (t.val - 1) (Nat.lt_of_le_of_lt (Nat.sub_le _ _) t.isLt)).2 := by
  have hN : t.val < 50 := lt_of_lt_of_eq t.isLt (show cfg0.N = 50 from N_0)
  rw [Dat.before_out_kept _ 4 rfl t (by omega) (Bool.eq_false_iff.mpr fun h => by have := (flush0_4 _).mp h; dsimp only at this; omega)
    (fun _ => rfl) (fun _ _ => rfl)]
  dsimp only [dat0]

/-! ## The accumulators point by point, by case -/

/-- At the first point the accumulators are one step from zeros. -/
theorem outsAt0_A (c : Dev nD) (t : Fin cfg0.N) (h0 : t.val % 50 = 0) :
    outsAt0 V c t.val t.isLt = step0 (iblk0 V c 0 t) (iblk0 V c 1 t) (iblk0 V c 2 t) k0_pay3 k0_pay4 := by
  obtain ⟨n, hn⟩ := t
  have hN : n < 50 := lt_of_lt_of_eq hn (show cfg0.N = 50 from N_0)
  cases n with
  | zero => rfl
  | succ n => exfalso; dsimp only at h0; omega

/-- At a later point they are one step from what the point before left. -/
theorem outsAt0_B (c : Dev nD) (t : Fin cfg0.N) (h0 : ¬t.val % 50 = 0) :
    outsAt0 V c t.val t.isLt = step0 (iblk0 V c 0 t) (iblk0 V c 1 t) (iblk0 V c 2 t)
      (outsAt0 V c (t.val - 1) (Nat.lt_of_le_of_lt (Nat.sub_le _ _) t.isLt)).1
      (outsAt0 V c (t.val - 1) (Nat.lt_of_le_of_lt (Nat.sub_le _ _) t.isLt)).2 := by
  obtain ⟨n, hn⟩ := t
  cases n with
  | zero => exact absurd (Nat.zero_mod _) h0
  | succ n => rfl

/-! ## The body obligation -/

/-- What the body is called with at point `t`, the five windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

set_option maxHeartbeats 800000 in
/-- The body at any point. The three inputs' buffers hold their blocks; at the first point the accumulators' buffers
    hold anything and the body resets them before it adds, at a later point they hold what the point before left:
    in both cases the run leaves them one step further, which is what the proof data says they hold after the point.
    The invariant and the core's debts pass through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4]
  by_cases h0 : t.val % 50 = 0
  · rw [outsAt0_A V c t h0]
    iintro ⟨HΦ, Ho, ⟨%d0, H0⟩, ⟨%d1, H1⟩, ⟨%d2, H2⟩, ⟨%d3, H3⟩, ⟨%d4, H4⟩⟩
    iapply (sound_kernel0_A c Set.univ (grid0.coords t) ((hcond0_0 t).mpr h0) _ _ _ _ _ _ _ _ _ _
      (iblk0 V c 0 t) (iblk0 V c 1 t) (iblk0 V c 2 t) _)
    isplitl [H0]; · iexact H0
    isplitl [H1]; · iexact H1
    isplitl [H2]; · iexact H2
    isplitl [H3]; · iexists _; iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  · rw [outsAt0_B V c t h0]
    simp only [before0_3_B V c t h0, before0_4_B V c t h0]
    iintro ⟨HΦ, Ho, ⟨%d0, H0⟩, ⟨%d1, H1⟩, ⟨%d2, H2⟩, ⟨%d3, H3⟩, ⟨%d4, H4⟩⟩
    iapply (sound_kernel0_B c Set.univ (grid0.coords t) (fun h => h0 ((hcond0_0 t).mp h)) _ _ _ _ _ _ _ _ _ _
      (iblk0 V c 0 t) (iblk0 V c 1 t) (iblk0 V c 2 t) _ _ _)
    isplitl [H0]; · iexact H0
    isplitl [H1]; · iexact H1
    isplitl [H2]; · iexact H2
    isplitl [H3]; · iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4

/-- The library's body obligation for the statistics pass, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.BitsRunFold.lean ====
/-
  @main's buffer contents, item by item.

  @main is a stretch of host operations, the statistics region, a second stretch of host operations and the
  normalise-and-pool region. This module names core `c`'s buffer contents before the first item and after each
  (`W0` … `W4`): a host stretch acts as `StableHlo.after`; a region replaces each of its windows' arrays by what its
  write-backs leave after the last grid point and touches nothing else. It then reads the six argument arrays back
  through the four items to their launch contents: no host operation writes an argument, and a region changes a
  buffer only by writing an output window's block back to it, which no argument is.
-/
import proofs.«117744_j60705067762261_1_alg».proof.Proof.BitsMainBody
import proofs.«117744_j60705067762261_1_alg».proof.Proof.BitsStatsBody
import proofs.«117744_j60705067762261_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary of @main

@main is four items in a row: a stretch of host operations, the statistics region, a second stretch of host
operations, the normalise-and-pool region. `W0` … `W4` are core `c`'s buffer contents before the first item and
after each one. -/

/-- Core `c`'s buffers at launch: the launch state's memory. -/
abbrev W0 : Dev nD → Valuation τ sig (Elt F) := fun c b =>
  (⟨m, fun _ => 0, ρ⟩ : MemSt nD τ sig (Elt F)).mem ((c : Dev nD), b)
/-- After the first host stretch: where the statistics region is entered. -/
abbrev W1 : Dev nD → Valuation τ sig (Elt F) := fun c => StableHlo.after hostOps0 (W0 m ρ c)
/-- The same, read at the TensorCore's references (what the statistics region's proof data take). -/
abbrev V1 : (c : Dev nD) → (b : Ref sig .tc) → Buf (Elt F) ((c : Thread nD τ).loc b) := fun c b => W1 m ρ c b

/-- After the statistics region: each of its five arrays at what its write-backs leave after all 50 points, every
    other buffer as the region found it. -/
def W2 (c : Dev nD) : Valuation τ sig (Elt F) :=
  Pipeline.withArrays spec0 c (W1 m ρ c) fun w => (dat0 (V1 m ρ) c).arrAt w cfg0.N

theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w

theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb

/-- After the second host stretch: where the normalise-and-pool region is entered. -/
abbrev W3 : Dev nD → Valuation τ sig (Elt F) := fun c => StableHlo.after hostOps1 (W2 m ρ c)
/-- The same, read at the TensorCore's references. -/
abbrev V3 : (c : Dev nD) → (b : Ref sig .tc) → Buf (Elt F) ((c : Thread nD τ).loc b) := fun c b => W3 m ρ c b

/-- After the normalise-and-pool region: each of its six arrays at what its write-backs leave after all 50 points,
    every other buffer as the region found it. -/
def W4 (c : Dev nD) : Valuation τ sig (Elt F) :=
  Pipeline.withArrays spec1 c (W3 m ρ c) fun w => (dat1 (V3 m ρ) c).arrAt w cfg1.N

theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w

theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb

/-! ## What a region leaves alone

A region changes a buffer only by writing an OUTPUT window's block back to it. So a buffer that is no output window's
array leaves the region as it entered: either it is no window's array at all, or it is an input window's array, which
is never written back and so still holds the contents the proof data were given. -/

theorem W2_keep (c : Dev nD) (b : Ref sig .tc)
    (hout : ∀ w, (cfg0.win w).isOut = true → Pipeline.arrRef spec0 w ≠ b) :
    W2 m ρ c (Proc.devRef .tc b) = W1 m ρ c (Proc.devRef .tc b) := by
  by_cases h : ∃ w, Pipeline.arrRef spec0 w = b
  · obtain ⟨w, rfl⟩ := h
    have hin : (cfg0.win w).isOut = false := by
      cases hw : (cfg0.win w).isOut with
      | false => rfl
      | true => exact absurd rfl (hout w hw)
    exact (W2_arr m ρ c w).trans (((dat0 (V1 m ρ) c).arrAt_in w hin _).trans (A_eq0 (V1 m ρ) c w))
  · exact W2_of_ne m ρ c b fun w e => h ⟨w, e⟩

theorem W4_keep (c : Dev nD) (b : Ref sig .tc)
    (hout : ∀ w, (cfg1.win w).isOut = true → Pipeline.arrRef spec1 w ≠ b) :
    W4 m ρ c (Proc.devRef .tc b) = W3 m ρ c (Proc.devRef .tc b) := by
  by_cases h : ∃ w, Pipeline.arrRef spec1 w = b
  · obtain ⟨w, rfl⟩ := h
    have hin : (cfg1.win w).isOut = false := by
      cases hw : (cfg1.win w).isOut with
      | false => rfl
      | true => exact absurd rfl (hout w hw)
    exact (W4_arr m ρ c w).trans (((dat1 (V3 m ρ) c).arrAt_in w hin _).trans (A_eq1 (V3 m ρ) c w))
  · exact W4_of_ne m ρ c b fun w e => h ⟨w, e⟩

/-- A buffer that neither region writes back to and neither host stretch writes ends @main holding its launch
    contents: walk the four items backwards. -/
theorem W4_of_untouched (c : Dev nD) (b : Ref sig .tc)
    (h3 : ∀ w, (cfg1.win w).isOut = true → Pipeline.arrRef spec1 w ≠ b) (h2 : b ∉ hostOps1_W)
    (h1 : ∀ w, (cfg0.win w).isOut = true → Pipeline.arrRef spec0 w ≠ b) (h0 : b ∉ hostOps0_W) :
    W4 m ρ c (Proc.devRef .tc b) = m ((c : Thread nD τ).loc b) :=
  calc W4 m ρ c (Proc.devRef .tc b)
    _ = W3 m ρ c (Proc.devRef .tc b) := W4_keep m ρ c b h3
    _ = W2 m ρ c (Proc.devRef .tc b) := StableHlo.after_of_writes_sub hostOps1 _ hostOps1_writes h2
    _ = W1 m ρ c (Proc.devRef .tc b) := W2_keep m ρ c b h1
    _ = W0 m ρ c (Proc.devRef .tc b) := StableHlo.after_of_writes_sub hostOps0 _ hostOps0_writes h0
    _ = m ((c : Thread nD τ).loc b) := rfl

/-! ### The six arguments end as launched

No host operation writes an argument, and no argument is an output window's array (`main_arg0` and `main_arg3` are
input windows' arrays of both regions; the other four are no window's array). -/

theorem W4_main_arg0 (c : Dev nD) : W4 m ρ c (Proc.devRef .tc main_arg0) = m ((c : Thread nD τ).loc main_arg0) :=
  W4_of_untouched m ρ c main_arg0 (by decide) (by decide) (by decide) (by decide)
theorem W4_main_arg1 (c : Dev nD) : W4 m ρ c (Proc.devRef .tc main_arg1) = m ((c : Thread nD τ).loc main_arg1) :=
  W4_of_untouched m ρ c main_arg1 (by decide) (by decide) (by decide) (by decide)
theorem W4_main_arg2 (c : Dev nD) : W4 m ρ c (Proc.devRef .tc main_arg2) = m ((c : Thread nD τ).loc main_arg2) :=
  W4_of_untouched m ρ c main_arg2 (by decide) (by decide) (by decide) (by decide)
theorem W4_main_arg3 (c : Dev nD) : W4 m ρ c (Proc.devRef .tc main_arg3) = m ((c : Thread nD τ).loc main_arg3) :=
  W4_of_untouched m ρ c main_arg3 (by decide) (by decide) (by decide) (by decide)
theorem W4_main_arg4 (c : Dev nD) : W4 m ρ c (Proc.devRef .tc main_arg4) = m ((c : Thread nD τ).loc main_arg4) :=
  W4_of_untouched m ρ c main_arg4 (by decide) (by decide) (by decide) (by decide)
theorem W4_main_arg5 (c : Dev nD) : W4 m ρ c (Proc.devRef .tc main_arg5) = m ((c : Thread nD τ).loc main_arg5) :=
  W4_of_untouched m ρ c main_arg5 (by decide) (by decide) (by decide) (by decide)

end Cert.Kernel.Hand

end
-- ==== Proof.BitsRun.lean ====
/-
  The run of @main from the launch to the return.

  @main is four segments: a stretch of host operations, the statistics region, a second stretch of host operations,
  the normalise-and-pool region. Between any two of them a core holds every unscoped buffer whole, at the contents
  `W0` … `W4` of the fold, beside its generator register and the fact that it owes nothing. A host stretch moves the
  buffers from one valuation to the next. A region is entered by splitting its windows' arrays out of the unscoped
  buffers, runs its pipeline under the body obligation proved for it, and is left by putting the arrays back at what
  the write-backs made of them. Chained from the launch, this gives termination without fault and the final memory
  of every unscoped buffer (`run_all`); at the six arguments that memory is the launch memory (`frame`).
-/
import proofs.«117744_j60705067762261_1_alg».proof.Proof.BitsRunFold

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data of both regions, and what every core holds between items -/

/-- Neither region has a prefetched table. -/
abbrev adm : (p : Fin 2) → (pcfgs (F := F) p).Adm := fun p => (cfgs p).toPCfg_adm

/-- Each region's proof data at the contents it is entered from: the statistics region at `W1`, the
    normalise-and-pool region at `W3`. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c

abbrev 𝒱₀ : Variants := Variants.none
/-- No core ever waits on another, so no level is assigned. -/
abbrev L : GSem nD τ sig → Finset Unit := fun _ => ∅
abbrev lv : GSem nD τ sig → Unit → ℕ := fun _ _ => 0

/-- What a core holds besides its unscoped buffers, the same between any two items: its generator register at some
    state, and that it owes nothing. -/
abbrev R (c : Dev nD) : sProp 𝕄 :=
  iprop((∃ r, prngReg c r) ∗ ∃ W, owes (c : Thread nD τ) (0 : CellTallies nD τ sig Unit) W)

/-- A stretch of host operations from contents `W`: it takes every unscoped buffer from `W c` to
    `StableHlo.after ops (W c)` and leaves `R c` alone. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is one of those a core holds between items. -/
theorem mem_uc (b : Ref sig .tc) (h : ¬ (Proc.devRef .tc b : DevRef τ sig).isScoped) :
    Proc.devRef .tc b ∈ Pipeline.ucRefs τ sig :=
  Finset.mem_filter.mpr ⟨StableHlo.devRef_mem_tcRefs b, h⟩

/-- What a core holds after the last item, without the "owes nothing": every unscoped buffer at `W4`, the generator
    register at some state. -/
abbrev Tₙ (c : Dev nD) : sProp 𝕄 :=
  iprop(StableHlo.held (c : Thread nD τ) (Pipeline.ucRefs τ sig) (W4 m ρ c) ∗ ∃ r, prngReg c r)

/-! ## Dues of a region whose body owes nothing

Neither kernel body signals another core or waits on a semaphore of its own, so at every point the region's dues are
"owes nothing", with no constraint on which waits the core has recorded. Entering a region that is what the core
brings, and leaving it that is what the core takes away. -/

theorem owesAt_of_owes_zero {cfg : Cfg sig Λ₀} {c : Dev nD} (dat : Dat τ (Elt F) Unit ℕ (UR sig nD τ) ℕ cfg c)
    (t : Fin (cfg.N + 1)) (h0 : dat.owed t = 0) (hrec : dat.recorded t = Set.univ) :
    (iprop(∃ W, owes (c : Thread nD τ) (0 : CellTallies nD τ sig Unit) W) : sProp 𝕄) ⊢ dat.owesAt () t := by
  unfold Dat.owesAt Pipeline.owesWithin
  rw [h0]
  iintro ⟨%W, H⟩
  iexists W
  isplitr
  · ipureintro
    intro x _
    exact Or.inl (by rw [hrec]; trivial)
  iexact H

theorem owes_zero_of_owesAt {cfg : Cfg sig Λ₀} {c : Dev nD} (dat : Dat τ (Elt F) Unit ℕ (UR sig nD τ) ℕ cfg c)
    (t : Fin (cfg.N + 1)) (h0 : dat.owed t = 0) :
    dat.owesAt () t ⊢ (iprop(∃ W, owes (c : Thread nD τ) (0 : CellTallies nD τ sig Unit) W) : sProp 𝕄) := by
  unfold Dat.owesAt Pipeline.owesWithin
  rw [h0]
  iintro ⟨%W, -, H⟩
  iexists W
  iexact H

/-! ## The two regions as segments

A region is entered from "every unscoped buffer at the boundary's contents, beside `R`" and left at the same shape
at the next boundary's contents. Four facts connect this to the pipeline:

* entry: the region's arrays are some of the unscoped buffers, so those split into the arrays (at the contents the
  proof data were given) and the rest; there is no prefetched table; "owes nothing" is the region's dues;
* the generator register goes into the region's invariant with the scoped buffers no window stages, and
* comes back out of it at the end;
* exit: the arrays at what the write-backs left, with the untouched rest, are every unscoped buffer at the next
  boundary's contents, because those contents were DEFINED as the arrays' final contents on the arrays and the old
  contents elsewhere. -/

set_option backward.isDefEq.respectTransparency.types false in
/-- The statistics region: from `W1` to `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    have hsplit := Pipeline.arrays_of_unscopedBufs (p := 0) (pcfgs (F := F)) adm (pdats m ρ) launch0.win
      launch0.arr_whole c ((pdats m ρ 0 c).share_full fun _ => rfl) (V1 m ρ c) fun _ => rfl
    rw [Pipeline.unscopedBufs_held] at hsplit
    have hdues := owesAt_of_owes_zero (pdats m ρ 0 c) 0 rfl rfl
    iintro ⟨⟨Hbufs, Hreg, Hdues⟩, -, -⟩
    imodintro
    ihave Hsp := hsplit $$ Hbufs
    icases Hsp with ⟨Harr, Hrest⟩
    isplitl [Harr]; · iexact Harr
    isplitr
    · unfold Pipeline.prefHeld
      rw [show (Finset.univ : Finset (Fin 0)) = ∅ from rfl, BI.bigSep_empty]
      iempintro
    isplitl [Hdues]; · iapply hdues; iexact Hdues
    isplitl [Hreg]; · iexact Hreg
    iexact Hrest
  hin c := by
    change _ ⊢ (Pipeline.ΦA spec0 c : sProp 𝕄)
    unfold Pipeline.ΦA
    iintro ⟨Hreg, -, Hsc⟩
    isplitl [Hsc]; · iexact Hsc
    iexact Hreg
  hout c := by
    rw [Pipeline.ownSems0_none]
    change (Pipeline.ΦA spec0 c : sProp 𝕄) ⊢ _
    unfold Pipeline.ΦA
    iintro ⟨Hsc, Hreg⟩
    isplitl [Hreg]; · iexact Hreg
    isplitr; · iempintro
    iexact Hsc
  hexit c := by
    have hjoin := Pipeline.unscopedBufs_of_arrays (p := 0) (pcfgs (F := F)) adm (Ix := Unit) (Name := ℕ)
      (U := UR sig nD τ) (Lvl := ℕ) launch0.win launch0.arr_whole c (pdats m ρ)
      ((pdats m ρ 0 c).share_full fun _ => rfl) (V1 m ρ c) (fun b => W2 m ρ c b) ((pdats m ρ 0 c).arrAt · cfg0.N)
      (fun w => (W2_arr m ρ c w).symm)
      (fun b hb => W2_of_ne m ρ c b fun w e => hb (Finset.mem_image.mpr ⟨w, Finset.mem_univ _, e⟩))
    rw [Pipeline.unscopedBufs_held] at hjoin
    have hdues := owes_zero_of_owesAt (pdats m ρ 0 c) (Fin.last _) rfl
    iintro ⟨Harr, Hdues, Hreg, Hrest⟩
    imodintro
    isplitl [Harr Hrest]
    · iapply hjoin
      isplitl [Harr]; · iexact Harr
      iexact Hrest
    isplitl [Hreg]; · iexact Hreg
    iapply hdues; iexact Hdues

set_option backward.isDefEq.respectTransparency.types false in
/-- The normalise-and-pool region: from `W3` to `W4`. It is the last item, so its exit state is written as the run's
    final state `Tₙ` beside "owes nothing". -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    have hsplit := Pipeline.arrays_of_unscopedBufs (p := 1) (pcfgs (F := F)) adm (pdats m ρ) launch1.win
      launch1.arr_whole c ((pdats m ρ 1 c).share_full fun _ => rfl) (V3 m ρ c) fun _ => rfl
    rw [Pipeline.unscopedBufs_held] at hsplit
    have hdues := owesAt_of_owes_zero (pdats m ρ 1 c) 0 rfl rfl
    iintro ⟨⟨Hbufs, Hreg, Hdues⟩, -, -⟩
    imodintro
    ihave Hsp := hsplit $$ Hbufs
    icases Hsp with ⟨Harr, Hrest⟩
    isplitl [Harr]; · iexact Harr
    isplitr
    · unfold Pipeline.prefHeld
      rw [show (Finset.univ : Finset (Fin 0)) = ∅ from rfl, BI.bigSep_empty]
      iempintro
    isplitl [Hdues]; · iapply hdues; iexact Hdues
    isplitl [Hreg]; · iexact Hreg
    iexact Hrest
  hin c := by
    change _ ⊢ (Pipeline.ΦA spec1 c : sProp 𝕄)
    unfold Pipeline.ΦA
    iintro ⟨Hreg, -, Hsc⟩
    isplitl [Hsc]; · iexact Hsc
    iexact Hreg
  hout c := by
    rw [Pipeline.ownSems0_none]
    change (Pipeline.ΦA spec1 c : sProp 𝕄) ⊢ _
    unfold Pipeline.ΦA
    iintro ⟨Hsc, Hreg⟩
    isplitl [Hreg]; · iexact Hreg
    isplitr; · iempintro
    iexact Hsc
  hexit c := by
    have hjoin := Pipeline.unscopedBufs_of_arrays (p := 1) (pcfgs (F := F)) adm (Ix := Unit) (Name := ℕ)
      (U := UR sig nD τ) (Lvl := ℕ) launch1.win launch1.arr_whole c (pdats m ρ)
      ((pdats m ρ 1 c).share_full fun _ => rfl) (V3 m ρ c) (fun b => W4 m ρ c b) ((pdats m ρ 1 c).arrAt · cfg1.N)
      (fun w => (W4_arr m ρ c w).symm)
      (fun b hb => W4_of_ne m ρ c b fun w e => hb (Finset.mem_image.mpr ⟨w, Finset.mem_univ _, e⟩))
    rw [Pipeline.unscopedBufs_held] at hjoin
    have hdues := owes_zero_of_owesAt (pdats m ρ 1 c) (Fin.last _) rfl
    iintro ⟨Harr, Hdues, Hreg, Hrest⟩
    imodintro
    isplitr [Hdues]
    · isplitl [Harr Hrest]
      · iapply hjoin
        isplitl [Harr]; · iexact Harr
        iexact Hrest
      iexact Hreg
    iapply hdues; iexact Hdues

/-! ## @main as its four segments, and the run from the launch -/

/-- @main's four items as segments, each host stretch from its boundary's contents. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]

/-- @main is the run of those segments: it is the chain of its four items, and so is the segments' run. -/
theorem main_run (c : Dev nD) : main (F := F) c = Pipeline.Seg.run (segs m ρ) :=
  (main_chain c).trans (by chain_rfl)

set_option backward.isDefEq.respectTransparency.types false in
/-- The run: from any launch memory `m` with all counters at zero and any generator registers `ρ`, every weakly fair
    execution of @main on the TensorCores terminates without fault, and in every final state each core's unscoped
    buffers hold `W4`. Three things are owed besides the segments:

    * the launch's ghost element is the pipelines' own initial element, and no core needs a ghost resource of its own;
    * the first thread state on each core: the launch hands it its unscoped buffers at `m`, which is `W0`; its generator
      register at `ρ c`, which is "at some state"; and that it owes nothing;
    * the last thread state read against a final state: a buffer held whole at given contents is what the state's
      memory holds there. -/
theorem run_all : θ_run defs (onTc (τ := τ) (main (F := F))) ⟨m, fun _ => 0, ρ⟩ (fun r => ∀ c : Dev nD,
      ∀ b ∈ Pipeline.ucRefs τ sig, r.2.mem ((c : Thread nD τ).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      have hown : (ownU (initOf (Pipeline.cells cfgs cellOf_inj) (Pipeline.launchToks cfgs cellOf_inj)) : sProp 𝕄)
          ⊢ BI.own (emb₁ (initOf (Pipeline.cells cfgs cellOf_inj) (Pipeline.launchToks cfgs cellOf_inj))) := .rfl
      have hemp : (BI.emp : sProp 𝕄) ⊢ bigSep Finset.univ (fun _ : Dev nD => (BI.emp : sProp 𝕄)) := by
        rw [BI.bigSep_emp_const]
      iintro Hu
      imodintro
      isplitl [Hu]; · iapply hown; iexact Hu
      iapply hemp; iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b))
          = StableHlo.held (c : Thread nD τ) (Pipeline.ucRefs τ sig) (W0 m ρ c)
        from Pipeline.unscopedBufs_held c (W0 m ρ c)]
      iintro ⟨⟨Hbufs, -, Hdues, -, Hreg, -⟩, -⟩
      imodintro
      isplitl [Hbufs]; · iexact Hbufs
      isplitl [Hreg]; · iexists ρ c; iexact Hreg
      iexists ∅; iexact Hdues)
    (QY := fun c s => ∀ b ∈ Pipeline.ucRefs τ sig, s.mem (((c : Thread nD τ)).1, b) = W4 m ρ c b)
    (hfin := fun c s' => by
      have hread := pointsTo_read_all (Ix := Unit) (Name := ℕ) (U := UR sig nD τ) (Lvl := ℕ) (Pipeline.ucRefs τ sig) (fun b => (((c : Thread nD τ)).1, b)) (W4 m ρ c) s'
      iintro ⟨⟨Hbufs, -⟩, HSI⟩
      unfold StableHlo.held
      imodintro
      iapply hread
      isplitl [Hbufs]; · iexact Hbufs
      iexact HSI)
    (hQ := fun s h => h)

/-- The frame claim: @main runs, and every argument array ends holding its launch contents. Each argument's buffer is
    unscoped, so the run's final memory holds `W4` there, and `W4` at an argument is the launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c)⟩) (run_all m ρ)

end Cert.Kernel.Hand

end
-- ==== Proof.Spec.lean ====
/-
  The mathematics of the pillar feature network, as plain functions on the extended reals.

  A pillar `k` holds 100 points of 4 raw features; `aux k 0` is its point count (as a float), `aux k 1` and
  `aux k 2` its centre. Each point gets nine features: the four raw ones, the first three minus their mean over
  the pillar's 100 points divided by the count, and the first two minus the centre; all nine are multiplied by the
  mask "point `p` is among the first `count` points". A 9 x 64 linear layer follows, then batch normalisation
  with the statistics of all pillars and points, a rectifier, and the maximum over the pillar's points.

  Two spellings of the normalisation are stated here. `outK` first takes the sum and the sum of squares of the
  linear layer's output per channel, forms mean and variance as E[x^2] - (E x)^2, folds the normalisation into one
  scale and one shift per channel, and applies `x * scale + shift`. `outR` takes the mean, then the mean of the
  squared deviations, and applies `(x - mean) * rsqrt(var + eps) * gamma + beta`. Over finite reals they agree.
-/
import Idealize.ShloMosaic.Lib.ValueIdx
import Idealize.ShloMosaic.PureOps.Ideal.Laws

noncomputable section

namespace Cert.Spec

open Idealize.ShloMosaic Idealize.ShloMosaic.ValueIdx

variable {K : Nat}

/-- The number of points of all pillars together, 2 000 000, as the float literal both programs divide by. -/
abbrev cnt : EReal := Ideal.ofBits .f32 0x49F42400#32
/-- The normalisation's epsilon, the float literal nearest 0.001. -/
abbrev eps : EReal := Ideal.ofBits .f32 0x3A83126F#32
/-- The zero literal. -/
abbrev zeroLit : EReal := Ideal.ofBits .f32 0x00000000#32
/-- The literal minus infinity a maximum starts from. -/
abbrev negInf : EReal := Ideal.ofBits .f32 0xFF800000#32

/-- 1 when point `p` is among the first `a` points of its pillar, else 0. -/
def mask (a : EReal) (p : Fin 100) : EReal := if ((p.val : ℝ) : EReal) < a then 1 else 0

/-- The nine augmented and masked features of point `p` of pillar `k`. -/
def feat (x : (⟨3, ![K, 100, 4]⟩ : Shape).Idx → EReal) (aux : (⟨2, ![K, 8]⟩ : Shape).Idx → EReal)
    (k : Fin K) (p : Fin 100) (c : Fin 9) : EReal :=
  (if h : c.val < 4 then x (ix3 k p ⟨c.val, h⟩)
   else if h' : c.val < 7 then
     x (ix3 k p ⟨c.val - 4, by omega⟩)
       - Ideal.div (∑ q : Fin 100, x (ix3 k q ⟨c.val - 4, by omega⟩)) (aux (ix2 k (0 : Fin 8)))
   else if c.val = 7 then x (ix3 k p (0 : Fin 4)) - aux (ix2 k (1 : Fin 8))
   else x (ix3 k p (1 : Fin 4)) - aux (ix2 k (2 : Fin 8))) * mask (aux (ix2 k (0 : Fin 8))) p

/-- The linear layer's output for point `p` of pillar `k`, channel `u`. -/
def lin (x : (⟨3, ![K, 100, 4]⟩ : Shape).Idx → EReal) (aux : (⟨2, ![K, 8]⟩ : Shape).Idx → EReal)
    (w : (⟨2, ![9, 64]⟩ : Shape).Idx → EReal) (k : Fin K) (p : Fin 100) (u : Fin 64) : EReal :=
  ∑ c : Fin 9, feat x aux k p c * w (ix2 c u)

/-- Per channel, the sum of the linear layer's output over all pillars and points. -/
def sum1 (x : (⟨3, ![K, 100, 4]⟩ : Shape).Idx → EReal) (aux : (⟨2, ![K, 8]⟩ : Shape).Idx → EReal)
    (w : (⟨2, ![9, 64]⟩ : Shape).Idx → EReal) (u : Fin 64) : EReal :=
  ∑ k : Fin K, ∑ p : Fin 100, lin x aux w k p u

/-- Per channel, the sum of its squares. -/
def sum2 (x : (⟨3, ![K, 100, 4]⟩ : Shape).Idx → EReal) (aux : (⟨2, ![K, 8]⟩ : Shape).Idx → EReal)
    (w : (⟨2, ![9, 64]⟩ : Shape).Idx → EReal) (u : Fin 64) : EReal :=
  ∑ k : Fin K, ∑ p : Fin 100, lin x aux w k p u * lin x aux w k p u

/-- The folded scale of channel `u` from the two sums: gamma * rsqrt (E[x^2] - (E x)^2 + eps). -/
def scaleK (s1 s2 : Fin 64 → EReal) (g : (⟨1, ![64]⟩ : Shape).Idx → EReal) (u : Fin 64) : EReal :=
  g (ix1 u) * Ideal.rsqrt ((Ideal.div (s2 u) cnt - Ideal.div (s1 u) cnt * Ideal.div (s1 u) cnt) + eps)

/-- The folded shift of channel `u`: beta - mean * scale. -/
def shiftK (s1 s2 : Fin 64 → EReal) (g b : (⟨1, ![64]⟩ : Shape).Idx → EReal) (u : Fin 64) : EReal :=
  b (ix1 u) - Ideal.div (s1 u) cnt * scaleK s1 s2 g u

/-- One pillar's output from given scale and shift vectors: the maximum over its points of the rectified
    `x * scale + shift`. -/
def poolK (x : (⟨3, ![K, 100, 4]⟩ : Shape).Idx → EReal) (aux : (⟨2, ![K, 8]⟩ : Shape).Idx → EReal)
    (w : (⟨2, ![9, 64]⟩ : Shape).Idx → EReal) (sc sh : (⟨1, ![64]⟩ : Shape).Idx → EReal) (k : Fin K) (u : Fin 64) : EReal :=
  (Finset.univ : Finset (Fin 100)).fold max negInf
    (fun p => max (lin x aux w k p u * sc (ix1 u) + sh (ix1 u)) zeroLit)

/-- The first spelling: statistics by sums, normalisation folded into scale and shift. -/
def outK (x : (⟨3, ![K, 100, 4]⟩ : Shape).Idx → EReal) (aux : (⟨2, ![K, 8]⟩ : Shape).Idx → EReal)
    (w : (⟨2, ![9, 64]⟩ : Shape).Idx → EReal) (g b : (⟨1, ![64]⟩ : Shape).Idx → EReal) (k : Fin K) (u : Fin 64) : EReal :=
  (Finset.univ : Finset (Fin 100)).fold max negInf
    (fun p => max (lin x aux w k p u * scaleK (sum1 x aux w) (sum2 x aux w) g u
      + shiftK (sum1 x aux w) (sum2 x aux w) g b u) zeroLit)

/-- The mean of channel `u` as the second spelling takes it (a sum from a zero literal, divided by the count). -/
def meanR (x : (⟨3, ![K, 100, 4]⟩ : Shape).Idx → EReal) (aux : (⟨2, ![K, 8]⟩ : Shape).Idx → EReal)
    (w : (⟨2, ![9, 64]⟩ : Shape).Idx → EReal) (u : Fin 64) : EReal :=
  Ideal.div (zeroLit + sum1 x aux w u) cnt

/-- The variance of channel `u` as the mean of the squared deviations. -/
def varR (x : (⟨3, ![K, 100, 4]⟩ : Shape).Idx → EReal) (aux : (⟨2, ![K, 8]⟩ : Shape).Idx → EReal)
    (w : (⟨2, ![9, 64]⟩ : Shape).Idx → EReal) (u : Fin 64) : EReal :=
  Ideal.div (zeroLit + ∑ k : Fin K, ∑ p : Fin 100,
    (lin x aux w k p u - meanR x aux w u) * (lin x aux w k p u - meanR x aux w u)) cnt

/-- The second spelling: centre, scale by rsqrt (var + eps), then gamma and beta, rectify, maximum over points. -/
def outR (x : (⟨3, ![K, 100, 4]⟩ : Shape).Idx → EReal) (aux : (⟨2, ![K, 8]⟩ : Shape).Idx → EReal)
    (w : (⟨2, ![9, 64]⟩ : Shape).Idx → EReal) (g b : (⟨1, ![64]⟩ : Shape).Idx → EReal) (k : Fin K) (u : Fin 64) : EReal :=
  (Finset.univ : Finset (Fin 100)).fold max negInf
    (fun p => max ((lin x aux w k p u - meanR x aux w u) * Ideal.rsqrt (varR x aux w u + eps) * g (ix1 u)
      + b (ix1 u)) zeroLit)

/-- The auxiliary array both programs build from the integer inputs: column 0 the point count, column 1 and 2 the
    pillar centre `coor * 0.2 + offset` from coordinate columns 3 and 2, the other five columns zero. -/
def auxOf (nv : (⟨1, ![K]⟩ : Shape).Idx → BitVec 32) (co : (⟨2, ![K, 4]⟩ : Shape).Idx → BitVec 32) :
    (⟨2, ![K, 8]⟩ : Shape).Idx → EReal := fun i =>
  if (i 1).val = 0 then (((nv (ix1 (i 0))).toInt : ℝ) : EReal)
  else if (i 1).val = 1 then
    (((co (ix2 (i 0) (3 : Fin 4))).toInt : ℝ) : EReal) * Ideal.ofBits .f32 0x3E4CCCCD#32 + Ideal.ofBits .f32 0x3DCCCCCD#32
  else if (i 1).val = 2 then
    (((co (ix2 (i 0) (2 : Fin 4))).toInt : ℝ) : EReal) * Ideal.ofBits .f32 0x3E4CCCCD#32 + Ideal.ofBits .f32 0xC21F999A#32
  else zeroLit

/-- A 400-pillar block of the point array: pillars `400 t .. 400 t + 399`. -/
def blockX (X : (⟨3, ![20000, 100, 4]⟩ : Shape).Idx → EReal) (t : Fin 50) : (⟨3, ![400, 100, 4]⟩ : Shape).Idx → EReal :=
  fun i => X (ix3 ⟨400 * t.val + (i 0).val, by have := (i 0).isLt; have := t.isLt; simp only [Matrix.cons_val_zero] at *; omega⟩ (i 1) (i 2))

/-- The same block of the auxiliary array. -/
def blockA (A : (⟨2, ![20000, 8]⟩ : Shape).Idx → EReal) (t : Fin 50) : (⟨2, ![400, 8]⟩ : Shape).Idx → EReal :=
  fun i => A (ix2 ⟨400 * t.val + (i 0).val, by have := (i 0).isLt; have := t.isLt; simp only [Matrix.cons_val_zero] at *; omega⟩ (i 1))

end Cert.Spec

end
-- ==== Proof.SpecBlock.lean ====
/-
  The specification's functions on a 400-pillar block are the same functions of the whole arrays at the shifted
  pillar: every read of the nine features of pillar `q` of block `t` stays inside row `400 t + q`.
-/
import proofs.«117744_j60705067762261_1_alg».proof.Proof.Spec

noncomputable section

namespace Cert.Spec

open Idealize.ShloMosaic Idealize.ShloMosaic.ValueIdx

/-- Pillar `q` of block `t` as a pillar of the whole array. -/
abbrev row (t : Fin 50) (q : Fin 400) : Fin 20000 := ⟨400 * t.val + q.val, by have := t.isLt; have := q.isLt; omega⟩

theorem blockX_apply (X : (⟨3, ![20000, 100, 4]⟩ : Shape).Idx → EReal) (t : Fin 50) (q : Fin 400) (p : Fin 100) (c : Fin 4) :
    blockX X t (ix3 q p c) = X (ix3 (row t q) p c) := rfl

theorem blockA_apply (A : (⟨2, ![20000, 8]⟩ : Shape).Idx → EReal) (t : Fin 50) (q : Fin 400) (d : Fin 8) :
    blockA A t (ix2 q d) = A (ix2 (row t q) d) := rfl

theorem feat_block (X : (⟨3, ![20000, 100, 4]⟩ : Shape).Idx → EReal) (A : (⟨2, ![20000, 8]⟩ : Shape).Idx → EReal)
    (t : Fin 50) (q : Fin 400) (p : Fin 100) (c : Fin 9) :
    feat (K := 400) (blockX X t) (blockA A t) q p c = feat (K := 20000) X A (row t q) p c := by
  unfold feat
  simp only [blockX_apply, blockA_apply]

theorem lin_block (X : (⟨3, ![20000, 100, 4]⟩ : Shape).Idx → EReal) (A : (⟨2, ![20000, 8]⟩ : Shape).Idx → EReal)
    (w : (⟨2, ![9, 64]⟩ : Shape).Idx → EReal) (t : Fin 50) (q : Fin 400) (p : Fin 100) (u : Fin 64) :
    lin (K := 400) (blockX X t) (blockA A t) w q p u = lin (K := 20000) X A w (row t q) p u := by
  unfold lin
  simp only [feat_block]

theorem poolK_block (X : (⟨3, ![20000, 100, 4]⟩ : Shape).Idx → EReal) (A : (⟨2, ![20000, 8]⟩ : Shape).Idx → EReal)
    (w : (⟨2, ![9, 64]⟩ : Shape).Idx → EReal) (sc sh : (⟨1, ![64]⟩ : Shape).Idx → EReal) (t : Fin 50) (q : Fin 400) (u : Fin 64) :
    poolK (K := 400) (blockX X t) (blockA A t) w sc sh q u = poolK (K := 20000) X A w sc sh (row t q) u := by
  unfold poolK
  simp only [lin_block]

/-- A sum over all 20000 pillars is the sum over the 50 blocks of the sums over each block's 400 pillars. -/
theorem sum_rows (f : Fin 20000 → EReal) : ∑ k : Fin 20000, f k = ∑ t : Fin 50, ∑ q : Fin 400, f (row t q) := by
  rw [← Finset.sum_product']
  refine (Finset.sum_bij' (fun (k : Fin 20000) _ => ((⟨k.val / 400, by have := k.isLt; omega⟩ : Fin 50), (⟨k.val % 400, Nat.mod_lt _ (by norm_num)⟩ : Fin 400)))
    (fun (tq : Fin 50 × Fin 400) _ => row tq.1 tq.2) (fun _ _ => Finset.mem_product.mpr ⟨Finset.mem_univ _, Finset.mem_univ _⟩) (fun _ _ => Finset.mem_univ _) ?_ ?_ ?_)
  · intro k _; apply Fin.ext; show 400 * (k.val / 400) + k.val % 400 = k.val; omega
  · intro tq _
    obtain ⟨t, q⟩ := tq
    have ht := t.isLt; have hq := q.isLt
    apply Prod.ext
    · apply Fin.ext; show (400 * t.val + q.val) / 400 = t.val; omega
    · apply Fin.ext; show (400 * t.val + q.val) % 400 = q.val; omega
  · intro k _; congr 1; apply Fin.ext; show k.val = 400 * (k.val / 400) + k.val % 400; omega

end Cert.Spec

end
-- ==== Proof.PayRest.lean ====
/-
  The small payloads of the two kernels read at one index, over the extended reals.

  The statistics kernel adds, per channel, the column sums of a 40000 x 64 block (and of its squares) to running
  totals; the main kernel multiplies the block by a per-channel scale, adds a per-channel shift, rectifies, and takes
  the maximum over each group of 100 consecutive rows. Every statement below says what one of those vector
  expressions is at one channel u (and one row j, or one group q): a sum over the 40000 rows, a product with the
  channel's scale, or a fold of max over the 100 rows 100 q + p of group q.
-/
import proofs.«117744_j60705067762261_1_alg».proof.Proof.Gen.KernelIdeal.Skeleton
import proofs.«117744_j60705067762261_1_alg».proof.Proof.Spec
import Idealize.ShloMosaic.Lib.Pipeline.Value
import Idealize.ShloMosaic.Lib.ValueLayout
import Idealize.ShloMosaic.PureOps.Ideal.Laws

noncomputable section

namespace Cert.KernelIdeal.Pay

open Idealize.ShloMosaic Idealize.ShloMosaic.ValueIdx Cert.KernelIdeal Cert.KernelIdeal.Gen

/-! ## Where a reduction over one axis reads its operand -/

/-- Summing a 40000 x 64 block over its rows: the operand index over channel u with row k put back is (k, u). -/
private theorem lift_rows (h : S40000x64.Reduces [0] S64) (u : Fin 64) (k : Fin 40000) :
    h.lift (ix1 u) k = ix2 k u := by
  funext c
  apply Fin.ext
  match c with
  | ⟨0, _⟩ => rfl
  | ⟨1, _⟩ => rfl

/-- Taking the maximum of a 400 x 100 x 64 block over its middle axis: the operand index over (q, u) with the middle
    coordinate p put back is (q, p, u). -/
private theorem lift_mid (h : S400x100x64.Reduces [1] S400x64) (q : Fin 400) (u : Fin 64) (p : Fin 100) :
    h.lift (ix2 q u) p = ix3 q p u := by
  funext c
  apply Fin.ext
  match c with
  | ⟨0, _⟩ => rfl
  | ⟨1, _⟩ => rfl
  | ⟨2, _⟩ => rfl

/-- The sum of a 40000 x 64 block over its rows, read at channel u, is the sum over the 40000 rows of column u. -/
private theorem sum_rows_apply (src : FVec Ideal S40000x64 .f32) (h : S40000x64.Reduces [0] S64) (hφ : FKind.Formats .f32)
    (hacc : (0x00000000#32 : BitVec (FTy.bits .f32)) = FKind.add.neutral .f32 hφ) (u : Fin 64) :
    multiReduction (F := Ideal) .add [0] S64 src 0x00000000#32 h hφ hacc (ix1 u) = ∑ j : Fin 40000, src (ix2 j u) := by
  refine (Ideal.multiReduction_add_single src 0x00000000#32 h hφ hacc (ix1 u)).trans ?_
  exact Finset.sum_congr rfl fun k _ => congrArg src (lift_rows h u k)

/-! ## The statistics kernel's payloads -/

/-- A shape cast of a 64-vector to the same shape changes nothing. -/
theorem pay6_eq (v : Vec Ideal S64 .f32) : k0_pay6 (F := Ideal) v = v := by
  unfold k0_pay6
  exact shapeCast_self v _

/-- The new running total of channel u is the old total plus this block's sum. -/
theorem pay1_apply (s v : FVec Ideal S64 .f32) (u : Fin 64) :
    k0_pay1 (F := Ideal) s v (ix1 u) = s (ix1 u) + v (ix1 u) := rfl

/-- The first running total starts from the zero literal, which is the number 0. -/
theorem pay3_apply (u : Fin 64) : k0_pay3 (F := Ideal) (ix1 u) = 0 := by
  show Ideal.ofBits .f32 0x00000000#32 = 0
  exact Ideal.ofBits_zero_f32

/-- So does the second. -/
theorem pay4_apply (u : Fin 64) : k0_pay4 (F := Ideal) (ix1 u) = 0 := by
  show Ideal.ofBits .f32 0x00000000#32 = 0
  exact Ideal.ofBits_zero_f32

/-- This block's contribution to the first total of channel u: the sum, over the block's 40000 rows, of the linear
    layer's output in column u. -/
theorem pay7_apply (x : Vec Ideal S400x100x4 .f32) (a : Vec Ideal S400x8 .f32) (w : Vec Ideal S9x64 .f32) (u : Fin 64) :
    k0_pay7 (F := Ideal) x a w (ix1 u) = ∑ j : Fin 40000, k0_pay5 (F := Ideal) x a w (ix2 j u) := by
  unfold k0_pay7
  exact sum_rows_apply (k0_pay5 (F := Ideal) x a w) _ _ _ u

/-- The new second total of channel u: the old one plus the sum over the rows of the squares of column u. -/
theorem pay2_apply (v41 : FVec Ideal S40000x64 .f32) (v47 : Vec Ideal S64 .f32) (u : Fin 64) :
    k0_pay2 (F := Ideal) v41 v47 (ix1 u) = v47 (ix1 u) + ∑ j : Fin 40000, v41 (ix2 j u) * v41 (ix2 j u) := by
  unfold k0_pay2
  show shapeCast S64 v47 shapeCasts_S64_S64 (ix1 u)
      + multiReduction (F := Ideal) .add [0] S64 (mulf v41 v41) 0x00000000#32 reduces_S40000x64_S64 (.inl rfl) rfl (ix1 u) = _
  rw [shapeCast_self v47 _]
  exact congrArg (v47 (ix1 u) + ·) (sum_rows_apply (mulf v41 v41) _ _ _ u)

/-! ## The main kernel's payloads -/

/-- A 64-vector viewed as one row and repeated down 40000 rows reads, at (j, u), the vector's entry u. -/
private theorem row_bcast_apply (v : Vec Ideal S64 .f32) (j : Fin 40000) (u : Fin 64) :
    broadcastTo S40000x64 (shapeCast S1x64 (shapeCast S64 v shapeCasts_S64_S64) shapeCasts_S64_S1x64)
      broadcasts_S1x64_S40000x64 (ix2 j u) = v (ix1 u) :=
  (broadcastTo_1b_ab_apply _ _ j u).trans
    ((shapeCast_a_1a_apply _ _ (0 : Fin 1) u).trans (congrFun (shapeCast_self v _) (ix1 u)))

/-- The shift, repeated down the rows. -/
theorem k1_pay3_apply (sh : Vec Ideal S64 .f32) (j : Fin 40000) (u : Fin 64) :
    k1_pay3 (F := Ideal) sh (ix2 j u) = sh (ix1 u) := by
  unfold k1_pay3
  exact row_bcast_apply sh j u

/-- The main kernel builds the same linear layer's output as the statistics kernel, then multiplies it by the scale
    vector repeated down the rows. -/
private theorem k1_pay2_eq (x : Vec Ideal S400x100x4 .f32) (a : Vec Ideal S400x8 .f32) (w : Vec Ideal S9x64 .f32)
    (sc : Vec Ideal S64 .f32) :
    k1_pay2 (F := Ideal) x a w sc
      = mulf (k0_pay5 (F := Ideal) x a w)
          (broadcastTo S40000x64 (shapeCast S1x64 (shapeCast S64 sc shapeCasts_S64_S64) shapeCasts_S64_S1x64)
            broadcasts_S1x64_S40000x64) := rfl

/-- So at row j and channel u it is the linear layer's output there times the scale of channel u. -/
theorem k1_pay2_apply (x : Vec Ideal S400x100x4 .f32) (a : Vec Ideal S400x8 .f32) (w : Vec Ideal S9x64 .f32)
    (sc : Vec Ideal S64 .f32) (j : Fin 40000) (u : Fin 64) :
    k1_pay2 (F := Ideal) x a w sc (ix2 j u) = k0_pay5 (F := Ideal) x a w (ix2 j u) * sc (ix1 u) := by
  rw [k1_pay2_eq]
  exact congrArg (k0_pay5 (F := Ideal) x a w (ix2 j u) * ·) (row_bcast_apply sc j u)

/-- The 40000 x 64 block regrouped as 400 groups of 100 rows reads, at (q, p, u), row 100 q + p: both positions are
    (100 q + p) 64 + u in row-major order. -/
private theorem regroup_apply (v : FVec Ideal S40000x64 .f32) (q : Fin 400) (p : Fin 100) (u : Fin 64) :
    shapeCast S400x100x64 v shapeCasts_S40000x64_S400x100x64 (ix3 q p u)
      = v (ix2 (⟨100 * q.val + p.val, by omega⟩ : Fin 40000) u) :=
  shapeCast_apply v _ _ _ (by
    rw [Shape.rowMajor_val_three, Shape.rowMajor_val_two]
    show (100 * q.val + p.val) * 64 + u.val = (q.val * 100 + p.val) * 64 + u.val
    omega)

/-- The maximum of a 400 x 100 x 64 block over its middle axis, read at (q, u), is the fold of max, from the
    accumulator's value, over the 100 entries (q, p, u). -/
private theorem max_mid_apply (src : FVec Ideal S400x100x64 .f32) (h : S400x100x64.Reduces [1] S400x64) (hφ : FKind.Formats .f32)
    (hacc : (0xFF800000#32 : BitVec (FTy.bits .f32)) = FKind.maximumf.neutral .f32 hφ) (q : Fin 400) (u : Fin 64) :
    multiReduction (F := Ideal) .maximumf [1] S400x64 src 0xFF800000#32 h hφ hacc (ix2 q u)
      = (Finset.univ : Finset (Fin 100)).fold max Cert.Spec.negInf (fun p => src (ix3 q p u)) := by
  refine (Ideal.multiReduction_maximumf_single src 0xFF800000#32 h hφ hacc (ix2 q u)).trans ?_
  refine congrArg ((Finset.univ : Finset (Fin 100)).fold max Cert.Spec.negInf) (funext fun p => ?_)
  exact congrArg src (lift_mid h q u p)

/-- One group's output at channel u: the maximum, from minus infinity, over the group's 100 rows of the rectified
    sum of the two operands. -/
theorem k1_pay1_apply (v45 v47 : FVec Ideal S40000x64 .f32) (q : Fin 400) (u : Fin 64) :
    k1_pay1 (F := Ideal) v45 v47 (ix2 q u)
      = (Finset.univ : Finset (Fin 100)).fold max Cert.Spec.negInf
          (fun p => max (v45 (ix2 (⟨100 * q.val + p.val, by omega⟩ : Fin 40000) u)
            + v47 (ix2 (⟨100 * q.val + p.val, by omega⟩ : Fin 40000) u)) Cert.Spec.zeroLit) := by
  unfold k1_pay1
  refine (max_mid_apply _ _ _ _ q u).trans ?_
  refine congrArg ((Finset.univ : Finset (Fin 100)).fold max Cert.Spec.negInf) (funext fun p => ?_)
  exact regroup_apply _ q p u

end Cert.KernelIdeal.Pay

end
-- ==== Proof.LibDot2.lean ====
/-
  A matrix product at the ideal instance, read at an entry.

  For two rank-2 operands of shapes [M, K] and [K, N] whose dimension numbers contract the left operand's second
  axis with the right operand's first, the product into a zero accumulator is, at row `p` and column `j`, the
  plain sum over `a : Fin K` of `l (p, a) * r (a, j)` on the extended reals. The dimension numbers enter only
  through four coordinate facts (which coordinate of each operand is the output's and which is the contracted
  one); a caller proves those four for its own record and gets the sum.
-/
import Idealize.ShloMosaic.Lib.ValueIdx
import Idealize.ShloMosaic.PureOps.Ideal.Laws

noncomputable section

namespace Cert.Lib.Dot2

open Idealize.ShloMosaic Idealize.ShloMosaic.ValueIdx

/-- The contraction sum of a rank-2 by rank-2 product, re-indexed from the record's one-axis contraction index to
    `Fin K`: the left operand is read along row `p`, the right along column `j`. -/
theorem contraction_ix2 {M K N : Nat} (D : DotDims ⟨2, ![M, K]⟩ ⟨2, ![K, N]⟩ ⟨2, ![M, N]⟩)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (l : (⟨2, ![M, K]⟩ : Shape).Idx → EReal) (r : (⟨2, ![K, N]⟩ : Shape).Idx → EReal) (p : Fin M) (j : Fin N) :
    ∑ k : D.contr.Idx, l (D.lhsIdx (ix2 p j) k) * r (D.rhsIdx (ix2 p j) k) = ∑ a : Fin K, l (ix2 p a) * r (ix2 a j) := by
  rw [← Equiv.sum_comp (contrEquiv1 D K hr hs).symm]
  refine Finset.sum_congr rfl fun a _ => ?_
  have hk := contrEquiv1_symm_val D K hr hs a
  have el : D.lhsIdx (ix2 p j) ((contrEquiv1 D K hr hs).symm a) = ix2 p a := funext fun d => Fin.ext (by
    match d with
    | ⟨0, _⟩ => exact hl0 _ _
    | ⟨1, _⟩ => exact (hl1 _ _).trans hk)
  have er : D.rhsIdx (ix2 p j) ((contrEquiv1 D K hr hs).symm a) = ix2 a j := funext fun d => Fin.ext (by
    match d with
    | ⟨0, _⟩ => exact (hr0 _ _).trans hk
    | ⟨1, _⟩ => exact hr1 _ _)
  rw [el, er]

/-- A kernel's matrix product into the zero accumulator, at the ideal instance, read at `(p, j)`. -/
theorem matmul_zero_ix2 {M K N : Nat} {φ₁ φ₂ : FTy} (D : DotDims ⟨2, ![M, K]⟩ ⟨2, ![K, N]⟩ ⟨2, ![M, N]⟩)
    (prec : Option ContractPrecision)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (l : FVec Ideal ⟨2, ![M, K]⟩ φ₁) (r : FVec Ideal ⟨2, ![K, N]⟩ φ₂) (p : Fin M) (j : Fin N) :
    matmul D prec l r (constant (F := Ideal) ⟨2, ![M, N]⟩ .f32 0x00000000#32) (ix2 p j)
      = ∑ a : Fin K, l (ix2 p a) * r (ix2 a j) := by
  show FloatOps.matmul D prec l r (constant (F := Ideal) ⟨2, ![M, N]⟩ .f32 0x00000000#32) (ix2 p j) = _
  rw [Ideal.matmul_constant_zero_apply]
  exact contraction_ix2 D hr hs hl0 hl1 hr0 hr1 l r p j

end Cert.Lib.Dot2

end
-- ==== Proof.PayX.lean ====
/-
  The statistics kernel's linear layer, read at an index.

  From a block of 400 pillars (100 points of 4 raw features each), the block's rows of the auxiliary array (column 0 the
  pillar's point count, columns 1 and 2 its centre) and the 9 x 64 weights, the kernel forms nine features per point:
  the four raw ones; the first three minus their sum over the pillar's 100 points divided by the count; the first two
  minus the centre. All nine are multiplied by the mask "the point's index is below the count", which the kernel gets by
  converting a point counter to a float, comparing it strictly below the count, widening the bit and converting it
  back to a float. The 400 x 100 x 9 block is then flattened row-major to 40000 x 9, so that row 100 q + p is point p of
  pillar q, and multiplied by the weights into a zero accumulator.

  On the extended reals a change of float format is the identity and the product into a zero accumulator is the plain
  sum over the nine features, so the entry at row 100 q + p, column u is the specification's linear layer
  `Cert.Spec.lin x a w q p u`. The proof reads every layout operation (slice, reshape, repeat along an axis,
  concatenation) at one index, the reduction along the point axis as a sum over 100 points, the mask as the
  specification's `if`, and the product through the four coordinate facts of its dimension numbers.
-/
import proofs.«117744_j60705067762261_1_alg».proof.Proof.Gen.KernelIdeal.Skeleton
import proofs.«117744_j60705067762261_1_alg».proof.Proof.Spec
import proofs.«117744_j60705067762261_1_alg».proof.Proof.LibDot2
import Idealize.ShloMosaic.Lib.Pipeline.Value
import Idealize.ShloMosaic.Lib.ValueLayout

noncomputable section

namespace Cert.KernelIdeal.Pay

open Idealize.ShloMosaic Idealize.ShloMosaic.ValueIdx Cert.KernelIdeal Cert.KernelIdeal.Gen

/-! ## The layout operations of the feature block, each read at an index -/

section Layout
variable {α : Type}

/-- One column of the 400 x 8 auxiliary block, cut out as a 400 x 1 array, reads at row `q` that column's entry. -/
theorem col_apply (o : Nat) (A : S400x8.Idx → α) (h : S400x8.Slices ![0, o] S400x1) (q : Fin 400) (z : Fin 1)
    (k : Fin 8) (hk : k.val = o) :
    extractStridedSlice S400x1 ![0, o] A h (ix2 q z) = A (ix2 q k) :=
  slice2_axis1_apply o A h q z k (by omega)

/-- A 400 x 1 column viewed as 400 x 1 x 1 keeps its one entry per row. -/
theorem cast_col_apply (v : S400x1.Idx → α) (h : S400x1.ShapeCasts S400x1x1) (q : Fin 400) (z z' : Fin 1) :
    shapeCast S400x1x1 v h (ix3 q z z') = v (ix2 q (0 : Fin 1)) :=
  shapeCast_apply v h _ _ (by
    rw [Shape.rowMajor_val_three, Shape.rowMajor_val_two]
    show q.val * 1 + 0 = (q.val * 1 + z.val) * 1 + z'.val
    omega)

/-- The per-row scalar repeated along three channels. -/
theorem bcast_row3_apply (v : S400x1x1.Idx → α) (h : S400x1x1.Broadcasts S400x1x3) (q : Fin 400) (z : Fin 1) (c : Fin 3) :
    broadcastTo S400x1x3 v h (ix3 q z c) = v (ix3 q (0 : Fin 1) (0 : Fin 1)) :=
  broadcastTo_apply v h _ _ (fun a => match a with
    | ⟨0, _⟩ => by show q.val = if (400 : Nat) = 1 then 0 else q.val; rw [if_neg (by decide)]
    | ⟨1, _⟩ => by show 0 = if (1 : Nat) = 1 then 0 else z.val; rw [if_pos rfl]
    | ⟨2, _⟩ => by show 0 = if (1 : Nat) = 1 then 0 else c.val; rw [if_pos rfl])

/-- The first three channels of the point block. -/
theorem chan3_apply (X : S400x100x4.Idx → α) (h : S400x100x4.Slices ![0, 0, 0] S400x100x3) (q : Fin 400) (p : Fin 100)
    (c : Fin 3) :
    extractStridedSlice S400x100x3 ![0, 0, 0] X h (ix3 q p c) = X (ix3 q p (⟨c.val, by omega⟩ : Fin 4)) :=
  extractStridedSlice_apply _ X h _ _ (fun a => match a with
    | ⟨0, _⟩ => (Nat.zero_add _).symm
    | ⟨1, _⟩ => (Nat.zero_add _).symm
    | ⟨2, _⟩ => (Nat.zero_add _).symm)

/-- One channel `k` of the point block, as a 400 x 100 x 1 array. -/
theorem chan1_apply (o : Nat) (X : S400x100x4.Idx → α) (h : S400x100x4.Slices ![0, 0, o] S400x100x1) (q : Fin 400)
    (p : Fin 100) (z : Fin 1) (k : Fin 4) (hk : k.val = o) :
    extractStridedSlice S400x100x1 ![0, 0, o] X h (ix3 q p z) = X (ix3 q p k) :=
  extractStridedSlice_apply _ X h _ _ (fun a => match a with
    | ⟨0, _⟩ => (Nat.zero_add _).symm
    | ⟨1, _⟩ => (Nat.zero_add _).symm
    | ⟨2, _⟩ => by show k.val = o + z.val; omega)

/-- A 400 x 3 array viewed as 400 x 1 x 3 keeps its entries. -/
theorem cast_mid_apply (v : S400x3.Idx → α) (h : S400x3.ShapeCasts S400x1x3) (q : Fin 400) (z : Fin 1) (c : Fin 3) :
    shapeCast S400x1x3 v h (ix3 q z c) = v (ix2 q c) :=
  shapeCast_apply v h _ _ (by
    rw [Shape.rowMajor_val_three, Shape.rowMajor_val_two]
    show q.val * 3 + c.val = (q.val * 1 + z.val) * 3 + c.val
    omega)

/-- A per-pillar, per-channel value repeated over the pillar's 100 points. -/
theorem bcast_pts3_apply (v : S400x1x3.Idx → α) (h : S400x1x3.Broadcasts S400x100x3) (q : Fin 400) (p : Fin 100)
    (c : Fin 3) :
    broadcastTo S400x100x3 v h (ix3 q p c) = v (ix3 q (0 : Fin 1) c) :=
  broadcastTo_apply v h _ _ (fun a => match a with
    | ⟨0, _⟩ => by show q.val = if (400 : Nat) = 1 then 0 else q.val; rw [if_neg (by decide)]
    | ⟨1, _⟩ => by show 0 = if (1 : Nat) = 1 then 0 else p.val; rw [if_pos rfl]
    | ⟨2, _⟩ => by show c.val = if (3 : Nat) = 1 then 0 else c.val; rw [if_neg (by decide)])

/-- A per-pillar scalar repeated over the pillar's 100 points. -/
theorem bcast_pts1_apply (v : S400x1x1.Idx → α) (h : S400x1x1.Broadcasts S400x100x1) (q : Fin 400) (p : Fin 100)
    (z : Fin 1) :
    broadcastTo S400x100x1 v h (ix3 q p z) = v (ix3 q (0 : Fin 1) (0 : Fin 1)) :=
  broadcastTo_apply v h _ _ (fun a => match a with
    | ⟨0, _⟩ => by show q.val = if (400 : Nat) = 1 then 0 else q.val; rw [if_neg (by decide)]
    | ⟨1, _⟩ => by show 0 = if (1 : Nat) = 1 then 0 else p.val; rw [if_pos rfl]
    | ⟨2, _⟩ => by show 0 = if (1 : Nat) = 1 then 0 else z.val; rw [if_pos rfl])

/-- A 400 x 1 column repeated along 100 points. -/
theorem bcast_col_apply (v : S400x1.Idx → α) (h : S400x1.Broadcasts S400x100) (q : Fin 400) (p : Fin 100) :
    broadcastTo S400x100 v h (ix2 q p) = v (ix2 q (0 : Fin 1)) :=
  broadcastTo_apply v h _ _ (fun a => match a with
    | ⟨0, _⟩ => by show q.val = if (400 : Nat) = 1 then 0 else q.val; rw [if_neg (by decide)]
    | ⟨1, _⟩ => by show 0 = if (1 : Nat) = 1 then 0 else p.val; rw [if_pos rfl])

/-- A 400 x 100 array viewed as 400 x 100 x 1 keeps its entries. -/
theorem cast_last_apply (v : S400x100.Idx → α) (h : S400x100.ShapeCasts S400x100x1) (q : Fin 400) (p : Fin 100)
    (z : Fin 1) :
    shapeCast S400x100x1 v h (ix3 q p z) = v (ix2 q p) :=
  shapeCast_apply v h _ _ (by
    rw [Shape.rowMajor_val_three, Shape.rowMajor_val_two]
    show q.val * 100 + p.val = (q.val * 100 + p.val) * 1 + z.val
    omega)

/-- A per-point scalar repeated along the nine feature channels. -/
theorem bcast_chan9_apply (v : S400x100x1.Idx → α) (h : S400x100x1.Broadcasts S400x100x9) (q : Fin 400) (p : Fin 100)
    (c : Fin 9) :
    broadcastTo S400x100x9 v h (ix3 q p c) = v (ix3 q p (0 : Fin 1)) :=
  broadcastTo_apply v h _ _ (fun a => match a with
    | ⟨0, _⟩ => by show q.val = if (400 : Nat) = 1 then 0 else q.val; rw [if_neg (by decide)]
    | ⟨1, _⟩ => by show p.val = if (100 : Nat) = 1 then 0 else p.val; rw [if_neg (by decide)]
    | ⟨2, _⟩ => by show 0 = if (1 : Nat) = 1 then 0 else c.val; rw [if_pos rfl])

/-- The 400 x 100 x 9 feature block flattened to 40000 rows of nine: row `100 q + p` is point `p` of pillar `q`. -/
theorem cast_rows_apply (v : S400x100x9.Idx → α) (h : S400x100x9.ShapeCasts S40000x9) (q : Fin 400) (p : Fin 100)
    (c : Fin 9) :
    shapeCast S40000x9 v h (ix2 (⟨100 * q.val + p.val, by omega⟩ : Fin 40000) c) = v (ix3 q p c) :=
  shapeCast_apply v h _ _ (by
    rw [Shape.rowMajor_val_three, Shape.rowMajor_val_two]
    show (q.val * 100 + p.val) * 9 + c.val = (100 * q.val + p.val) * 9 + c.val
    omega)

end Layout

/-! ## The two concatenations along the channel axis -/

section Cat
variable {α : Type}

/-- Two one-channel arrays side by side: channel 0 is the first. -/
theorem cat2_left_apply (v₁ v₂ : S400x100x1.Idx → α) (h : Shape.Concatenates [S400x100x1, S400x100x1] S400x100x2 2)
    (q : Fin 400) (p : Fin 100) :
    concatenate S400x100x2 2 [⟨S400x100x1, v₁⟩, ⟨S400x100x1, v₂⟩] h (ix3 q p (0 : Fin 2)) = v₁ (ix3 q p (0 : Fin 1)) :=
  concatenate_pair_apply_left 2 v₁ v₂ h _ rfl _ (fun b => match b with
    | ⟨0, _⟩ => rfl
    | ⟨1, _⟩ => rfl
    | ⟨2, _⟩ => rfl)

/-- Two one-channel arrays side by side: channel 1 is the second. -/
theorem cat2_right_apply (v₁ v₂ : S400x100x1.Idx → α) (h : Shape.Concatenates [S400x100x1, S400x100x1] S400x100x2 2)
    (q : Fin 400) (p : Fin 100) :
    concatenate S400x100x2 2 [⟨S400x100x1, v₁⟩, ⟨S400x100x1, v₂⟩] h (ix3 q p (1 : Fin 2)) = v₂ (ix3 q p (0 : Fin 1)) :=
  concatenate_pair_apply_right 2 v₁ v₂ h _ rfl rfl _ (fun b hb => match b with
    | ⟨0, _⟩ => rfl
    | ⟨1, _⟩ => rfl
    | ⟨2, _⟩ => absurd rfl hb) rfl

/-- Four, three and two channels side by side: channels 0 to 3 are the first array's. -/
theorem cat3_fst_apply (v₁ : S400x100x4.Idx → α) (v₂ : S400x100x3.Idx → α) (v₃ : S400x100x2.Idx → α)
    (h : Shape.Concatenates [S400x100x4, S400x100x3, S400x100x2] S400x100x9 2) (q : Fin 400) (p : Fin 100)
    (c : Fin 9) (e : Fin 4) (he : e.val = c.val) :
    concatenate S400x100x9 2 [⟨S400x100x4, v₁⟩, ⟨S400x100x3, v₂⟩, ⟨S400x100x2, v₃⟩] h (ix3 q p c) = v₁ (ix3 q p e) :=
  concatenate_apply_piece (t := S400x100x9) 2 [⟨S400x100x4, v₁⟩, ⟨S400x100x3, v₂⟩, ⟨S400x100x2, v₃⟩] h (ix3 q p c) 0 (by show 0 < 3; omega)
    S400x100x4 v₁ rfl rfl 0 rfl (ix3 q p e) (fun b hb => match b with
    | ⟨0, _⟩ => rfl
    | ⟨1, _⟩ => rfl
    | ⟨2, _⟩ => absurd rfl hb) (by show 0 + e.val = c.val; omega)

/-- Channels 4 to 6 are the second array's. -/
theorem cat3_snd_apply (v₁ : S400x100x4.Idx → α) (v₂ : S400x100x3.Idx → α) (v₃ : S400x100x2.Idx → α)
    (h : Shape.Concatenates [S400x100x4, S400x100x3, S400x100x2] S400x100x9 2) (q : Fin 400) (p : Fin 100)
    (c : Fin 9) (e : Fin 3) (he : 4 + e.val = c.val) :
    concatenate S400x100x9 2 [⟨S400x100x4, v₁⟩, ⟨S400x100x3, v₂⟩, ⟨S400x100x2, v₃⟩] h (ix3 q p c) = v₂ (ix3 q p e) :=
  concatenate_apply_piece (t := S400x100x9) 2 [⟨S400x100x4, v₁⟩, ⟨S400x100x3, v₂⟩, ⟨S400x100x2, v₃⟩] h (ix3 q p c) 1 (by show 1 < 3; omega)
    S400x100x3 v₂ rfl rfl 4 rfl (ix3 q p e) (fun b hb => match b with
    | ⟨0, _⟩ => rfl
    | ⟨1, _⟩ => rfl
    | ⟨2, _⟩ => absurd rfl hb) (by show 4 + e.val = c.val; omega)

/-- Channels 7 and 8 are the third array's. -/
theorem cat3_thd_apply (v₁ : S400x100x4.Idx → α) (v₂ : S400x100x3.Idx → α) (v₃ : S400x100x2.Idx → α)
    (h : Shape.Concatenates [S400x100x4, S400x100x3, S400x100x2] S400x100x9 2) (q : Fin 400) (p : Fin 100)
    (c : Fin 9) (e : Fin 2) (he : 7 + e.val = c.val) :
    concatenate S400x100x9 2 [⟨S400x100x4, v₁⟩, ⟨S400x100x3, v₂⟩, ⟨S400x100x2, v₃⟩] h (ix3 q p c) = v₃ (ix3 q p e) :=
  concatenate_apply_piece (t := S400x100x9) 2 [⟨S400x100x4, v₁⟩, ⟨S400x100x3, v₂⟩, ⟨S400x100x2, v₃⟩] h (ix3 q p c) 2 (by show 2 < 3; omega)
    S400x100x2 v₃ rfl rfl 7 rfl (ix3 q p e) (fun b hb => match b with
    | ⟨0, _⟩ => rfl
    | ⟨1, _⟩ => rfl
    | ⟨2, _⟩ => absurd rfl hb) (by show 7 + e.val = c.val; omega)

end Cat

/-! ## The pillar sum and the point mask -/

/-- The sum over a pillar's 100 points, per channel: the reduction along the point axis read at pillar `q`, channel
    `c`. -/
theorem rowsum_apply (v : FVec Ideal S400x100x3 .f32) (h : S400x100x3.Reduces [1] S400x3) (hφ : FKind.Formats .f32)
    (hacc : (0x00000000#32 : BitVec 32) = FKind.add.neutral .f32 hφ) (q : Fin 400) (c : Fin 3) :
    multiReduction (F := Ideal) .add [1] S400x3 v 0x00000000#32 h hφ hacc (ix2 q c) = ∑ k : Fin 100, v (ix3 q k c) := by
  refine (Ideal.multiReduction_add_single v 0x00000000#32 h hφ hacc (ix2 q c)).trans ?_
  refine Finset.sum_congr rfl fun k _ => congrArg v ?_
  funext a
  match a with
  | ⟨0, _⟩ => rfl
  | ⟨1, _⟩ => rfl
  | ⟨2, _⟩ => rfl

/-- The point counter along a pillar: the index of the point, as a 32-bit word. -/
theorem iota_apply (h : S400x100.Iotas .tc 32 [1]) (q : Fin 400) (p : Fin 100) :
    iota .tc S400x100 32 [1] h (ix2 q p) = BitVec.ofNat 32 p.val :=
  iota_single_apply .tc S400x100 32 1 h (ix2 q p)

/-- A one-bit word widened to 32 bits and read as a signed integer is 1 or 0. -/
theorem bit_toInt (b : Bool) : ((BitVec.ofBool b).setWidth 32).toInt = if b then 1 else 0 := by
  cases b <;> rfl

/-- A point index below 100, as a 32-bit word read signed, is itself. -/
theorem point_toInt (p : Fin 100) : (BitVec.ofNat 32 p.val).toInt = (p.val : Int) := by
  have hp := p.isLt
  rw [BitVec.toInt_eq_toNat_cond, BitVec.toNat_ofNat]
  omega

/-- The mask word of point `p` against the count `a₀`: the counter converted to a float, compared strictly below the
    count, the bit widened and converted to a float, is 1 when `p < a₀` and 0 otherwise. -/
theorem mask_word (a₀ : Ideal .f32) (p : Fin 100) :
    (FloatOps.sitofp (F := Ideal) .f32
        ((FloatOps.cmpf (F := Ideal) (φ := .f32) .olt (FloatOps.sitofp (F := Ideal) .f32 (BitVec.ofNat 32 p.val)) a₀).setWidth 32)
      : Ideal .f32) = Cert.Spec.mask a₀ p := by
  show ((((BitVec.ofBool (decide ((((BitVec.ofNat 32 p.val).toInt : ℝ) : EReal) < a₀))).setWidth 32).toInt : ℝ) : EReal) = _
  rw [bit_toInt, point_toInt, Int.cast_natCast]
  unfold Cert.Spec.mask
  by_cases hlt : ((p.val : ℝ) : EReal) < a₀
  · rw [if_pos hlt, decide_eq_true hlt]; simp
  · rw [if_neg hlt, decide_eq_false hlt]; simp

/-! ## The kernel's feature block, piece by piece

The kernel's value is rebuilt here from named pieces, each a few of its operations, so that each piece can be read at
an index on its own; `pay5_eq` below says the kernel's value is the matrix product of the assembled block. -/

section Pieces
variable (x : Vec Ideal S400x100x4 .f32) (a : Vec Ideal S400x8 .f32)

/-- Column `o` of the auxiliary block, as a 400 x 1 array. -/
def auxColumn (o : Nat) (h : S400x8.Slices ![0, o] S400x1) : FVec Ideal S400x1 .f32 :=
  extractStridedSlice S400x1 ![0, o] (shapeCast S400x8 a shapeCasts_S400x8_S400x8) h

theorem auxColumn_apply (o : Nat) (h : S400x8.Slices ![0, o] S400x1) (q : Fin 400) (z : Fin 1) (k : Fin 8)
    (hk : k.val = o) : auxColumn a o h (ix2 q z) = a (ix2 q k) :=
  (col_apply o _ h q z k hk).trans (congrFun (shapeCast_self a _) _)

/-- The same column with two unit axes, ready to be repeated along points and channels. -/
def auxColumn3 (o : Nat) (h : S400x8.Slices ![0, o] S400x1) : FVec Ideal S400x1x1 .f32 :=
  shapeCast S400x1x1 (auxColumn a o h) shapeCasts_S400x1_S400x1x1

theorem auxColumn3_apply (o : Nat) (h : S400x8.Slices ![0, o] S400x1) (q : Fin 400) (z z' : Fin 1) (k : Fin 8)
    (hk : k.val = o) : auxColumn3 a o h (ix3 q z z') = a (ix2 q k) :=
  (cast_col_apply _ _ q z z').trans (auxColumn_apply a o h q 0 k hk)

/-- Per pillar and per channel (of the first three), the sum over the pillar's points divided by the pillar's count. -/
def meanBlock : FVec Ideal S400x1x3 .f32 :=
  divf
    (shapeCast S400x1x3
      (multiReduction (F := Ideal) .add [1] S400x3
        (extractStridedSlice S400x100x3 ![0, 0, 0] x slices_S400x100x4_o0_0_0_S400x100x3) 0x00000000#32
        reduces_S400x100x3_S400x3 (.inl rfl) rfl)
      shapeCasts_S400x3_S400x1x3)
    (broadcastTo S400x1x3 (auxColumn3 a 0 slices_S400x8_o0_0_S400x1) broadcasts_S400x1x1_S400x1x3)

theorem meanBlock_apply (q : Fin 400) (z : Fin 1) (c : Fin 3) :
    meanBlock x a (ix3 q z c)
      = Ideal.div (∑ k : Fin 100, x (ix3 q k (⟨c.val, by omega⟩ : Fin 4))) (a (ix2 q (0 : Fin 8))) := by
  show Ideal.div _ _ = _
  refine congrArg₂ Ideal.div ?_ ?_
  · refine (cast_mid_apply _ _ q z c).trans ?_
    refine (rowsum_apply _ _ _ _ q c).trans ?_
    exact Finset.sum_congr rfl fun k _ => chan3_apply x _ q k c
  · exact (bcast_row3_apply _ _ q z c).trans (auxColumn3_apply a 0 _ q 0 0 0 rfl)

/-- The first three channels of every point, minus the pillar's mean of that channel. -/
def centred : FVec Ideal S400x100x3 .f32 :=
  subf (extractStridedSlice S400x100x3 ![0, 0, 0] x slices_S400x100x4_o0_0_0_S400x100x3)
    (broadcastTo S400x100x3 (meanBlock x a) broadcasts_S400x1x3_S400x100x3)

theorem centred_apply (q : Fin 400) (p : Fin 100) (c : Fin 3) :
    centred x a (ix3 q p c)
      = x (ix3 q p (⟨c.val, by omega⟩ : Fin 4))
        - Ideal.div (∑ k : Fin 100, x (ix3 q k (⟨c.val, by omega⟩ : Fin 4))) (a (ix2 q (0 : Fin 8))) := by
  show _ - _ = _
  refine congrArg₂ (· - ·) (chan3_apply x _ q p c) ?_
  exact (bcast_pts3_apply _ _ q p c).trans (meanBlock_apply x a q 0 c)

/-- Channel `o` of every point minus column `o'` of the auxiliary block (a coordinate of the pillar's centre). -/
def offCentre (o : Nat) (h : S400x100x4.Slices ![0, 0, o] S400x100x1) (o' : Nat) (h' : S400x8.Slices ![0, o'] S400x1) :
    FVec Ideal S400x100x1 .f32 :=
  subf (extractStridedSlice S400x100x1 ![0, 0, o] x h)
    (broadcastTo S400x100x1 (auxColumn3 a o' h') broadcasts_S400x1x1_S400x100x1)

theorem offCentre_apply (o : Nat) (h : S400x100x4.Slices ![0, 0, o] S400x100x1) (o' : Nat)
    (h' : S400x8.Slices ![0, o'] S400x1) (q : Fin 400) (p : Fin 100) (z : Fin 1) (k : Fin 4) (hk : k.val = o)
    (k' : Fin 8) (hk' : k'.val = o') :
    offCentre x a o h o' h' (ix3 q p z) = x (ix3 q p k) - a (ix2 q k') := by
  show _ - _ = _
  refine congrArg₂ (· - ·) (chan1_apply o x h q p z k hk) ?_
  exact (bcast_pts1_apply _ _ q p z).trans (auxColumn3_apply a o' h' q 0 0 k' hk')

/-- The mask of every point: 1 when the point's index is below the pillar's count, else 0. -/
def maskBlock : FVec Ideal S400x100x1 .f32 :=
  shapeCast S400x100x1
    (sitofp .f32
      (extui 32
        (cmpf .olt (sitofp (F := Ideal) .f32 (iota .tc S400x100 32 [1] iota_S400x100_d1_w32))
          (broadcastTo S400x100 (auxColumn a 0 slices_S400x8_o0_0_S400x1) broadcasts_S400x1_S400x100))
        natLt_1_32))
    shapeCasts_S400x100_S400x100x1

theorem maskBlock_apply (q : Fin 400) (p : Fin 100) (z : Fin 1) :
    maskBlock a (ix3 q p z) = Cert.Spec.mask (a (ix2 q (0 : Fin 8))) p := by
  refine (cast_last_apply _ _ q p z).trans ?_
  show FloatOps.sitofp (F := Ideal) .f32
      ((FloatOps.cmpf (F := Ideal) (φ := .f32) .olt
        (FloatOps.sitofp (F := Ideal) .f32 (iota .tc S400x100 32 [1] iota_S400x100_d1_w32 (ix2 q p)))
        (broadcastTo S400x100 (auxColumn a 0 slices_S400x8_o0_0_S400x1) broadcasts_S400x1_S400x100 (ix2 q p))).setWidth 32) = _
  rw [iota_apply, bcast_col_apply, auxColumn_apply a 0 _ q 0 0 rfl]
  exact mask_word _ p

/-- The last two features: the first two channels minus the pillar's centre. -/
def offBlock : FVec Ideal S400x100x2 .f32 :=
  concatenate S400x100x2 2
    [⟨S400x100x1, offCentre x a 0 slices_S400x100x4_o0_0_0_S400x100x1 1 slices_S400x8_o0_1_S400x1⟩,
     ⟨S400x100x1, offCentre x a 1 slices_S400x100x4_o0_0_1_S400x100x1 2 slices_S400x8_o0_2_S400x1⟩]
    concatenates_S400x100x1_S400x100x1_S400x100x2_d2

/-- The nine features of every point of the block, masked. -/
def featBlock : FVec Ideal S400x100x9 .f32 :=
  mulf
    (concatenate S400x100x9 2 [⟨S400x100x4, x⟩, ⟨S400x100x3, centred x a⟩, ⟨S400x100x2, offBlock x a⟩]
      concatenates_S400x100x4_S400x100x3_S400x100x2_S400x100x9_d2)
    (broadcastTo S400x100x9 (maskBlock a) broadcasts_S400x100x1_S400x100x9)

/-- **The feature block read at a point and a channel** is the specification's feature. -/
theorem featBlock_apply (q : Fin 400) (p : Fin 100) (c : Fin 9) :
    featBlock x a (ix3 q p c) = Cert.Spec.feat (K := 400) x a q p c := by
  show _ * _ = _
  unfold Cert.Spec.feat
  refine congrArg₂ (· * ·) ?_ ((bcast_chan9_apply _ _ q p c).trans (maskBlock_apply a q p 0))
  by_cases h4 : c.val < 4
  · rw [dif_pos h4]
    exact cat3_fst_apply _ _ _ _ q p c ⟨c.val, h4⟩ rfl
  · rw [dif_neg h4]
    by_cases h7 : c.val < 7
    · rw [dif_pos h7]
      refine (cat3_snd_apply _ _ _ _ q p c ⟨c.val - 4, by omega⟩ (by show 4 + (c.val - 4) = c.val; omega)).trans ?_
      exact centred_apply x a q p ⟨c.val - 4, by omega⟩
    · rw [dif_neg h7]
      by_cases h8 : c.val = 7
      · rw [if_pos h8]
        refine (cat3_thd_apply _ _ _ _ q p c (0 : Fin 2) (by show 7 + 0 = c.val; omega)).trans ?_
        refine (cat2_left_apply _ _ _ q p).trans ?_
        exact offCentre_apply x a 0 _ 1 _ q p 0 0 rfl 1 rfl
      · rw [if_neg h8]
        have h9 := c.isLt
        refine (cat3_thd_apply _ _ _ _ q p c (1 : Fin 2) (by show 7 + 1 = c.val; omega)).trans ?_
        refine (cat2_right_apply _ _ _ q p).trans ?_
        exact offCentre_apply x a 1 _ 2 _ q p 0 1 rfl 2 rfl

end Pieces

/-! ## The matrix product

The product's dimension numbers contract the feature axis of the 40000 x 9 operand with the first axis of the 9 x 64
weights. The four facts below say which coordinate of each operand comes from the output index and which from the
contraction index. -/

/-- The left operand's row is the output's row. -/
theorem dot_lhs_0 (i : S40000x64.Idx) (k : dot_S40000x9_S9x64_S40000x64_1_0_0_1_n_n.contr.Idx) :
    (dot_S40000x9_S9x64_S40000x64_1_0_0_1_n_n.lhsIdx i k 0).val = (i 0).val := by
  unfold DotDims.lhsIdx
  rw [dif_neg (show ¬(0 : Fin S40000x9.rank) ∈ dot_S40000x9_S9x64_S40000x64_1_0_0_1_n_n.lhsBatch by decide),
    dif_pos (show (0 : Fin S40000x9.rank) ∈ dot_S40000x9_S9x64_S40000x64_1_0_0_1_n_n.lhsNonContracting by decide)]
  rfl

/-- The left operand's column is the contraction coordinate. -/
theorem dot_lhs_1 (i : S40000x64.Idx) (k : dot_S40000x9_S9x64_S40000x64_1_0_0_1_n_n.contr.Idx) :
    (dot_S40000x9_S9x64_S40000x64_1_0_0_1_n_n.lhsIdx i k 1).val = (k ⟨0, by decide⟩).val :=
  dot_S40000x9_S9x64_S40000x64_1_0_0_1_n_n.lhsIdx_val_of_single rfl i k

/-- The right operand's row is the contraction coordinate. -/
theorem dot_rhs_0 (i : S40000x64.Idx) (k : dot_S40000x9_S9x64_S40000x64_1_0_0_1_n_n.contr.Idx) :
    (dot_S40000x9_S9x64_S40000x64_1_0_0_1_n_n.rhsIdx i k 0).val = (k ⟨0, by decide⟩).val :=
  dot_S40000x9_S9x64_S40000x64_1_0_0_1_n_n.rhsIdx_val_of_single rfl i k

/-- The right operand's column is the output's column. -/
theorem dot_rhs_1 (i : S40000x64.Idx) (k : dot_S40000x9_S9x64_S40000x64_1_0_0_1_n_n.contr.Idx) :
    (dot_S40000x9_S9x64_S40000x64_1_0_0_1_n_n.rhsIdx i k 1).val = (i 1).val := by
  unfold DotDims.rhsIdx
  rw [dif_neg (show ¬(1 : Fin S9x64.rank) ∈ dot_S40000x9_S9x64_S40000x64_1_0_0_1_n_n.rhsBatch by decide),
    dif_pos (show (1 : Fin S9x64.rank) ∈ dot_S40000x9_S9x64_S40000x64_1_0_0_1_n_n.rhsNonContracting by decide)]
  rfl

/-- The kernel's value is the product, into a zero accumulator, of the flattened feature block and the weights (both
    narrowed to the matrix unit's input format, which changes nothing on extended reals). -/
theorem pay5_eq (x : Vec Ideal S400x100x4 .f32) (a : Vec Ideal S400x8 .f32) (w : Vec Ideal S9x64 .f32) :
    k0_pay5 (F := Ideal) x a w
      = matmul dot_S40000x9_S9x64_S40000x64_1_0_0_1_n_n none
          (truncf .bf16 (shapeCast S40000x9 (featBlock x a) shapeCasts_S400x100x9_S40000x9) bitsLt_bf16_f32)
          (truncf (F := Ideal) .bf16 (w : FVec Ideal S9x64 .f32) bitsLt_bf16_f32)
          (constant (F := Ideal) S40000x64 .f32 0x00000000#32) := rfl

/-- **The kernel's linear layer read at a point and a channel**: at row `100 q + p` and column `u` the product is the
    specification's linear layer for point `p` of pillar `q`, channel `u`: the sum over the nine features of the masked
    feature times the weight. -/
theorem pay5_apply (x : Vec Ideal S400x100x4 .f32) (a : Vec Ideal S400x8 .f32) (w : Vec Ideal S9x64 .f32)
    (q : Fin 400) (p : Fin 100) (u : Fin 64) :
    k0_pay5 (F := Ideal) x a w (ix2 (⟨100 * q.val + p.val, by omega⟩ : Fin 40000) u)
      = Cert.Spec.lin (K := 400) x a w q p u := by
  rw [pay5_eq]
  refine (Cert.Lib.Dot2.matmul_zero_ix2 dot_S40000x9_S9x64_S40000x64_1_0_0_1_n_n none rfl rfl
    dot_lhs_0 dot_lhs_1 dot_rhs_0 dot_rhs_1 _ _ (⟨100 * q.val + p.val, by omega⟩ : Fin 40000) u).trans ?_
  unfold Cert.Spec.lin
  refine Finset.sum_congr rfl fun c _ => ?_
  refine congrArg (· * w (ix2 c u)) ?_
  exact (cast_rows_apply _ _ q p c).trans (featBlock_apply x a q p c)

end Cert.KernelIdeal.Pay

end
-- ==== Proof.BlockVal.lean ====
/-
  What one grid point of each kernel computes, in the specification's words.

  A block holds 400 pillars of 100 points; the kernels lay its linear-layer output out as 40000 rows, row 100 q + p
  for point p of pillar q. Summing over the 40000 rows is therefore summing over pillars and, inside each, over points;
  and the maximum over a group of 100 consecutive rows is the maximum over one pillar's points.
-/
import proofs.«117744_j60705067762261_1_alg».proof.Proof.PayRest
import proofs.«117744_j60705067762261_1_alg».proof.Proof.PayX
import Mathlib.Algebra.BigOperators.Group.Finset.Defs
import Mathlib.Data.Fintype.BigOperators

noncomputable section

namespace Cert.KernelIdeal.Pay

open Idealize.ShloMosaic Idealize.ShloMosaic.ValueIdx Cert.KernelIdeal Cert.KernelIdeal.Gen

/-! ## Rows as (pillar, point) pairs -/

/-- Row numbers below 40000 are the numbers 100 q + p with q < 400 and p < 100, each exactly once: q is the quotient
    and p the remainder of the division by 100. -/
private def rowEquiv : Fin 400 × Fin 100 ≃ Fin 40000 where
  toFun x := ⟨100 * x.1.val + x.2.val, by omega⟩
  invFun j := (⟨j.val / 100, by omega⟩, ⟨j.val % 100, by omega⟩)
  left_inv x := by
    apply Prod.ext <;> apply Fin.ext
    · show (100 * x.1.val + x.2.val) / 100 = x.1.val
      omega
    · show (100 * x.1.val + x.2.val) % 100 = x.2.val
      omega
  right_inv j := by
    apply Fin.ext
    show 100 * (j.val / 100) + j.val % 100 = j.val
    omega

/-- A sum over the 40000 rows is the sum over the pillars of the sums over each pillar's points. -/
theorem sum_rows (f : Fin 40000 → EReal) :
    ∑ j : Fin 40000, f j = ∑ q : Fin 400, ∑ p : Fin 100, f ⟨100 * q.val + p.val, by omega⟩ := by
  rw [← Equiv.sum_comp rowEquiv f, Fintype.sum_prod_type]
  rfl

/-! ## The statistics kernel at one block -/

/-- The block's contribution to the first total of channel u is the sum of the linear layer's output over the
    block's pillars and points. -/
theorem stats_block_sum (x : Vec Ideal S400x100x4 .f32) (a : Vec Ideal S400x8 .f32) (w : Vec Ideal S9x64 .f32) (u : Fin 64) :
    k0_pay7 (F := Ideal) x a w (ix1 u) = ∑ q : Fin 400, ∑ p : Fin 100, Cert.Spec.lin (K := 400) x a w q p u := by
  rw [pay7_apply, sum_rows]
  exact Finset.sum_congr rfl fun q _ => Finset.sum_congr rfl fun p _ => pay5_apply x a w q p u

/-- The second total of channel u grows by the sum of the squares of the linear layer's output over the block's
    pillars and points. -/
theorem stats_block_sq (x : Vec Ideal S400x100x4 .f32) (a : Vec Ideal S400x8 .f32) (w : Vec Ideal S9x64 .f32)
    (v47 : Vec Ideal S64 .f32) (u : Fin 64) :
    k0_pay2 (F := Ideal) (k0_pay5 (F := Ideal) x a w) v47 (ix1 u)
      = v47 (ix1 u) + ∑ q : Fin 400, ∑ p : Fin 100,
          Cert.Spec.lin (K := 400) x a w q p u * Cert.Spec.lin (K := 400) x a w q p u := by
  rw [pay2_apply, sum_rows]
  refine congrArg (v47 (ix1 u) + ·) ?_
  exact Finset.sum_congr rfl fun q _ => Finset.sum_congr rfl fun p _ => by rw [pay5_apply x a w q p u]

/-! ## The main kernel at one block -/

/-- Pillar q's output at channel u: the maximum over the pillar's points of the rectified, scaled and shifted linear
    layer's output, as the specification's pooling writes it. -/
theorem main_block (x : Vec Ideal S400x100x4 .f32) (a : Vec Ideal S400x8 .f32) (w : Vec Ideal S9x64 .f32)
    (sc sh : Vec Ideal S64 .f32) (q : Fin 400) (u : Fin 64) :
    k1_pay1 (F := Ideal) (k1_pay2 (F := Ideal) x a w sc) (k1_pay3 (F := Ideal) sh) (ix2 q u)
      = Cert.Spec.poolK (K := 400) x a w sc sh q u := by
  rw [k1_pay1_apply]
  unfold Cert.Spec.poolK
  refine congrArg ((Finset.univ : Finset (Fin 100)).fold max Cert.Spec.negInf) (funext fun p => ?_)
  rw [k1_pay2_apply, k1_pay3_apply, pay5_apply x a w q p u]

end Cert.KernelIdeal.Pay

end
-- ==== Proof.StatsVal.lean ====
/-
  The statistics pass, read as values: after its fifty grid points the two output arrays hold, per channel, the
  sum and the sum of squares of the linear layer's output over all 20000 pillars and their 100 points.

  Point t of the grid sees pillars 400 t .. 400 t + 399 of the point array and of the auxiliary array, and the whole
  weight matrix. Its body adds the block's per-channel sum to the first accumulator and the block's per-channel sum
  of squares to the second; at point 0 both start from zero. So after point n the accumulators hold the partial sums
  over blocks 0 .. n (an induction on n), after point 49 the sums over all fifty blocks, and fifty blocks of 400
  pillars are the 20000 pillars, each once. The accumulators are written back once, after point 49, through a block
  that is the whole 64-vector: the arrays end holding exactly what the accumulators then hold.
-/
import proofs.«117744_j60705067762261_1_alg».proof.Proof.StatsDefs
import proofs.«117744_j60705067762261_1_alg».proof.Proof.Spec
import proofs.«117744_j60705067762261_1_alg».proof.Proof.SpecBlock
import proofs.«117744_j60705067762261_1_alg».proof.Proof.PayRest
import proofs.«117744_j60705067762261_1_alg».proof.Proof.BlockVal
import Idealize.ShloMosaic.Lib.Pipeline.Value

set_option maxRecDepth 16384

noncomputable section

namespace Cert.KernelIdeal.Val

open Idealize.ShloMosaic Idealize.ShloMosaic.TcCoe Idealize.ShloMosaic.ValueIdx
open Cert.KernelIdeal Cert.KernelIdeal.Gen Cert.KernelIdeal.Hand Cert.KernelIdeal.Pay
open Idealize.ShloMosaic.Pipeline (Dat)

variable (V : (c : Dev nD) → (b : Ref sig .tc) → Buf (Elt Ideal) ((c : Thread nD τ).loc b)) (c : Dev nD)

/-! ## The blocks a grid point sees are restrictions of the whole arrays -/

/-- The grid has fifty points. -/
theorem stats_N : cfg0.N = 50 := N_0

/-- The point array's block index at point t is (t, 0, 0); -/
theorem stats_idx_X : ∀ t : Fin grid0.N,
    win0_0.index t (0 : Fin 3) = t.val ∧ win0_0.index t (1 : Fin 3) = 0 ∧ win0_0.index t (2 : Fin 3) = 0 := by
  decide +kernel

/-- the auxiliary array's is (t, 0); -/
theorem stats_idx_A : ∀ t : Fin grid0.N, win0_1.index t (0 : Fin 2) = t.val ∧ win0_1.index t (1 : Fin 2) = 0 := by
  decide +kernel

/-- the weight matrix's is (0, 0) at every point. -/
theorem stats_idx_W : ∀ t : Fin grid0.N, win0_2.index t (0 : Fin 2) = 0 ∧ win0_2.index t (1 : Fin 2) = 0 := by
  decide +kernel

/-- Element (q, p, k) of the point array's block at point t sits at (400 t + q, p, k) of the array: the block is
    the specification's block t. -/
theorem stats_iblk_X (X : Vec Ideal S20000x100x4 .f32) (hX : V c main_arg0 = X) (t : Fin cfg0.N) :
    (iblk0 V c 0 t : Vec Ideal S400x100x4 .f32) = Cert.Spec.blockX X ⟨t.val, stats_N ▸ t.isLt⟩ := by
  subst hX
  funext j
  unfold iblk0 Cert.Spec.blockX
  rw [View.read_apply]
  show V c main_arg0 _ = V c main_arg0 _
  congr 1
  funext a
  apply Fin.ext
  have hi := stats_idx_X t
  match a with
  | ⟨0, _⟩ => show win0_0.index t 0 * 400 + 1 * (j 0).val = 400 * t.val + (j 0).val; rw [hi.1]; omega
  | ⟨1, _⟩ => show win0_0.index t 1 * 100 + 1 * (j 1).val = (j 1).val; rw [hi.2.1]; omega
  | ⟨2, _⟩ => show win0_0.index t 2 * 4 + 1 * (j 2).val = (j 2).val; rw [hi.2.2]; omega

/-- Element (q, d) of the auxiliary array's block at point t sits at (400 t + q, d). -/
theorem stats_iblk_A (A : Vec Ideal S20000x8 .f32) (hA : V c main_v19 = A) (t : Fin cfg0.N) :
    (iblk0 V c 1 t : Vec Ideal S400x8 .f32) = Cert.Spec.blockA A ⟨t.val, stats_N ▸ t.isLt⟩ := by
  subst hA
  funext j
  unfold iblk0 Cert.Spec.blockA
  rw [View.read_apply]
  show V c main_v19 _ = V c main_v19 _
  congr 1
  funext a
  apply Fin.ext
  have hi := stats_idx_A t
  match a with
  | ⟨0, _⟩ => show win0_1.index t 0 * 400 + 1 * (j 0).val = 400 * t.val + (j 0).val; rw [hi.1]; omega
  | ⟨1, _⟩ => show win0_1.index t 1 * 8 + 1 * (j 1).val = (j 1).val; rw [hi.2]; omega

/-- The weight matrix's block is the whole matrix at every point. -/
theorem stats_iblk_W (Wt : Vec Ideal S9x64 .f32) (hW : V c main_arg3 = Wt) (t : Fin cfg0.N) :
    (iblk0 V c 2 t : Vec Ideal S9x64 .f32) = Wt := by
  subst hW
  funext j
  unfold iblk0
  rw [View.read_apply]
  show V c main_arg3 _ = V c main_arg3 _
  congr 1
  funext a
  apply Fin.ext
  have hi := stats_idx_W t
  match a with
  | ⟨0, _⟩ => show win0_2.index t 0 * 9 + 1 * (j 0).val = (j 0).val; rw [hi.1]; omega
  | ⟨1, _⟩ => show win0_2.index t 1 * 64 + 1 * (j 1).val = (j 1).val; rw [hi.2]; omega

/-! ## One block's contribution, and the partial sums -/

section Sums

variable (X : Vec Ideal S20000x100x4 .f32) (A : Vec Ideal S20000x8 .f32) (Wt : Vec Ideal S9x64 .f32) (u : Fin 64)

/-- Block t's contribution to the sum of channel u: the linear layer's output summed over the block's 400 pillars
    and their 100 points (zero for a t past the grid, so that partial sums can range over naturals). -/
def statsPart1 (t : ℕ) : EReal :=
  if h : t < 50 then ∑ q : Fin 400, ∑ p : Fin 100, Cert.Spec.lin (K := 20000) X A Wt (Cert.Spec.row ⟨t, h⟩ q) p u else 0

/-- Block t's contribution to the sum of squares of channel u. -/
def statsPart2 (t : ℕ) : EReal :=
  if h : t < 50 then ∑ q : Fin 400, ∑ p : Fin 100,
    Cert.Spec.lin (K := 20000) X A Wt (Cert.Spec.row ⟨t, h⟩ q) p u * Cert.Spec.lin (K := 20000) X A Wt (Cert.Spec.row ⟨t, h⟩ q) p u
  else 0

/-- What one grid point adds to the first accumulator, in the specification's words: the body's column sum over the
    block is the sum over the block's pillars and points, and a pillar of block t is pillar 400 t + q of the array. -/
theorem stats_step_fst (hX : V c main_arg0 = X) (hA : V c main_v19 = A) (hW : V c main_arg3 = Wt) (t : Fin cfg0.N)
    (s q : Vec Ideal S64 .f32) :
    (step0 (F := Ideal) (iblk0 V c 0 t) (iblk0 V c 1 t) (iblk0 V c 2 t) s q).1 (ix1 u) = s (ix1 u) + statsPart1 X A Wt u t.val := by
  have ht : t.val < 50 := stats_N ▸ t.isLt
  unfold step0
  show k0_pay1 (F := Ideal) (k0_pay6 s) (k0_pay7 (iblk0 V c 0 t) (iblk0 V c 1 t) (iblk0 V c 2 t)) (ix1 u) = _
  rw [pay1_apply, pay6_eq, stats_iblk_X V c X hX t, stats_iblk_A V c A hA t, stats_iblk_W V c Wt hW t, stats_block_sum]
  unfold statsPart1
  rw [dif_pos ht]
  refine congrArg (s (ix1 u) + ·) ?_
  exact Finset.sum_congr rfl fun q _ => Finset.sum_congr rfl fun p _ => Cert.Spec.lin_block X A Wt ⟨t.val, ht⟩ q p u

/-- What one grid point adds to the second accumulator. -/
theorem stats_step_snd (hX : V c main_arg0 = X) (hA : V c main_v19 = A) (hW : V c main_arg3 = Wt) (t : Fin cfg0.N)
    (s q : Vec Ideal S64 .f32) :
    (step0 (F := Ideal) (iblk0 V c 0 t) (iblk0 V c 1 t) (iblk0 V c 2 t) s q).2 (ix1 u) = q (ix1 u) + statsPart2 X A Wt u t.val := by
  have ht : t.val < 50 := stats_N ▸ t.isLt
  unfold step0
  show k0_pay2 (F := Ideal) (k0_pay5 (iblk0 V c 0 t) (iblk0 V c 1 t) (iblk0 V c 2 t)) q (ix1 u) = _
  rw [stats_iblk_X V c X hX t, stats_iblk_A V c A hA t, stats_iblk_W V c Wt hW t, stats_block_sq]
  unfold statsPart2
  rw [dif_pos ht]
  refine congrArg (q (ix1 u) + ·) ?_
  exact Finset.sum_congr rfl fun q _ => Finset.sum_congr rfl fun p _ => by
    rw [Cert.Spec.lin_block X A Wt ⟨t.val, ht⟩ q p u]

/-- After point n the first accumulator holds the contributions of blocks 0 .. n: zero plus block 0's at point 0,
    one more block at each later point. -/
theorem stats_outs_fst (hX : V c main_arg0 = X) (hA : V c main_v19 = A) (hW : V c main_arg3 = Wt) :
    ∀ (n : ℕ) (hn : n < cfg0.N), (outsAt0 V c n hn).1 (ix1 u) = ∑ t ∈ Finset.range (n + 1), statsPart1 X A Wt u t
  | 0, hn => by
    rw [outsAt0, stats_step_fst V c X A Wt u hX hA hW ⟨0, hn⟩, pay3_apply, zero_add, Finset.sum_range_one]
  | n + 1, hn => by
    rw [outsAt0, stats_step_fst V c X A Wt u hX hA hW ⟨n + 1, hn⟩, stats_outs_fst hX hA hW n (Nat.lt_of_succ_lt hn),
      Finset.sum_range_succ _ (n + 1)]

/-- Likewise the second accumulator. -/
theorem stats_outs_snd (hX : V c main_arg0 = X) (hA : V c main_v19 = A) (hW : V c main_arg3 = Wt) :
    ∀ (n : ℕ) (hn : n < cfg0.N), (outsAt0 V c n hn).2 (ix1 u) = ∑ t ∈ Finset.range (n + 1), statsPart2 X A Wt u t
  | 0, hn => by
    rw [outsAt0, stats_step_snd V c X A Wt u hX hA hW ⟨0, hn⟩, pay4_apply, zero_add, Finset.sum_range_one]
  | n + 1, hn => by
    rw [outsAt0, stats_step_snd V c X A Wt u hX hA hW ⟨n + 1, hn⟩, stats_outs_snd hX hA hW n (Nat.lt_of_succ_lt hn),
      Finset.sum_range_succ _ (n + 1)]

/-- The fifty blocks' contributions together are the sum over all 20000 pillars: pillar k is pillar k mod 400 of
    block k / 400. -/
theorem stats_parts1 : ∑ t ∈ Finset.range 50, statsPart1 X A Wt u t = Cert.Spec.sum1 (K := 20000) X A Wt u := by
  unfold Cert.Spec.sum1
  rw [Cert.Spec.sum_rows (fun k => ∑ p : Fin 100, Cert.Spec.lin (K := 20000) X A Wt k p u), Finset.sum_range]
  exact Finset.sum_congr rfl fun t _ => by unfold statsPart1; rw [dif_pos t.isLt]

/-- And their squares' contributions are the sum of squares over all 20000 pillars. -/
theorem stats_parts2 : ∑ t ∈ Finset.range 50, statsPart2 X A Wt u t = Cert.Spec.sum2 (K := 20000) X A Wt u := by
  unfold Cert.Spec.sum2
  rw [Cert.Spec.sum_rows (fun k => ∑ p : Fin 100, Cert.Spec.lin (K := 20000) X A Wt k p u * Cert.Spec.lin (K := 20000) X A Wt k p u),
    Finset.sum_range]
  exact Finset.sum_congr rfl fun t _ => by unfold statsPart2; rw [dif_pos t.isLt]

end Sums

/-! ## The one write-back: the arrays end at what the accumulators hold after the last point -/

/-- The last grid point. -/
abbrev statsLast : Fin cfg0.N := ⟨49, by rw [stats_N]; decide⟩

/-- What the first accumulator holds after the last point, as contents of the first output array; -/
abbrev statsRes1 : Buf (Elt Ideal) ((c : Thread nD τ).loc main_v20_0) := (outsAt0 V c 49 (by rw [stats_N]; decide)).1

/-- and the second, of the second output array. -/
abbrev statsRes2 : Buf (Elt Ideal) ((c : Thread nD τ).loc main_v20_1) := (outsAt0 V c 49 (by rw [stats_N]; decide)).2

/-- Only point 49 writes the first accumulator back, and its block, at block index 0 with the array's own 64
    entries, is the whole array: read through it, contents of the array are themselves. -/
theorem stats_flushed_3 (t : Fin cfg0.N) (hf : (cfg0.win 3).flush t = true) :
    (dat0 (F := Ideal) V c).flushed 3 t = ((cfg0.win 3).blk t).view.read (Elt Ideal) (statsRes1 V c) := by
  have h49 : t.val = 49 := by have h := (flush0_3 t).mp hf; have ht : t.val < 50 := stats_N ▸ t.isLt; omega
  obtain rfl : t = statsLast := Fin.ext h49
  show (cfg0.win 3).cut (grid0.coords statsLast) ((dat0 (F := Ideal) V c).after 3 statsLast) = _
  rw [after0_3]
  have hz' : (fun a => win0_3.index statsLast a * main_v20_0.ty.shape.size a) = fun _ => 0 := funext fun a => by fin_cases a <;> decide +kernel
  exact (Memref.read_access_unit_zero (Elt Ideal) main_v20_0 hz' (fun a => by rw [congrFun hz' a]; simp) (statsRes1 V c)).symm

/-- The same of the second accumulator and the second output array. -/
theorem stats_flushed_4 (t : Fin cfg0.N) (hf : (cfg0.win 4).flush t = true) :
    (dat0 (F := Ideal) V c).flushed 4 t = ((cfg0.win 4).blk t).view.read (Elt Ideal) (statsRes2 V c) := by
  have h49 : t.val = 49 := by have h := (flush0_4 t).mp hf; have ht : t.val < 50 := stats_N ▸ t.isLt; omega
  obtain rfl : t = statsLast := Fin.ext h49
  show (cfg0.win 4).cut (grid0.coords statsLast) ((dat0 (F := Ideal) V c).after 4 statsLast) = _
  rw [after0_4]
  have hz' : (fun a => win0_4.index statsLast a * main_v20_1.ty.shape.size a) = fun _ => 0 := funext fun a => by fin_cases a <;> decide +kernel
  exact (Memref.read_access_unit_zero (Elt Ideal) main_v20_1 hz' (fun a => by rw [congrFun hz' a]; simp) (statsRes2 V c)).symm

/-- Every entry of the first output array lies in point 49's block, so after the run the array holds what the
    first accumulator held after point 49. -/
theorem stats_final_3 : (dat0 (F := Ideal) V c).arrAt 3 cfg0.N = statsRes1 V c :=
  (dat0 (F := Ideal) V c).arrAt_eq_of_cover 3 (statsRes1 V c) (stats_flushed_3 V c) fun i =>
    ⟨statsLast, (flush0_3 statsLast).mpr rfl, by
      show i ∈ ((View.whole main_v20_0).slice (win0_3.rect statsLast)).set
      rw [View.set_slice_whole, Rect.mem_set_unit]
      intro a
      have h0 : (i 0 : Nat) < 64 := (i 0).isLt
      match a with
      | ⟨0, _⟩ =>
        show win0_3.index statsLast 0 * win0_3.size 0 ≤ (i 0 : Nat)
          ∧ (i 0 : Nat) < win0_3.index statsLast 0 * win0_3.size 0 + win0_3.xsize (grid0.coords statsLast) 0
        rw [show win0_3.index statsLast 0 * win0_3.size 0 = 0 from by decide +kernel,
          show win0_3.xsize (grid0.coords statsLast) 0 = 64 from by decide +kernel]
        omega⟩

/-- Likewise the second output array ends at what the second accumulator held after point 49. -/
theorem stats_final_4 : (dat0 (F := Ideal) V c).arrAt 4 cfg0.N = statsRes2 V c :=
  (dat0 (F := Ideal) V c).arrAt_eq_of_cover 4 (statsRes2 V c) (stats_flushed_4 V c) fun i =>
    ⟨statsLast, (flush0_4 statsLast).mpr rfl, by
      show i ∈ ((View.whole main_v20_1).slice (win0_4.rect statsLast)).set
      rw [View.set_slice_whole, Rect.mem_set_unit]
      intro a
      have h0 : (i 0 : Nat) < 64 := (i 0).isLt
      match a with
      | ⟨0, _⟩ =>
        show win0_4.index statsLast 0 * win0_4.size 0 ≤ (i 0 : Nat)
          ∧ (i 0 : Nat) < win0_4.index statsLast 0 * win0_4.size 0 + win0_4.xsize (grid0.coords statsLast) 0
        rw [show win0_4.index statsLast 0 * win0_4.size 0 = 0 from by decide +kernel,
          show win0_4.xsize (grid0.coords statsLast) 0 = 64 from by decide +kernel]
        omega⟩

/-! ## The two output arrays are the specification's sums -/

/-- The first output array holds, at channel u, the sum of the linear layer's output over all pillars and points. -/
theorem stats_arr3 (X : Vec Ideal S20000x100x4 .f32) (A : Vec Ideal S20000x8 .f32) (Wt : Vec Ideal S9x64 .f32)
    (hX : V c main_arg0 = X) (hA : V c main_v19 = A) (hW : V c main_arg3 = Wt) (u : Fin 64) :
    (dat0 (F := Ideal) V c).arrAt 3 cfg0.N (ix1 u) = Cert.Spec.sum1 (K := 20000) X A Wt u := by
  rw [stats_final_3 V c]
  exact (stats_outs_fst V c X A Wt u hX hA hW 49 _).trans (stats_parts1 X A Wt u)

/-- The second holds the sum of its squares. -/
theorem stats_arr4 (X : Vec Ideal S20000x100x4 .f32) (A : Vec Ideal S20000x8 .f32) (Wt : Vec Ideal S9x64 .f32)
    (hX : V c main_arg0 = X) (hA : V c main_v19 = A) (hW : V c main_arg3 = Wt) (u : Fin 64) :
    (dat0 (F := Ideal) V c).arrAt 4 cfg0.N (ix1 u) = Cert.Spec.sum2 (K := 20000) X A Wt u := by
  rw [stats_final_4 V c]
  exact (stats_outs_snd V c X A Wt u hX hA hW 49 _).trans (stats_parts2 X A Wt u)

end Cert.KernelIdeal.Val
end
-- ==== Proof.MainVal.lean ====
/-
  The normalise-and-pool region's output array, after the region, is the specification's pooled value of the arrays
  the region found: per pillar and channel the maximum over the pillar's points of the rectified
  `lin * scale + shift`.

  Point `t` of the grid writes rows 400 t .. 400 t + 399 of the output; its input blocks are the same rows of the
  point array and of the auxiliary array, and the whole weight matrix, scale vector and shift vector. So what point
  `t` writes back is block `t` of one whole-array function, and the 50 blocks tile the 20000 rows.
-/
import proofs.«117744_j60705067762261_1_alg».proof.Proof.MainDefs
import proofs.«117744_j60705067762261_1_alg».proof.Proof.SpecBlock
import proofs.«117744_j60705067762261_1_alg».proof.Proof.BlockVal
import Idealize.ShloMosaic.Lib.Pipeline.Value

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat Cfg Window)
open Cert.KernelIdeal.Pay

variable (V : (c : Dev nD) → (b : Ref sig .tc) → Buf (Elt Ideal) ((c : Thread nD τ).loc b))

/-- The region's index maps, decided once over the 50 grid points: the three blocked windows (points, auxiliary
    array, output) sit at block row `t`, every other block index is zero. -/
theorem idx_facts1 : ∀ t : Fin cfg1.N, win1_0.index t (0 : Fin 3) = t.val ∧ win1_0.index t (1 : Fin 3) = 0
    ∧ win1_0.index t (2 : Fin 3) = 0 ∧ win1_1.index t (0 : Fin 2) = t.val ∧ win1_1.index t (1 : Fin 2) = 0
    ∧ win1_2.index t (0 : Fin 2) = 0 ∧ win1_2.index t (1 : Fin 2) = 0 ∧ win1_3.index t (0 : Fin 1) = 0
    ∧ win1_4.index t (0 : Fin 1) = 0 ∧ win1_5.index t (0 : Fin 2) = t.val ∧ win1_5.index t (1 : Fin 2) = 0 :=
  (by decide +kernel : ∀ t : Fin grid1.N, _)

/-- A grid point as a block number. -/
abbrev blkNo (t : Fin cfg1.N) : Fin 50 := ⟨t.val, lt_of_lt_of_eq t.isLt (show cfg1.N = 50 from N_1)⟩

section Blocks

variable (c : Dev nD) (X : Vec Ideal S20000x100x4 .f32) (A : Vec Ideal S20000x8 .f32) (Wt : Vec Ideal S9x64 .f32)
  (sc sh : Vec Ideal S64 .f32)

/-- The point block at point `t` is rows 400 t .. of the point array. -/
theorem iblk1_0 (hX : V c main_arg0 = X) (t : Fin cfg1.N) :
    (iblk1 V c 0 t : Vec Ideal S400x100x4 .f32) = Cert.Spec.blockX X (blkNo t) := by
  obtain ⟨e0, e1, e2, -⟩ := idx_facts1 t
  funext y
  show V c main_arg0 (((cfg1.win 0).blk t).view.emb y) = X _
  rw [hX]
  refine congrArg X (funext fun a => Fin.ext ?_)
  match a with
  | ⟨0, _⟩ => show win1_0.index t (0 : Fin 3) * 400 + 1 * (y 0).val = 400 * t.val + (y 0).val; omega
  | ⟨1, _⟩ => show win1_0.index t (1 : Fin 3) * 100 + 1 * (y 1).val = (y 1).val; omega
  | ⟨2, _⟩ => show win1_0.index t (2 : Fin 3) * 4 + 1 * (y 2).val = (y 2).val; omega

/-- The auxiliary block at point `t` is rows 400 t .. of the auxiliary array. -/
theorem iblk1_1 (hA : V c main_v19 = A) (t : Fin cfg1.N) :
    (iblk1 V c 1 t : Vec Ideal S400x8 .f32) = Cert.Spec.blockA A (blkNo t) := by
  obtain ⟨-, -, -, e0, e1, -⟩ := idx_facts1 t
  funext y
  show V c main_v19 (((cfg1.win 1).blk t).view.emb y) = A _
  rw [hA]
  refine congrArg A (funext fun a => Fin.ext ?_)
  match a with
  | ⟨0, _⟩ => show win1_1.index t (0 : Fin 2) * 400 + 1 * (y 0).val = 400 * t.val + (y 0).val; omega
  | ⟨1, _⟩ => show win1_1.index t (1 : Fin 2) * 8 + 1 * (y 1).val = (y 1).val; omega

/-- The weight block at every point is the whole weight matrix. -/
theorem iblk1_2 (hW : V c main_arg3 = Wt) (t : Fin cfg1.N) : (iblk1 V c 2 t : Vec Ideal S9x64 .f32) = Wt := by
  obtain ⟨-, -, -, -, -, e0, e1, -⟩ := idx_facts1 t
  funext y
  show V c main_arg3 (((cfg1.win 2).blk t).view.emb y) = Wt y
  rw [hW]
  refine congrArg Wt (funext fun a => Fin.ext ?_)
  match a with
  | ⟨0, _⟩ => show win1_2.index t (0 : Fin 2) * 9 + 1 * (y 0).val = (y 0).val; omega
  | ⟨1, _⟩ => show win1_2.index t (1 : Fin 2) * 64 + 1 * (y 1).val = (y 1).val; omega

/-- The scale block at every point is the whole scale vector. -/
theorem iblk1_3 (hsc : V c main_v30 = sc) (t : Fin cfg1.N) : (iblk1 V c 3 t : Vec Ideal S64 .f32) = sc := by
  obtain ⟨-, -, -, -, -, -, -, e0, -⟩ := idx_facts1 t
  funext y
  show V c main_v30 (((cfg1.win 3).blk t).view.emb y) = sc y
  rw [hsc]
  refine congrArg sc (funext fun a => Fin.ext ?_)
  match a with
  | ⟨0, _⟩ => show win1_3.index t (0 : Fin 1) * 64 + 1 * (y 0).val = (y 0).val; omega

/-- The shift block at every point is the whole shift vector. -/
theorem iblk1_4 (hsh : V c main_v32 = sh) (t : Fin cfg1.N) : (iblk1 V c 4 t : Vec Ideal S64 .f32) = sh := by
  obtain ⟨-, -, -, -, -, -, -, -, e0, -⟩ := idx_facts1 t
  funext y
  show V c main_v32 (((cfg1.win 4).blk t).view.emb y) = sh y
  rw [hsh]
  refine congrArg sh (funext fun a => Fin.ext ?_)
  match a with
  | ⟨0, _⟩ => show win1_4.index t (0 : Fin 1) * 64 + 1 * (y 0).val = (y 0).val; omega

/-- The whole output array the region leaves: the pooled value, pillar by pillar and channel by channel. -/
def G5 : S20000x64.Idx → EReal := fun i => Cert.Spec.poolK (K := 20000) X A Wt sc sh (i 0) (i 1)

/-- What point `t` writes back is block `t` of `G5`. -/
theorem flushed5_eq (hX : V c main_arg0 = X) (hA : V c main_v19 = A) (hW : V c main_arg3 = Wt)
    (hsc : V c main_v30 = sc) (hsh : V c main_v32 = sh) (t : Fin cfg1.N) :
    (dat1 (F := Ideal) V c).flushed 5 t = ((cfg1.win 5).blk t).view.read (Elt Ideal) (G5 X A Wt sc sh) := by
  show (cfg1.win 5).cut (grid1.coords t) ((dat1 (F := Ideal) V c).after 5 t) = _
  rw [after1_5, iblk1_0 V c X hX t, iblk1_1 V c A hA t, iblk1_2 V c Wt hW t, iblk1_3 V c sc hsc t, iblk1_4 V c sh hsh t]
  obtain ⟨-, -, -, -, -, -, -, -, -, e0, e1⟩ := idx_facts1 t
  funext j
  obtain ⟨q, u, rfl⟩ : ∃ (q : Fin 400) (u : Fin 64), j = ix2 q u := ⟨j 0, j 1, eq_ix2 j⟩
  show main1 (F := Ideal) (Cert.Spec.blockX X (blkNo t)) (Cert.Spec.blockA A (blkNo t)) Wt sc sh (ix2 q u)
    = G5 X A Wt sc sh (((cfg1.win 5).blk t).view.emb (ix2 q u))
  unfold main1
  rw [main_block, Cert.Spec.poolK_block]
  unfold G5
  have hr : (((cfg1.win 5).blk t).view.emb (ix2 q u)) = ix2 (Cert.Spec.row (blkNo t) q) u := by
    funext a; apply Fin.ext
    match a with
    | ⟨0, _⟩ => show win1_5.index t (0 : Fin 2) * 400 + 1 * q.val = 400 * t.val + q.val; omega
    | ⟨1, _⟩ => show win1_5.index t (1 : Fin 2) * 64 + 1 * u.val = u.val; omega
  rw [hr]

/-- An index of the output array is in point `t`'s block iff each coordinate is in the block's range on its axis. -/
theorem mem_blk5 (t : Fin cfg1.N) (i : S20000x64.Idx) :
    i ∈ ((cfg1.win 5).blk t).view.set ↔ ∀ a : Fin 2, win1_5.index t a * S400x64.size a ≤ (i a).val
      ∧ (i a).val < win1_5.index t a * S400x64.size a + S400x64.size a := by
  show i ∈ ((View.whole main_v33).slice (win1_5.rect t)).set ↔ _
  rw [View.set_slice_whole, Rect.mem_set_unit]
  exact Iff.rfl

/-- The 50 blocks tile the 20000 rows: row `r` lies in the block of point `r / 400`, which is written back. -/
theorem cover5 (i : S20000x64.Idx) :
    ∃ t : Fin cfg1.N, (cfg1.win 5).flush t = true ∧ i ∈ ((cfg1.win 5).blk t).view.set := by
  have hi0 : (i 0).val < 20000 := (i 0).isLt
  have hi1 : (i 1).val < 64 := (i 1).isLt
  have hN : cfg1.N = 50 := N_1
  have ht : (i 0).val / 400 < cfg1.N := by rw [hN]; omega
  obtain ⟨-, -, -, -, -, -, -, -, -, e0, e1⟩ := idx_facts1 ⟨(i 0).val / 400, ht⟩
  refine ⟨⟨(i 0).val / 400, ht⟩, flush1_5 _, ?_⟩
  rw [mem_blk5]
  intro a
  match a with
  | ⟨0, _⟩ =>
    show win1_5.index ⟨(i 0).val / 400, ht⟩ (0 : Fin 2) * 400 ≤ (i 0).val
      ∧ (i 0).val < win1_5.index ⟨(i 0).val / 400, ht⟩ (0 : Fin 2) * 400 + 400
    rw [e0]; show (i 0).val / 400 * 400 ≤ (i 0).val ∧ (i 0).val < (i 0).val / 400 * 400 + 400; omega
  | ⟨1, _⟩ =>
    show win1_5.index ⟨(i 0).val / 400, ht⟩ (1 : Fin 2) * 64 ≤ (i 1).val
      ∧ (i 1).val < win1_5.index ⟨(i 0).val / 400, ht⟩ (1 : Fin 2) * 64 + 64
    rw [e1]; omega

/-- THE OUTPUT ARRAY after the region: the pooled value of the arrays the region found. -/
theorem main_arr5 (hX : V c main_arg0 = X) (hA : V c main_v19 = A) (hW : V c main_arg3 = Wt)
    (hsc : V c main_v30 = sc) (hsh : V c main_v32 = sh) :
    (dat1 (F := Ideal) V c).arrAt 5 cfg1.N = G5 X A Wt sc sh :=
  (dat1 (F := Ideal) V c).arrAt_eq_of_cover 5 (G5 X A Wt sc sh)
    (fun t _ => flushed5_eq V c X A Wt sc sh hX hA hW hsc hsh t) cover5

end Blocks

end Cert.KernelIdeal.Val

end
-- ==== Proof.HostVal.lean ====
/-
  What the two stretches of host operations between and before the kernels compute, read as plain functions of the
  buffers they start from, whatever else the starting valuation holds.

  The first stretch builds the 20000 x 8 auxiliary array from two integer inputs: the per-pillar point counts and
  the per-pillar integer grid coordinates. Column 0 is the count as a float; columns 1 and 2 are the pillar centre,
  `coordinate * cell size + offset`, from coordinate columns 3 and 2; the remaining five columns are zero.

  The second stretch turns the per-channel sum `s1` and sum of squares `s2` of the linear layer's output into the
  normalisation's folded scale and shift: with `n` the number of points, mean `m = s1 / n`, variance
  `s2 / n - m * m`, scale `g * rsqrt (variance + eps)` and shift `b - m * scale`.

  Every operation involved is either elementwise or a pure re-indexing (slice, reshape, broadcast, laying blocks of
  columns side by side), so each statement is obtained by substituting every operation's result for the buffer it
  wrote and then reading the composed term at one index.
-/
import proofs.«117744_j60705067762261_1_alg».proof.Proof.Gen.KernelIdeal.Launch
import proofs.«117744_j60705067762261_1_alg».proof.Proof.Spec
import Idealize.ShloMosaic.Lib.StableHlo.Run
import Idealize.ShloMosaic.Lib.Pipeline.Value
import Idealize.ShloMosaic.Lib.ValueLayout
import Idealize.ShloMosaic.Lib.IdealHost

noncomputable section

namespace Cert.KernelIdeal.Val

open Idealize.ShloMosaic Idealize.ShloMosaic.ValueIdx Cert.KernelIdeal Cert.KernelIdeal.Gen

/-! ## The auxiliary array -/

/-- The pillar centre along one axis as the program builds it, a float vector over the pillars: column `o` of the
    integer coordinate array cut out as a one-column matrix, flattened to a vector, converted to floats, multiplied
    by the cell-size literal and moved by the offset literal `off`. -/
private abbrev centre (co : IVec S20000x4 32) (o : Nat) (h : S20000x4.Slices ![0, o] S20000x1) (off : BitVec 32) :
    FVec Ideal S20000 .f32 :=
  addf
    (mulf
      (sitofp .f32 (shapeCast S20000 (extractStridedSlice S20000x1 ![0, o] co h) shapeCasts_S20000x1_S20000))
      (broadcastInDim S20000 ![] bcast_S_S20000 (constant (F := Ideal) S_ .f32 0x3E4CCCCD#32)))
    (broadcastInDim S20000 ![] bcast_S_S20000 (constant (F := Ideal) S_ .f32 off))

/-- The first stretch without its last operation: the 24 operations that compute the four blocks of columns the
    last operation lays side by side. -/
private abbrev blockOps : List (HloOp τ sig (Elt Ideal)) := (hostOps0 (F := Ideal)).dropLast

/-- The first block, one column: the counts converted to floats. Each operation's result is substituted for the
    buffer it wrote; a buffer an operation does not write keeps its contents. -/
private theorem block0_val (Wv : Valuation τ sig (Elt Ideal)) :
    StableHlo.after blockOps Wv (Proc.devRef .tc main_v16)
      = broadcastInDim S20000x1 ![0] bcast_S20000_S20000x1_0
          (sitofp (F := Ideal) .f32 (Wv (Proc.devRef .tc main_arg1))) := by
  simp only [blockOps, hostOps0, List.dropLast]
  after_results_simp

/-- The second block, one column: the centre from coordinate column 3. -/
private theorem block1_val (Wv : Valuation τ sig (Elt Ideal)) :
    StableHlo.after blockOps Wv (Proc.devRef .tc main_v17)
      = broadcastInDim S20000x1 ![0] bcast_S20000_S20000x1_0
          (centre (Wv (Proc.devRef .tc main_arg2)) 3 slices_S20000x4_S20000x1_0_3 0x3DCCCCCD#32) := by
  simp only [blockOps, hostOps0, List.dropLast]
  after_results_simp
  rfl

/-- The third block, one column: the centre from coordinate column 2. -/
private theorem block2_val (Wv : Valuation τ sig (Elt Ideal)) :
    StableHlo.after blockOps Wv (Proc.devRef .tc main_v18)
      = broadcastInDim S20000x1 ![0] bcast_S20000_S20000x1_0
          (centre (Wv (Proc.devRef .tc main_arg2)) 2 slices_S20000x4_S20000x1_0_2 0xC21F999A#32) := by
  simp only [blockOps, hostOps0, List.dropLast]
  after_results_simp
  rfl

/-- The fourth block, five columns of the zero literal. -/
private theorem block3_val (Wv : Valuation τ sig (Elt Ideal)) :
    StableHlo.after blockOps Wv (Proc.devRef .tc main_v15)
      = broadcastInDim S20000x5 ![] bcast_S_S20000x5 (constant (F := Ideal) S_ .f32 0x00000000#32) := by
  simp only [blockOps, hostOps0, List.dropLast]
  after_results_simp

/-- The last operation of the first stretch, from any contents `V` of the buffers: it reads the four block buffers
    and writes, into the auxiliary array, their concatenation along the column axis. -/
private theorem last_result (V : Valuation τ sig (Elt Ideal)) :
    ((hostOps0 (F := Ideal)).getLast (List.cons_ne_nil _ _)).result V (Proc.devRef .tc main_v19)
      = concatenate S20000x8 1
          [⟨S20000x1, V (Proc.devRef .tc main_v16)⟩, ⟨S20000x1, V (Proc.devRef .tc main_v17)⟩,
           ⟨S20000x1, V (Proc.devRef .tc main_v18)⟩, ⟨S20000x5, V (Proc.devRef .tc main_v15)⟩]
          concatenates_S20000x1_S20000x1_S20000x1_S20000x5_S20000x8_d1 := by
  simp only [hostOps0, List.getLast_cons_cons, List.getLast_singleton]
  rw [StableHlo.nary4_result]
  rfl

/-- What the first stretch leaves in the auxiliary array, as one term over the two integer inputs: the four blocks
    side by side. The stretch is its first 24 operations followed by the last one; the last one reads the four
    block buffers as the 24 left them. -/
private theorem aux_term (Wv : Valuation τ sig (Elt Ideal)) :
    StableHlo.after (hostOps0 (F := Ideal)) Wv (Proc.devRef .tc main_v19)
      = concatenate S20000x8 1
          [⟨S20000x1, broadcastInDim S20000x1 ![0] bcast_S20000_S20000x1_0
              (sitofp (F := Ideal) .f32 (Wv (Proc.devRef .tc main_arg1)))⟩,
           ⟨S20000x1, broadcastInDim S20000x1 ![0] bcast_S20000_S20000x1_0
              (centre (Wv (Proc.devRef .tc main_arg2)) 3 slices_S20000x4_S20000x1_0_3 0x3DCCCCCD#32)⟩,
           ⟨S20000x1, broadcastInDim S20000x1 ![0] bcast_S20000_S20000x1_0
              (centre (Wv (Proc.devRef .tc main_arg2)) 2 slices_S20000x4_S20000x1_0_2 0xC21F999A#32)⟩,
           ⟨S20000x5, broadcastInDim S20000x5 ![] bcast_S_S20000x5 (constant (F := Ideal) S_ .f32 0x00000000#32)⟩]
          concatenates_S20000x1_S20000x1_S20000x1_S20000x5_S20000x8_d1 := by
  have hne : (hostOps0 (F := Ideal) : List (HloOp τ sig (Elt Ideal))) ≠ [] := List.cons_ne_nil _ _
  rw [← List.dropLast_concat_getLast hne, StableHlo.after_append, StableHlo.after_cons, StableHlo.after_nil,
    last_result, block0_val, block1_val, block2_val, block3_val]

/-- A vector over the pillars laid out as a single column reads, at row `p`, the vector at `p`: the one output
    axis the operand's axis is sent to is the row axis, and 20000 is not 1, so no coordinate is collapsed. -/
private theorem col_apply {α : Type} (x : S20000.Idx → α) (p : Fin 20000) (c : Fin 1) :
    broadcastInDim S20000x1 ![0] bcast_S20000_S20000x1_0 x (ix2 p c) = x (ix1 p) :=
  broadcastInDim_apply _ _ x _ (ix1 p) fun a => by
    match a with
    | ⟨0, _⟩ => rfl

/-- Column `c` of the coordinate array, cut out as a 20000 x 1 matrix and flattened, reads at `p` the array at
    `(p, c)`: position `p` of the vector is position `p * 1 + 0` of the one-column matrix, whose entry `(p, 0)` is
    the array's entry `(p, o + 0)`. -/
private theorem column_apply {α : Type} (co : S20000x4.Idx → α) (o : Nat) (h : S20000x4.Slices ![0, o] S20000x1)
    (p : Fin 20000) (c : Fin 4) (hc : c.val = o) :
    shapeCast S20000 (extractStridedSlice S20000x1 ![0, o] co h) shapeCasts_S20000x1_S20000 (ix1 p) = co (ix2 p c) := by
  refine (shapeCast_apply _ shapeCasts_S20000x1_S20000 (ix1 p) (ix2 p (0 : Fin 1)) ?_).trans ?_
  · rw [Shape.rowMajor_val_two, Shape.rowMajor_val_one]
    show p.val * 1 + 0 = p.val
    omega
  · exact slice2_axis1_apply o co h p (0 : Fin 1) c (by rw [hc]; rfl)

/-- The centre at pillar `p`: the integer in column `c` of the coordinate array, as a real number, times the
    cell-size literal, plus the offset literal. -/
private theorem centre_apply (co : IVec S20000x4 32) (o : Nat) (h : S20000x4.Slices ![0, o] S20000x1) (off : BitVec 32)
    (p : Fin 20000) (c : Fin 4) (hc : c.val = o) :
    centre co o h off (ix1 p)
      = (((co (ix2 p c)).toInt : ℝ) : EReal) * Ideal.ofBits .f32 0x3E4CCCCD#32 + Ideal.ofBits .f32 off := by
  show addf (mulf (sitofp .f32 _) _) _ (ix1 p) = _
  rw [addf_apply, mulf_apply, sitofp_apply, broadcastInDim_scalar_apply, broadcastInDim_scalar_apply,
    column_apply co o h p c hc]
  rfl

/-- Reading blocks of columns laid side by side, each block 20000 rows high: entry `(p, c)` lies in block `k` when
    `c = pre + c'` with `pre` the total width of the blocks before `k` and `c'` a column of block `k`, and is that
    block's entry `(p, c')`. -/
private theorem blocks_apply {α : Type} (xs : List ((s : Shape) × (s.Idx → α)))
    (h : Shape.Concatenates (xs.map (·.1)) S20000x8 1) (p : Fin 20000) (c : Fin 8)
    (k : Nat) (hk : k < xs.length) (w : Nat) (x₁ : (⟨2, ![20000, w]⟩ : Shape).Idx → α)
    (hxk : xs[k] = ⟨⟨2, ![20000, w]⟩, x₁⟩) (pre : Nat)
    (hpre : (((xs.take k).map (·.1)).map fun s : Shape =>
      if h : s.rank = S20000x8.rank then s.size ((1 : Fin S20000x8.rank).cast h.symm) else 0).sum = pre)
    (c' : Fin w) (hc : pre + c'.val = c.val) :
    concatenate S20000x8 1 xs h (ix2 p c) = x₁ (ix2 p c') :=
  concatenate_apply_piece (1 : Fin S20000x8.rank) xs h (ix2 p c) k hk _ x₁ hxk rfl pre hpre (ix2 p c')
    (fun b hb => by
      match b with
      | ⟨0, _⟩ => rfl
      | ⟨1, _⟩ => exact absurd rfl hb)
    hc

/-- After the first stretch of host operations the auxiliary array is `auxOf` of the two integer inputs. Column by
    column: column 0 lies in the first block and is the count converted to a float; columns 1 and 2 are the second
    and third blocks, the centres from coordinate columns 3 and 2; columns 3 to 7 are the block of zero literals. -/
theorem aux_val (Wv : Valuation τ sig (Elt Ideal)) :
    StableHlo.after (hostOps0 (F := Ideal)) Wv (Proc.devRef .tc main_v19)
      = Cert.Spec.auxOf (Wv (Proc.devRef .tc main_arg1)) (Wv (Proc.devRef .tc main_arg2)) := by
  rw [aux_term]
  funext i
  obtain ⟨p, c, rfl⟩ : ∃ (p : Fin 20000) (c : Fin 8), i = ix2 p c := ⟨i 0, i 1, eq_ix2 i⟩
  show _ = (if c.val = 0 then _ else if c.val = 1 then _ else if c.val = 2 then _ else _)
  by_cases h0 : c.val = 0
  · rw [if_pos h0]
    refine (blocks_apply _ _ p c 0 (by show (0 : ℕ) < 4; omega) 1 _ rfl 0 rfl (0 : Fin 1) (by rw [h0]; rfl)).trans ?_
    rw [col_apply]
    rfl
  · rw [if_neg h0]
    by_cases h1 : c.val = 1
    · rw [if_pos h1]
      refine (blocks_apply _ _ p c 1 (by show (1 : ℕ) < 4; omega) 1 _ rfl 1 rfl (0 : Fin 1) (by rw [h1]; rfl)).trans ?_
      rw [col_apply, centre_apply _ 3 _ _ p (3 : Fin 4) rfl]
    · rw [if_neg h1]
      by_cases h2 : c.val = 2
      · rw [if_pos h2]
        refine (blocks_apply _ _ p c 2 (by show (2 : ℕ) < 4; omega) 1 _ rfl 2 rfl (0 : Fin 1) (by rw [h2]; rfl)).trans ?_
        rw [col_apply, centre_apply _ 2 _ _ p (2 : Fin 4) rfl]
      · rw [if_neg h2]
        have hc := c.isLt
        refine (blocks_apply _ _ p c 3 (by show (3 : ℕ) < 4; omega) 5 _ rfl 3 rfl ⟨c.val - 3, by omega⟩ (by
          show 3 + (c.val - 3) = c.val
          omega)).trans ?_
        rw [broadcastInDim_scalar_apply]
        rfl

/-! ## The statistics folded into a scale and a shift -/

/-- The host's reciprocal square root at an index is the ideal one of the element. -/
private theorem hostRsqrt_apply {s : Shape} {φ : FTy} (a : FVec Ideal s φ) (i : s.Idx) :
    Host.rsqrt a i = Ideal.rsqrt (a i) := rfl

/-- A float literal broadcast over the 64 channels reads the literal at every channel. -/
private theorem lit64_apply (b : BitVec 32) (u : Fin 64) :
    broadcastInDim S64 ![] bcast_S_S64 (constant (F := Ideal) S_ .f32 b) (ix1 u) = Ideal.ofBits .f32 b :=
  broadcastInDim_scalar_apply bcast_S_S64 _ _

/-- The scale as the program spells it, from the two sums `s1`, `s2` and the weights `g`: with
    `m = s1 / n` the mean and `s2 / n` the mean of the squares, it is `g * rsqrt ((s2 / n - m * m) + eps)`,
    channel by channel. Every operation is elementwise, so reading the array at channel `u` reads each operand at `u`. -/
private theorem scale_term (s1 s2 g : FVec Ideal S64 .f32) (u : Fin 64) :
    mulf g (Host.rsqrt (addf
        (subf (Host.divf s2 (broadcastInDim S64 ![] bcast_S_S64 (constant (F := Ideal) S_ .f32 0x49F42400#32)))
          (mulf (Host.divf s1 (broadcastInDim S64 ![] bcast_S_S64 (constant (F := Ideal) S_ .f32 0x49F42400#32)))
            (Host.divf s1 (broadcastInDim S64 ![] bcast_S_S64 (constant (F := Ideal) S_ .f32 0x49F42400#32)))))
        (broadcastInDim S64 ![] bcast_S_S64 (constant (F := Ideal) S_ .f32 0x3A83126F#32)))) (ix1 u)
      = Cert.Spec.scaleK (fun v => s1 (ix1 v)) (fun v => s2 (ix1 v)) g u := by
  rw [mulf_apply, hostRsqrt_apply, addf_apply, subf_apply, mulf_apply, hostDivf_apply, hostDivf_apply,
    lit64_apply, lit64_apply]
  rfl

/-- After the second stretch of host operations, the scale array holds `scaleK` of the two sums the first kernel
    left and of the weights. -/
theorem scale_val (Wv : Valuation τ sig (Elt Ideal)) (u : Fin 64) :
    StableHlo.after (hostOps1 (F := Ideal)) Wv (Proc.devRef .tc main_v30) (ix1 u)
      = Cert.Spec.scaleK (fun v => Wv (Proc.devRef .tc main_v20_0) (ix1 v))
          (fun v => Wv (Proc.devRef .tc main_v20_1) (ix1 v)) (Wv (Proc.devRef .tc main_arg4)) u := by
  after_results_simp
  exact scale_term _ _ _ u

/-- And the shift array holds `shiftK`: the bias less the mean times the scale. The program multiplies the mean by
    the scale array it has just written, so the scale's term appears inside the shift's and is read by the same lemma. -/
theorem shift_val (Wv : Valuation τ sig (Elt Ideal)) (u : Fin 64) :
    StableHlo.after (hostOps1 (F := Ideal)) Wv (Proc.devRef .tc main_v32) (ix1 u)
      = Cert.Spec.shiftK (fun v => Wv (Proc.devRef .tc main_v20_0) (ix1 v))
          (fun v => Wv (Proc.devRef .tc main_v20_1) (ix1 v)) (Wv (Proc.devRef .tc main_arg4))
          (Wv (Proc.devRef .tc main_arg5)) u := by
  after_results_simp
  rw [subf_apply, mulf_apply, hostDivf_apply, lit64_apply, scale_term]
  rfl

end Cert.KernelIdeal.Val

end
-- ==== Proof.KernelVal.lean ====
/-
  What the idealized kernel program leaves in its result array: the first spelling of the specification.

  The program runs in four stretches. Host operations build the auxiliary array (counts and pillar centres) from
  the integer inputs. The statistics region leaves the per-channel sum and sum of squares of the linear layer's
  output over all pillars and points. Host operations turn the two sums into the folded scale and shift vectors.
  The second region writes, per pillar and channel, the maximum over the pillar's points of the rectified
  `x * scale + shift`. No stretch changes the point array, the auxiliary array or the weights once they exist.
-/
import proofs.«117744_j60705067762261_1_alg».proof.Proof.RunFold
import proofs.«117744_j60705067762261_1_alg».proof.Proof.StatsVal
import proofs.«117744_j60705067762261_1_alg».proof.Proof.MainVal
import proofs.«117744_j60705067762261_1_alg».proof.Proof.HostVal
import proofs.«117744_j60705067762261_1_alg».proof.Proof.Gen.KernelIdeal.Regions

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat)

variable (m : (ℓ : Loc nD τ sig) → Buf (Elt Ideal) ℓ) (ρ : Dev nD → PrngReg) (c : Dev nD)

/-- The six argument arrays on core `c`, and the auxiliary array the specification builds from the integer ones. -/
abbrev argX : Vec Ideal S20000x100x4 .f32 := m ((c : Thread nD τ).loc main_arg0)
abbrev argN : IVec S20000 32 := m ((c : Thread nD τ).loc main_arg1)
abbrev argC : IVec S20000x4 32 := m ((c : Thread nD τ).loc main_arg2)
abbrev argW : Vec Ideal S9x64 .f32 := m ((c : Thread nD τ).loc main_arg3)
abbrev argG : Vec Ideal S64 .f32 := m ((c : Thread nD τ).loc main_arg4)
abbrev argB : Vec Ideal S64 .f32 := m ((c : Thread nD τ).loc main_arg5)
abbrev auxA : Vec Ideal S20000x8 .f32 := Cert.Spec.auxOf (argN m c) (argC m c)

/-! ## Before the statistics region -/

/-- A buffer the first host stretch does not write is as launched when the statistics region is entered. -/
theorem V1_keep (b : Ref sig .tc) (h : b ∉ hostOps0_W) : V1 m ρ c b = m ((c : Thread nD τ).loc b) :=
  (StableHlo.after_of_writes_sub hostOps0 _ hostOps0_writes h).trans rfl

theorem V1_X : V1 m ρ c main_arg0 = argX m c := V1_keep m ρ c main_arg0 (by decide)
theorem V1_W : V1 m ρ c main_arg3 = argW m c := V1_keep m ρ c main_arg3 (by decide)
theorem V1_A : V1 m ρ c main_v19 = auxA m c := aux_val (W0 m ρ c)

/-! ## After the statistics region -/

/-- The two sums the statistics region leaves. -/
theorem W2_sum1 (u : Fin 64) :
    W2 m ρ c (Proc.devRef .tc main_v20_0) (ix1 u) = Cert.Spec.sum1 (K := 20000) (argX m c) (auxA m c) (argW m c) u :=
  (congrFun (W2_arr m ρ c 3) (ix1 u)).trans
    (stats_arr3 (V1 m ρ) c (argX m c) (auxA m c) (argW m c) (V1_X m ρ c) (V1_A m ρ c) (V1_W m ρ c) u)
theorem W2_sum2 (u : Fin 64) :
    W2 m ρ c (Proc.devRef .tc main_v20_1) (ix1 u) = Cert.Spec.sum2 (K := 20000) (argX m c) (auxA m c) (argW m c) u :=
  (congrFun (W2_arr m ρ c 4) (ix1 u)).trans
    (stats_arr4 (V1 m ρ) c (argX m c) (auxA m c) (argW m c) (V1_X m ρ c) (V1_A m ρ c) (V1_W m ρ c) u)

/-- The region's input arrays are as it found them. -/
theorem W2_X : W2 m ρ c (Proc.devRef .tc main_arg0) = argX m c :=
  (W2_arr m ρ c 0).trans (((dat0 (V1 m ρ) c).arrAt_in 0 rfl _).trans ((A_eq0 (V1 m ρ) c 0).trans (V1_X m ρ c)))
theorem W2_A : W2 m ρ c (Proc.devRef .tc main_v19) = auxA m c :=
  (W2_arr m ρ c 1).trans (((dat0 (V1 m ρ) c).arrAt_in 1 rfl _).trans ((A_eq0 (V1 m ρ) c 1).trans (V1_A m ρ c)))
theorem W2_W : W2 m ρ c (Proc.devRef .tc main_arg3) = argW m c :=
  (W2_arr m ρ c 2).trans (((dat0 (V1 m ρ) c).arrAt_in 2 rfl _).trans ((A_eq0 (V1 m ρ) c 2).trans (V1_W m ρ c)))
/-- Gamma and beta are no array of the region and no host operation has written them. -/
theorem W2_G : W2 m ρ c (Proc.devRef .tc main_arg4) = argG m c :=
  (W2_of_ne m ρ c main_arg4 (by decide)).trans (V1_keep m ρ c main_arg4 (by decide))
theorem W2_B : W2 m ρ c (Proc.devRef .tc main_arg5) = argB m c :=
  (W2_of_ne m ρ c main_arg5 (by decide)).trans (V1_keep m ρ c main_arg5 (by decide))

/-! ## Before the second region -/

/-- A buffer the second host stretch does not write is what the statistics region left. -/
theorem V3_keep (b : Ref sig .tc) (h : b ∉ hostOps1_W) : V3 m ρ c b = W2 m ρ c (Proc.devRef .tc b) :=
  StableHlo.after_of_writes_sub hostOps1 _ hostOps1_writes h

theorem V3_X : V3 m ρ c main_arg0 = argX m c := (V3_keep m ρ c main_arg0 (by decide)).trans (W2_X m ρ c)
theorem V3_A : V3 m ρ c main_v19 = auxA m c := (V3_keep m ρ c main_v19 (by decide)).trans (W2_A m ρ c)
theorem V3_W : V3 m ρ c main_arg3 = argW m c := (V3_keep m ρ c main_arg3 (by decide)).trans (W2_W m ρ c)

/-- The folded scale and shift vectors, from the two sums and gamma, beta. -/
theorem V3_scale (u : Fin 64) : V3 m ρ c main_v30 (ix1 u)
    = Cert.Spec.scaleK (Cert.Spec.sum1 (K := 20000) (argX m c) (auxA m c) (argW m c))
        (Cert.Spec.sum2 (K := 20000) (argX m c) (auxA m c) (argW m c)) (argG m c) u := by
  refine (scale_val (W2 m ρ c) u).trans ?_
  rw [show (fun v => W2 m ρ c (Proc.devRef .tc main_v20_0) (ix1 v)) = Cert.Spec.sum1 (K := 20000) (argX m c) (auxA m c) (argW m c)
        from funext (W2_sum1 m ρ c),
    show (fun v => W2 m ρ c (Proc.devRef .tc main_v20_1) (ix1 v)) = Cert.Spec.sum2 (K := 20000) (argX m c) (auxA m c) (argW m c)
        from funext (W2_sum2 m ρ c), W2_G m ρ c]
theorem V3_shift (u : Fin 64) : V3 m ρ c main_v32 (ix1 u)
    = Cert.Spec.shiftK (Cert.Spec.sum1 (K := 20000) (argX m c) (auxA m c) (argW m c))
        (Cert.Spec.sum2 (K := 20000) (argX m c) (auxA m c) (argW m c)) (argG m c) (argB m c) u := by
  refine (shift_val (W2 m ρ c) u).trans ?_
  rw [show (fun v => W2 m ρ c (Proc.devRef .tc main_v20_0) (ix1 v)) = Cert.Spec.sum1 (K := 20000) (argX m c) (auxA m c) (argW m c)
        from funext (W2_sum1 m ρ c),
    show (fun v => W2 m ρ c (Proc.devRef .tc main_v20_1) (ix1 v)) = Cert.Spec.sum2 (K := 20000) (argX m c) (auxA m c) (argW m c)
        from funext (W2_sum2 m ρ c), W2_G m ρ c, W2_B m ρ c]

/-! ## The result -/

/-- THE RESULT ARRAY after the run, at pillar `k` and channel `u`: the first spelling of the specification. -/
theorem result_apply (k : Fin 20000) (u : Fin 64) :
    W4 m ρ c (Proc.devRef .tc main_v33) (ix2 k u)
      = Cert.Spec.outK (K := 20000) (argX m c) (auxA m c) (argW m c) (argG m c) (argB m c) k u := by
  have h5 := main_arr5 (V3 m ρ) c (argX m c) (auxA m c) (argW m c) (V3 m ρ c main_v30) (V3 m ρ c main_v32)
    (V3_X m ρ c) (V3_A m ρ c) (V3_W m ρ c) rfl rfl
  refine (congrFun ((W4_arr m ρ c 5).trans h5) (ix2 k u)).trans ?_
  show Cert.Spec.poolK (K := 20000) (argX m c) (auxA m c) (argW m c) (V3 m ρ c main_v30) (V3 m ρ c main_v32) k u = _
  unfold Cert.Spec.poolK Cert.Spec.outK
  rw [V3_scale m ρ c u, V3_shift m ρ c u]

end Cert.KernelIdeal.Val

end
-- ==== Proof.RefLin.lean ====
/-
  The reference program's linear layer, read at an index, is the specification's `lin`.

  The reference builds, for every pillar `k`, point `p` and feature `c`, a nine-feature array: the four raw features,
  the first three minus their sum over the pillar's 100 points divided by the point count, the first two minus the
  pillar centre; it multiplies all nine by a mask it gets from an integer comparison of the point index with the
  count, and contracts the result with the 9 x 64 weight matrix. Read at one index, each of these is the
  corresponding term of the specification over the auxiliary array `auxOf` (count, centre x, centre y):

  * the integer mask is the specification's float mask, because a point index below 100 and a 32-bit count compare
    as signed words exactly as they do as real numbers, and the one-bit result converts to 1 or 0;
  * the count and the two centre coordinates are columns 0, 1 and 2 of `auxOf`, term for term;
  * the sum the mean is taken from starts from a zero literal, which adds nothing;
  * the concatenation along the feature axis picks the piece whose span holds `c`: the raw features below 4, the
    centred ones from 4 to 6, the two offsets at 7 and 8.
-/
import proofs.«117744_j60705067762261_1_alg».proof.Proof.Gen.ReferenceIdeal.Read
import proofs.«117744_j60705067762261_1_alg».proof.Proof.Spec
import Idealize.ShloMosaic.Lib.WordArith

noncomputable section

namespace Cert.ReferenceIdeal.RefValue

open Idealize.ShloMosaic Idealize.ShloMosaic.ValueIdx Cert.ReferenceIdeal Cert.ReferenceIdeal.Read

/-! ## Two indices with the same coordinates are equal -/

private theorem idx1_ext {n : Nat} (i j : (⟨1, ![n]⟩ : Shape).Idx) (h0 : (i 0).val = (j 0).val) : i = j :=
  funext fun a => Fin.ext (by match a with | ⟨0, _⟩ => exact h0)

private theorem idx2_ext {n0 n1 : Nat} (i j : (⟨2, ![n0, n1]⟩ : Shape).Idx) (h0 : (i 0).val = (j 0).val)
    (h1 : (i 1).val = (j 1).val) : i = j :=
  funext fun a => Fin.ext (by match a with | ⟨0, _⟩ => exact h0 | ⟨1, _⟩ => exact h1)

private theorem idx3_ext {n0 n1 n2 : Nat} (i j : (⟨3, ![n0, n1, n2]⟩ : Shape).Idx) (h0 : (i 0).val = (j 0).val)
    (h1 : (i 1).val = (j 1).val) (h2 : (i 2).val = (j 2).val) : i = j :=
  funext fun a => Fin.ext (by match a with | ⟨0, _⟩ => exact h0 | ⟨1, _⟩ => exact h1 | ⟨2, _⟩ => exact h2)

/-! ## The mask -/

/-- The integer test "point index `p` is signed-below the count `n`", converted to a float, is the float mask
    "`p` is below the count read as a real number": `p < 100` reads signed as itself, the signed order of two words
    is the order of the integers they denote, the integers embed in the reals in order, and the one-bit word of a
    comparison converts to 1 when it holds and to 0 when it does not. -/
theorem mask_eq (n : BitVec 32) (p : Fin 100) :
    FloatOps.uitofp (F := Ideal) .f32 (IntOp.cmpi .slt (BitVec.ofNat 32 p.val) n)
      = Cert.Spec.mask (((n.toInt : ℝ) : EReal)) p := by
  have hp : (BitVec.ofNat 32 p.val).toInt = (p.val : ℤ) :=
    WordArith.toInt_ofNat_small p.val (by have := p.isLt; omega)
  have hiff : (BitVec.ofNat 32 p.val).slt n = true ↔ ((p.val : ℝ) : EReal) < ((n.toInt : ℝ) : EReal) := by
    rw [BitVec.slt_iff_toInt_lt, hp, EReal.coe_lt_coe_iff, ← Int.cast_natCast (R := ℝ), Int.cast_lt]
  show (((BitVec.ofBool ((BitVec.ofNat 32 p.val).slt n)).toNat : ℝ) : EReal) = _
  unfold Cert.Spec.mask
  by_cases h : (BitVec.ofNat 32 p.val).slt n = true
  · rw [if_pos (hiff.1 h), h]; simp
  · rw [if_neg (fun h' => h (hiff.2 h')), Bool.eq_false_iff.2 h]; simp

/-! ## The auxiliary array's three columns, as the reference computes them -/

section Stages

variable (x0 : (⟨S20000x100x4, .f32⟩ : BufTy).Contents (Elt Ideal)) (x1 : (⟨S20000, .i32⟩ : BufTy).Contents (Elt Ideal))
  (x2 : (⟨S20000x4, .i32⟩ : BufTy).Contents (Elt Ideal))

/-- Column 0 of the auxiliary array is the count read as a signed integer. -/
theorem aux0 (k : Fin 20000) :
    Cert.Spec.auxOf x1 x2 (ix2 k (0 : Fin 8)) = (((x1 (ix1 k)).toInt : ℝ) : EReal) := rfl

/-- The count as a float, broadcast to 20000 x 1 x 1, is column 0. -/
theorem v1_ix (k : Fin 20000) :
    val_main_v1 (F := Ideal) x1 (ix3 k (0 : Fin 1) (0 : Fin 1)) = Cert.Spec.auxOf x1 x2 (ix2 k (0 : Fin 8)) := by
  have e : idx_main_v1 (ix3 k (0 : Fin 1) (0 : Fin 1)) = ix1 k := idx1_ext _ _ rfl
  rw [val_main_v1_apply, val_main_v0_apply, e]
  rfl

/-- The centre's first coordinate, coordinate column 3 times 0.2 plus 0.1, is column 1. -/
theorem v9_ix (k : Fin 20000) :
    val_main_v9 (F := Ideal) x2 (ix2 k (0 : Fin 1)) = Cert.Spec.auxOf x1 x2 (ix2 k (1 : Fin 8)) := by
  have e : idx_main_v2 (idx_main_v3 (idx_main_v5 (ix2 k (0 : Fin 1)))) = ix2 k (3 : Fin 4) :=
    idx2_ext _ _ (by show k.val / 1 = k.val; omega) rfl
  rw [val_main_v9_apply, val_main_v7_apply, val_main_v5_apply, val_main_v4_apply, val_main_v3_apply,
    val_main_v2_apply, e, val_main_v6_apply, val_main_cst_apply, val_main_v8_apply, val_main_cst_0_apply]
  rfl

/-- The centre's second coordinate, coordinate column 2 times 0.2 minus 39.9, is column 2. -/
theorem v17_ix (k : Fin 20000) :
    val_main_v17 (F := Ideal) x2 (ix2 k (0 : Fin 1)) = Cert.Spec.auxOf x1 x2 (ix2 k (2 : Fin 8)) := by
  have e : idx_main_v10 (idx_main_v11 (idx_main_v13 (ix2 k (0 : Fin 1)))) = ix2 k (2 : Fin 4) :=
    idx2_ext _ _ (by show k.val / 1 = k.val; omega) rfl
  rw [val_main_v17_apply, val_main_v15_apply, val_main_v13_apply, val_main_v12_apply, val_main_v11_apply,
    val_main_v10_apply, e, val_main_v14_apply, val_main_cst_1_apply, val_main_v16_apply, val_main_cst_2_apply]
  rfl

/-! ## The mask as the reference builds it -/

/-- The reference's mask at `(k, p, c)`: the point index `p` (an iota broadcast over the pillars) compared with
    pillar `k`'s count, converted to a float and broadcast over the nine features. -/
theorem v46_ix (k : Fin 20000) (p : Fin 100) (c : Fin 9) :
    val_main_v46 (F := Ideal) x1 (ix3 k p c)
      = Cert.Spec.mask (Cert.Spec.auxOf x1 x2 (ix2 k (0 : Fin 8))) p := by
  have e1 : idx_main_v20 (idx_main_v22 (idx_main_v25 (idx_main_v46 (ix3 k p c)))) = ix1 k := idx1_ext _ _ rfl
  have e2 : BitVec.ofNat 32 ((idx_main_v19 (idx_main_v21 (idx_main_v25 (idx_main_v46 (ix3 k p c))))) 0).val
      = BitVec.ofNat 32 p.val := rfl
  rw [val_main_v46_apply, val_main_v25_apply, val_main_v24_apply, val_main_v23_apply, val_main_v21_apply,
    val_main_v19_apply, val_main_v18_apply, val_main_v22_apply, val_main_v20_apply, e1, e2, aux0]
  exact mask_eq (x1 (ix1 k)) p

/-! ## The centred features -/

/-- Feature `c` of the first three, minus the sum of that feature over the pillar's points divided by the count. -/
theorem v33_ix (k : Fin 20000) (p : Fin 100) (c : Fin 3) :
    val_main_v33 (F := Ideal) x0 x1 (ix3 k p c)
      = x0 (ix3 k p ⟨c.val, by have := c.isLt; omega⟩)
        - Ideal.div (∑ q : Fin 100, x0 (ix3 k q ⟨c.val, by have := c.isLt; omega⟩))
            (Cert.Spec.auxOf x1 x2 (ix2 k (0 : Fin 8))) := by
  have e31 : idx_main_v31 (ix3 k p c) = ix3 k p ⟨c.val, by have := c.isLt; omega⟩ := idx3_ext _ _ rfl rfl rfl
  have e32 : idx_main_v32 (ix3 k p c) = ix3 k (0 : Fin 1) c := idx3_ext _ _ rfl rfl rfl
  have e29 : idx_main_v29 (ix3 k (0 : Fin 1) c) = ix3 k (0 : Fin 1) (0 : Fin 1) := idx3_ext _ _ rfl rfl rfl
  have e26 : ∀ q : Fin 100, idx_main_v26 (idx_main_v27 (idx_main_v28 (ix3 k (0 : Fin 1) c)) q)
      = ix3 k q ⟨c.val, by have := c.isLt; omega⟩ := fun q => idx3_ext _ _ rfl rfl rfl
  rw [val_main_v33_apply, val_main_v31_apply, e31, val_main_v32_apply, e32, val_main_v30_apply,
    val_main_v28_apply, val_main_v27_apply, val_main_cst_3_apply, val_main_v29_apply, e29, v1_ix x1 x2]
  simp only [val_main_v26_apply, e26]
  show _ - Ideal.div (Ideal.ofBits .f32 0x00000000#32 + _) _ = _
  rw [Ideal.ofBits_zero_f32, zero_add]

/-! ## The two offsets from the pillar centre -/

/-- Feature 0 minus the centre's first coordinate. -/
theorem v42_ix (k : Fin 20000) (p : Fin 100) :
    val_main_v42 (F := Ideal) x0 x2 (ix3 k p (0 : Fin 1))
      = x0 (ix3 k p (0 : Fin 4)) - Cert.Spec.auxOf x1 x2 (ix2 k (1 : Fin 8)) := by
  have e42 : idx_main_v42 (ix3 k p (0 : Fin 1)) = ix2 k p := idx2_ext _ _ rfl rfl
  have e34 : idx_main_v34 (idx_main_v35 (ix2 k p)) = ix3 k p (0 : Fin 4) :=
    idx3_ext _ _ (by have := p.isLt; show (k.val * 100 + p.val) / 100 = k.val; omega)
      (by have := p.isLt; show (k.val * 100 + p.val) / 1 % 100 = p.val; omega) rfl
  have e36 : idx_main_v36 (ix2 k p) = ix2 k (0 : Fin 1) := idx2_ext _ _ rfl rfl
  rw [val_main_v42_apply, e42, val_main_v37_apply, val_main_v35_apply, val_main_v34_apply, e34,
    val_main_v36_apply, e36, v9_ix x1 x2]
  rfl

/-- Feature 1 minus the centre's second coordinate. -/
theorem v43_ix (k : Fin 20000) (p : Fin 100) :
    val_main_v43 (F := Ideal) x0 x2 (ix3 k p (0 : Fin 1))
      = x0 (ix3 k p (1 : Fin 4)) - Cert.Spec.auxOf x1 x2 (ix2 k (2 : Fin 8)) := by
  have e43 : idx_main_v43 (ix3 k p (0 : Fin 1)) = ix2 k p := idx2_ext _ _ rfl rfl
  have e38 : idx_main_v38 (idx_main_v39 (ix2 k p)) = ix3 k p (1 : Fin 4) :=
    idx3_ext _ _ (by have := p.isLt; show (k.val * 100 + p.val) / 100 = k.val; omega)
      (by have := p.isLt; show (k.val * 100 + p.val) / 1 % 100 = p.val; omega) rfl
  have e40 : idx_main_v40 (ix2 k p) = ix2 k (0 : Fin 1) := idx2_ext _ _ rfl rfl
  rw [val_main_v43_apply, e43, val_main_v41_apply, val_main_v39_apply, val_main_v38_apply, e38,
    val_main_v40_apply, e40, v17_ix x1 x2]
  rfl

/-- The two offsets side by side: position 0 of the pair is the first, position 1 the second. -/
theorem v44_ix0 (k : Fin 20000) (p : Fin 100) :
    val_main_v44 (F := Ideal) x0 x2 (ix3 k p (0 : Fin 2))
      = x0 (ix3 k p (0 : Fin 4)) - Cert.Spec.auxOf x1 x2 (ix2 k (1 : Fin 8)) := by
  unfold val_main_v44
  refine (concatenate_pair_apply_left (t := S20000x100x2) (s₁ := S20000x100x1) (s₂ := S20000x100x1) 2
    (val_main_v42 (F := Ideal) x0 x2) (val_main_v43 (F := Ideal) x0 x2) _ (ix3 k p (0 : Fin 2)) rfl
    (ix3 k p (0 : Fin 1)) (fun b => by
      match b with
      | ⟨0, _⟩ => rfl
      | ⟨1, _⟩ => rfl
      | ⟨2, _⟩ => rfl)).trans ?_
  exact v42_ix x0 x1 x2 k p

theorem v44_ix1 (k : Fin 20000) (p : Fin 100) :
    val_main_v44 (F := Ideal) x0 x2 (ix3 k p (1 : Fin 2))
      = x0 (ix3 k p (1 : Fin 4)) - Cert.Spec.auxOf x1 x2 (ix2 k (2 : Fin 8)) := by
  unfold val_main_v44
  refine (concatenate_pair_apply_right (t := S20000x100x2) (s₁ := S20000x100x1) (s₂ := S20000x100x1) 2
    (val_main_v42 (F := Ideal) x0 x2) (val_main_v43 (F := Ideal) x0 x2) _ (ix3 k p (1 : Fin 2)) rfl rfl
    (ix3 k p (0 : Fin 1)) (fun b hb => by
      match b with
      | ⟨0, _⟩ => rfl
      | ⟨1, _⟩ => rfl
      | ⟨2, _⟩ => exact absurd rfl hb) rfl).trans ?_
  exact v43_ix x0 x1 x2 k p

/-! ## The nine features side by side -/

/-- Below 4 the joined array holds the raw features. -/
theorem v45_lo (k : Fin 20000) (p : Fin 100) (c : Fin 9) (h : c.val < 4) :
    val_main_v45 (F := Ideal) x0 x1 x2 (ix3 k p c) = x0 (ix3 k p ⟨c.val, h⟩) := by
  unfold val_main_v45
  exact concatenate_apply_piece 2 _ _ (ix3 k p c) 0 (by show 0 < 3; omega) S20000x100x4 x0 rfl rfl 0 rfl (ix3 k p ⟨c.val, h⟩)
    (fun b hb => by
      match b with
      | ⟨0, _⟩ => rfl
      | ⟨1, _⟩ => rfl
      | ⟨2, _⟩ => exact absurd rfl hb)
    (by show 0 + c.val = c.val; omega)

/-- From 4 to 6 it holds the centred features, the position 4 less. -/
theorem v45_mid (k : Fin 20000) (p : Fin 100) (c : Fin 9) (h4 : 4 ≤ c.val) (h7 : c.val < 7) :
    val_main_v45 (F := Ideal) x0 x1 x2 (ix3 k p c)
      = val_main_v33 (F := Ideal) x0 x1 (ix3 k p ⟨c.val - 4, by omega⟩) := by
  unfold val_main_v45
  exact concatenate_apply_piece 2 _ _ (ix3 k p c) 1 (by show 1 < 3; omega) S20000x100x3 (val_main_v33 (F := Ideal) x0 x1) rfl rfl 4 rfl
    (ix3 k p ⟨c.val - 4, by omega⟩)
    (fun b hb => by
      match b with
      | ⟨0, _⟩ => rfl
      | ⟨1, _⟩ => rfl
      | ⟨2, _⟩ => exact absurd rfl hb)
    (by show 4 + (c.val - 4) = c.val; omega)

/-- At 7 and 8 it holds the two offsets, the position 7 less. -/
theorem v45_hi (k : Fin 20000) (p : Fin 100) (c : Fin 9) (h7 : 7 ≤ c.val) :
    val_main_v45 (F := Ideal) x0 x1 x2 (ix3 k p c)
      = val_main_v44 (F := Ideal) x0 x2 (ix3 k p ⟨c.val - 7, by have := c.isLt; omega⟩) := by
  unfold val_main_v45
  exact concatenate_apply_piece 2 _ _ (ix3 k p c) 2 (by show 2 < 3; omega) S20000x100x2 (val_main_v44 (F := Ideal) x0 x2) rfl rfl 7 rfl
    (ix3 k p ⟨c.val - 7, by have := c.isLt; omega⟩)
    (fun b hb => by
      match b with
      | ⟨0, _⟩ => rfl
      | ⟨1, _⟩ => rfl
      | ⟨2, _⟩ => exact absurd rfl hb)
    (by show 7 + (c.val - 7) = c.val; omega)

/-- The masked nine-feature array at `(k, p, c)` is the specification's feature `c` of point `p` of pillar `k`. -/
theorem v47_apply (k : Fin 20000) (p : Fin 100) (c : Fin 9) :
    val_main_v47 (F := Ideal) x0 x1 x2 (ix3 k p c) = Cert.Spec.feat (K := 20000) x0 (Cert.Spec.auxOf x1 x2) k p c := by
  rw [val_main_v47_apply, v46_ix x1 x2]
  unfold Cert.Spec.feat
  refine congrArg (· * Cert.Spec.mask (Cert.Spec.auxOf x1 x2 (ix2 k (0 : Fin 8))) p) ?_
  by_cases h4 : c.val < 4
  · rw [dif_pos h4, v45_lo x0 x1 x2 k p c h4]
  · rw [dif_neg h4]
    by_cases h7 : c.val < 7
    · rw [dif_pos h7, v45_mid x0 x1 x2 k p c (by omega) h7, v33_ix x0 x1 x2]
    · rw [dif_neg h7, v45_hi x0 x1 x2 k p c (by omega)]
      by_cases h : c.val = 7
      · have e : (⟨c.val - 7, by have := c.isLt; omega⟩ : Fin 2) = 0 := Fin.ext (by show c.val - 7 = 0; omega)
        rw [if_pos h, e, v44_ix0 x0 x1 x2]
      · have e : (⟨c.val - 7, by have := c.isLt; omega⟩ : Fin 2) = 1 :=
          Fin.ext (by have := c.isLt; show c.val - 7 = 1; omega)
        rw [if_neg h, e, v44_ix1 x0 x1 x2]

end Stages

/-! ## The linear layer -/

/-- The reference's linear layer at `(k, p, u)`: the contraction over the nine features of the masked feature array
    with column `u` of the weights, which is the specification's `lin`. -/
theorem v48_apply (x0 : (⟨S20000x100x4, .f32⟩ : BufTy).Contents (Elt Ideal)) (x1 : (⟨S20000, .i32⟩ : BufTy).Contents (Elt Ideal)) (x2 : (⟨S20000x4, .i32⟩ : BufTy).Contents (Elt Ideal)) (x3 : (⟨S9x64, .f32⟩ : BufTy).Contents (Elt Ideal)) (k : Fin 20000) (p : Fin 100) (u : Fin 64) :
    val_main_v48 (F := Ideal) x0 x1 x2 x3 (ix3 k p u) = Cert.Spec.lin (K := 20000) x0 (Cert.Spec.auxOf x1 x2) x3 k p u := by
  rw [val_main_v48_apply]
  unfold Cert.Spec.lin
  refine Finset.sum_congr rfl fun c _ => ?_
  have el : lidx_main_v48 (ix3 k p u) c = ix3 k p c := idx3_ext _ _ rfl rfl rfl
  have er : ridx_main_v48 (ix3 k p u) c = ix2 c u := idx2_ext _ _ rfl rfl
  rw [el, er, v47_apply x0 x1 x2]

end Cert.ReferenceIdeal.RefValue

end
-- ==== Proof.RefTail.lean ====
/-
  The tail of the reference program, read at an index: from the linear layer's output (pillars x points x channels)
  to the result (pillars x channels).

  Per channel u the program sums the linear layer's output over all pillars and points from a zero literal and divides
  by the point count: the mean. It subtracts the mean, squares, sums again from a zero literal and divides by the
  count: the variance as the mean of squared deviations. Then every element is centred, multiplied by
  rsqrt (variance + eps), by gamma, shifted by beta, rectified (maximum with a zero literal), and each pillar's result is
  the maximum over its 100 points, folded from minus infinity.

  Three kinds of step occur. A sum over the two leading axes of a rank-3 array, at channel u, is the initial value plus
  the double sum over pillar and point: the source indices whose last coordinate is u are exactly the triples
  (k, p, u), so the sum over that set re-indexes through the pairs (k, p). The elementwise operations and broadcasts
  read one element of each operand, the broadcasts of a per-channel vector at the channel coordinate. The maximum over
  the point axis is a fold of max, a commutative and associative operation, over the 100 coordinates of that axis.
-/
import proofs.«117744_j60705067762261_1_alg».proof.Proof.Gen.ReferenceIdeal.Read
import proofs.«117744_j60705067762261_1_alg».proof.Proof.Spec
import Idealize.ShloMosaic.Lib.IdealHost

noncomputable section

namespace Cert.ReferenceIdeal.RefValue

open Idealize.ShloMosaic Idealize.ShloMosaic.ValueIdx Cert.ReferenceIdeal Cert.ReferenceIdeal.Read

/-! ## A sum over the two leading axes -/

/-- Dropping the two leading axes of a rank-3 index leaves its last coordinate: an index drops to channel `u` exactly
    when its last coordinate is `u`. -/
theorem drop01_eq_iff {A B C : Nat} (h' : (⟨3, ![A, B, C]⟩ : Shape).ReducesTo [0, 1] ⟨1, ![C]⟩)
    (i : (⟨3, ![A, B, C]⟩ : Shape).Idx) (u : Fin C) : h'.drop i = ix1 u ↔ i 2 = u := by
  have hv : (h'.drop i 0 : Nat) = i 2 :=
    Shape.ReducesTo.drop_apply_val_of_eq h' i 0 2 (hb := Nat.zero_lt_one) (hc := rfl)
  constructor
  · intro e
    exact Fin.ext (hv.symm.trans (congrArg (fun j : (⟨1, ![C]⟩ : Shape).Idx => (j 0).val) e))
  · intro e
    funext d
    match d with
    | ⟨0, _⟩ => exact Fin.ext (hv.trans (congrArg Fin.val e))

/-- The host's sum over pillars and points at channel `u`: the initial value plus the double sum. The indices with
    last coordinate `u` correspond one to one to the pairs (pillar, point), by `i ↦ (i 0, i 1)` one way and
    `(k, p) ↦ (k, p, u)` back. -/
theorem hostReduceAdd_d01 {A B C : Nat} (h' : (⟨3, ![A, B, C]⟩ : Shape).ReducesTo [0, 1] ⟨1, ![C]⟩)
    (x : (⟨3, ![A, B, C]⟩ : Shape).Idx → EReal) (init : EReal) (u : Fin C) :
    Ideal.hostReduceAdd h' x init (ix1 u) = init + ∑ k : Fin A, ∑ p : Fin B, x (ix3 k p u) := by
  unfold Ideal.hostReduceAdd
  refine congrArg (fun s => init + s) ?_
  rw [← Fintype.sum_prod_type']
  refine Finset.sum_nbij' (fun i => ((i 0, i 1) : Fin A × Fin B)) (fun kp => ix3 kp.1 kp.2 u) ?_ ?_ ?_ ?_ ?_
  · intro i _; exact Finset.mem_univ _
  · intro kp _; exact Finset.mem_filter.2 ⟨Finset.mem_univ _, (drop01_eq_iff h' _ u).2 rfl⟩
  · intro i hi
    have e : i 2 = u := (drop01_eq_iff h' i u).1 (Finset.mem_filter.1 hi).2
    subst e; exact (eq_ix3 i).symm
  · intro kp _; rfl
  · intro i hi
    have e : i 2 = u := (drop01_eq_iff h' i u).1 (Finset.mem_filter.1 hi).2
    subst e; exact congrArg x (eq_ix3 i)

/-! ## The statistics per channel -/

section
variable (x0 : (⟨S20000x100x4, .f32⟩ : BufTy).Contents (Elt Ideal)) (x1 : (⟨S20000, .i32⟩ : BufTy).Contents (Elt Ideal))
  (x2 : (⟨S20000x4, .i32⟩ : BufTy).Contents (Elt Ideal)) (x3 : (⟨S9x64, .f32⟩ : BufTy).Contents (Elt Ideal))
  (x4 x5 : (⟨S64, .f32⟩ : BufTy).Contents (Elt Ideal))
  (hL : ∀ (k : Fin 20000) (p : Fin 100) (u : Fin 64), val_main_v48 (F := Ideal) x0 x1 x2 x3 (ix3 k p u)
    = Cert.Spec.lin (K := 20000) x0 (Cert.Spec.auxOf x1 x2) x3 k p u)
include hL

/-- The first sum: from the zero literal, the linear layer's output summed over pillars and points. -/
theorem v49_apply (u : Fin 64) :
    val_main_v49 (F := Ideal) x0 x1 x2 x3 (ix1 u)
      = Cert.Spec.zeroLit + Cert.Spec.sum1 (K := 20000) x0 (Cert.Spec.auxOf x1 x2) x3 u := by
  unfold val_main_v49
  refine (hostReduceAdd_apply _ _ _ _ (ix1 u)).trans ?_
  refine (hostReduceAdd_d01 _ _ _ u).trans ?_
  refine congrArg (fun s => Cert.Spec.zeroLit + s) ?_
  exact Finset.sum_congr rfl fun k _ => Finset.sum_congr rfl fun p _ => hL k p u

/-- Divided by the count: the mean. -/
theorem v51_apply (u : Fin 64) :
    val_main_v51 (F := Ideal) x0 x1 x2 x3 (ix1 u) = Cert.Spec.meanR (K := 20000) x0 (Cert.Spec.auxOf x1 x2) x3 u := by
  rw [val_main_v51_apply, v49_apply x0 x1 x2 x3 hL u, val_main_v50_apply, val_main_cst_5_apply]
  rfl

/-- The centred value, as the variance's sum takes it. -/
theorem v54_apply (k : Fin 20000) (p : Fin 100) (u : Fin 64) :
    val_main_v54 (F := Ideal) x0 x1 x2 x3 (ix3 k p u)
      = Cert.Spec.lin (K := 20000) x0 (Cert.Spec.auxOf x1 x2) x3 k p u
        - Cert.Spec.meanR (K := 20000) x0 (Cert.Spec.auxOf x1 x2) x3 u := by
  have e : idx_main_v52 (idx_main_v53 (ix3 k p u)) = ix1 u := by funext a; match a with | ⟨0, _⟩ => rfl
  rw [val_main_v54_apply, val_main_v53_apply, val_main_v52_apply, e, v51_apply x0 x1 x2 x3 hL u, hL]
  rfl

/-- The second sum divided by the count: the variance. -/
theorem v58_apply (u : Fin 64) :
    val_main_v58 (F := Ideal) x0 x1 x2 x3 (ix1 u) = Cert.Spec.varR (K := 20000) x0 (Cert.Spec.auxOf x1 x2) x3 u := by
  have s : val_main_v56 (F := Ideal) x0 x1 x2 x3 (ix1 u)
      = Cert.Spec.zeroLit + ∑ k : Fin 20000, ∑ p : Fin 100,
          (Cert.Spec.lin (K := 20000) x0 (Cert.Spec.auxOf x1 x2) x3 k p u - Cert.Spec.meanR (K := 20000) x0 (Cert.Spec.auxOf x1 x2) x3 u)
          * (Cert.Spec.lin (K := 20000) x0 (Cert.Spec.auxOf x1 x2) x3 k p u - Cert.Spec.meanR (K := 20000) x0 (Cert.Spec.auxOf x1 x2) x3 u) := by
    unfold val_main_v56
    refine (hostReduceAdd_apply _ _ _ _ (ix1 u)).trans ?_
    refine (hostReduceAdd_d01 _ _ _ u).trans ?_
    refine congrArg (fun s => Cert.Spec.zeroLit + s) ?_
    refine Finset.sum_congr rfl fun k _ => Finset.sum_congr rfl fun p _ => ?_
    rw [val_main_v55_apply, v54_apply x0 x1 x2 x3 hL k p u]
    rfl
  rw [val_main_v58_apply, s, val_main_v57_apply, val_main_cst_7_apply]
  rfl

/-- The normalisation factor of channel `u`, broadcast to every pillar and point. -/
theorem v66_apply (k : Fin 20000) (p : Fin 100) (u : Fin 64) :
    val_main_v66 (F := Ideal) x0 x1 x2 x3 (ix3 k p u)
      = Ideal.rsqrt (Cert.Spec.varR (K := 20000) x0 (Cert.Spec.auxOf x1 x2) x3 u + Cert.Spec.eps) := by
  have e : idx_main_v65 (idx_main_v66 (ix3 k p u)) = ix1 u := by funext a; match a with | ⟨0, _⟩ => rfl
  rw [val_main_v66_apply, val_main_v65_apply, e, val_main_v64_apply, val_main_v63_apply,
    v58_apply x0 x1 x2 x3 hL u, val_main_v62_apply, val_main_cst_8_apply]
  rfl

/-- The centred value again, as the normalisation takes it. -/
theorem v61_apply (k : Fin 20000) (p : Fin 100) (u : Fin 64) :
    val_main_v61 (F := Ideal) x0 x1 x2 x3 (ix3 k p u)
      = Cert.Spec.lin (K := 20000) x0 (Cert.Spec.auxOf x1 x2) x3 k p u
        - Cert.Spec.meanR (K := 20000) x0 (Cert.Spec.auxOf x1 x2) x3 u := by
  have e : idx_main_v59 (idx_main_v60 (ix3 k p u)) = ix1 u := by funext a; match a with | ⟨0, _⟩ => rfl
  rw [val_main_v61_apply, val_main_v60_apply, val_main_v59_apply, e, v51_apply x0 x1 x2 x3 hL u, hL]
  rfl

/-- The rectified, normalised element. -/
theorem v74_apply (k : Fin 20000) (p : Fin 100) (u : Fin 64) :
    val_main_v74 (F := Ideal) x0 x1 x2 x3 x4 x5 (ix3 k p u)
      = max ((Cert.Spec.lin (K := 20000) x0 (Cert.Spec.auxOf x1 x2) x3 k p u
              - Cert.Spec.meanR (K := 20000) x0 (Cert.Spec.auxOf x1 x2) x3 u)
            * Ideal.rsqrt (Cert.Spec.varR (K := 20000) x0 (Cert.Spec.auxOf x1 x2) x3 u + Cert.Spec.eps) * x4 (ix1 u)
            + x5 (ix1 u)) Cert.Spec.zeroLit := by
  have e4 : idx_main_v68 (idx_main_v69 (ix3 k p u)) = ix1 u := by funext a; match a with | ⟨0, _⟩ => rfl
  have e5 : idx_main_v71 (idx_main_v72 (ix3 k p u)) = ix1 u := by funext a; match a with | ⟨0, _⟩ => rfl
  rw [val_main_v74_apply, val_main_v73_apply, val_main_v70_apply, val_main_v67_apply,
    v61_apply x0 x1 x2 x3 hL k p u, v66_apply x0 x1 x2 x3 hL k p u,
    val_main_v69_apply, val_main_v68_apply, e4, val_main_v72_apply, val_main_v71_apply, e5,
    val_main_call0_v0_apply, val_main_call0_cst_apply]
  rfl

end

/-! ## The maximum over a pillar's points -/

/-- The result at (pillar, channel): the fold of `max` from minus infinity over the pillar's 100 points of the rectified
    normalised elements, which is the specification's second spelling. -/
theorem v75_apply (x0 : (⟨S20000x100x4, .f32⟩ : BufTy).Contents (Elt Ideal)) (x1 : (⟨S20000, .i32⟩ : BufTy).Contents (Elt Ideal))
    (x2 : (⟨S20000x4, .i32⟩ : BufTy).Contents (Elt Ideal)) (x3 : (⟨S9x64, .f32⟩ : BufTy).Contents (Elt Ideal))
    (x4 x5 : (⟨S64, .f32⟩ : BufTy).Contents (Elt Ideal))
    (hL : ∀ (k : Fin 20000) (p : Fin 100) (u : Fin 64), val_main_v48 (F := Ideal) x0 x1 x2 x3 (ix3 k p u)
      = Cert.Spec.lin (K := 20000) x0 (Cert.Spec.auxOf x1 x2) x3 k p u)
    (k : Fin 20000) (u : Fin 64) :
    val_main_v75 (F := Ideal) x0 x1 x2 x3 x4 x5 (ix2 k u)
      = Cert.Spec.outR (K := 20000) x0 (Cert.Spec.auxOf x1 x2) x3 x4 x5 k u := by
  have h : S20000x100x64.Reduces [1] S20000x64 := by decide
  unfold val_main_v75
  refine (Host.reduce_eq_fold_single FloatOps.maximumf _ _ _ h _ (ix2 k u)).trans ?_
  unfold Cert.Spec.outR
  refine congrArg (fun f => (Finset.univ : Finset (Fin 100)).fold max Cert.Spec.negInf f) ?_
  funext p
  have e : h.lift (ix2 k u) p = ix3 k p u := by
    funext a; match a with | ⟨0, _⟩ => rfl | ⟨1, _⟩ => rfl | ⟨2, _⟩ => rfl
  show val_main_v74 (F := Ideal) x0 x1 x2 x3 x4 x5 (h.lift (ix2 k u) p) = _
  rw [e]
  exact v74_apply x0 x1 x2 x3 x4 x5 hL k p u

end Cert.ReferenceIdeal.RefValue

end
-- ==== Proof.RefVal.lean ====
/-
  The reference program's result is the second spelling of the specification: centre by the mean over all pillars
  and points, scale by rsqrt (variance + eps), then gamma and beta, rectify, and take the maximum over each
  pillar's points — over the auxiliary array built from the integer inputs.
-/
import proofs.«117744_j60705067762261_1_alg».proof.Proof.Gen.ReferenceIdeal.Run
import proofs.«117744_j60705067762261_1_alg».proof.Proof.Gen.ReferenceIdeal.Read
import proofs.«117744_j60705067762261_1_alg».proof.Proof.RefLin
import proofs.«117744_j60705067762261_1_alg».proof.Proof.RefTail

noncomputable section

namespace Cert.ReferenceIdeal.RefValue

open Idealize.ShloMosaic Idealize.ShloMosaic.TcCoe Idealize.ShloMosaic.ValueIdx Idealize.SL.Sem
open Cert.ReferenceIdeal Cert.ReferenceIdeal.Read

/-- The reference run's result term, read at pillar `k` and channel `u`. -/
theorem result_apply (m : (ℓ : Loc nD τ sig) → Buf (Elt Ideal) ℓ) (c : Dev nD) (k : Fin 20000) (u : Fin 64) :
    Cert.ReferenceIdeal.Value.res_main_v75 (F := Ideal) m c (ix2 k u)
      = Cert.Spec.outR (K := 20000) (m ((c.tc : Thread nD τ).loc main_arg0))
          (Cert.Spec.auxOf (m ((c.tc : Thread nD τ).loc main_arg1)) (m ((c.tc : Thread nD τ).loc main_arg2)))
          (m ((c.tc : Thread nD τ).loc main_arg3)) (m ((c.tc : Thread nD τ).loc main_arg4))
          (m ((c.tc : Thread nD τ).loc main_arg5)) k u := by
  rw [val_main_v75_eq]
  exact v75_apply _ _ _ _ _ _ (fun k p u => v48_apply _ _ _ _ k p u) k u

end Cert.ReferenceIdeal.RefValue

end
-- ==== Proof.Algebra.lean ====
/-
  The algebra of the normalisation: over finite reals the two spellings of batch normalisation agree.

  Everything here lives on the extended reals. A value is "finite" when it is the image of a real number. Finite
  values are closed under sum, difference, product, finite sums and division by a nonzero real, so the linear
  layer's output is finite whenever the inputs are. On finite values the statistics reduce to real arithmetic:
  with N terms, mean m = S1 / N, the mean of the squared deviations equals S2 / N - m^2, it is nonnegative, so
  adding a positive epsilon stays inside the domain where the reciprocal square root is an ordinary real, and then
  x * (gamma * r) + (beta - m * (gamma * r)) = (x - m) * r * gamma + beta point by point.
-/
import proofs.«117744_j60705067762261_1_alg».proof.Proof.Spec
import Idealize.ShloMosaic.PureOps.Ideal
import Mathlib.Data.EReal.Basic
import Mathlib.Data.EReal.Operations
import Mathlib.Data.EReal.Inv
import Mathlib.Algebra.BigOperators.Ring.Finset
import Mathlib.Algebra.Order.BigOperators.Ring.Finset
import Mathlib.Analysis.SpecialFunctions.Sqrt
import Mathlib.Tactic.FieldSimp
import Mathlib.Tactic.Ring
import Mathlib.Tactic.Positivity

noncomputable section

namespace Cert.Spec

open Idealize.ShloMosaic Idealize.ShloMosaic.ValueIdx

/-! ### The float literals -/

/-- The count literal: sign 0, exponent field 147, fraction 7611392, that is
    (2^23 + 7611392) * 2^(147 - 127 - 23) = 16000000 / 8 = 2000000. -/
theorem cnt_eq : cnt = ((2000000 : ℝ) : EReal) := by
  simp [Ideal.ofBits, Ideal.ieee, -EReal.coe_mul]; norm_num

/-- The all-zero pattern denotes 0. -/
theorem zeroLit_eq : zeroLit = 0 := Ideal.ofBits_zero_f32

/-- Sign 1, exponent field all ones, fraction 0: minus infinity. -/
theorem negInf_eq : negInf = ⊥ := by
  simp [Ideal.ofBits, Ideal.ieee]

/-- A single-precision pattern whose exponent field is not all ones denotes a real number: it is a signed
    integer times a power of two, in the subnormal and in the normal case alike. -/
theorem ofBits_f32_finite (b : BitVec 32) (h : (b.extractLsb' 23 8).toNat ≠ 2 ^ 8 - 1) :
    ∃ r : ℝ, Ideal.ofBits .f32 b = (r : EReal) := by
  show ∃ r : ℝ, Ideal.ieee 8 23 b = (r : EReal)
  unfold Ideal.ieee
  simp only []
  rw [if_neg h]
  split_ifs <;> exact ⟨_, rfl⟩

/-- Epsilon: sign 0, exponent field 117, fraction 201327, that is (2^23 + 201327) * 2^(117 - 127 - 23)
    = 8589935 * 2^(-33), a positive real. -/
theorem eps_pos : ∃ e : ℝ, 0 < e ∧ eps = (e : EReal) := by
  refine ⟨8589935 * (2 : ℝ) ^ (-33 : Int), by positivity, ?_⟩
  simp [Ideal.ofBits, Ideal.ieee, -EReal.coe_mul]

/-! ### Finite values are closed under the arithmetic used -/

theorem fin_add {a b : EReal} (ha : ∃ r : ℝ, a = (r : EReal)) (hb : ∃ r : ℝ, b = (r : EReal)) :
    ∃ r : ℝ, a + b = (r : EReal) := by
  obtain ⟨r, rfl⟩ := ha; obtain ⟨s, rfl⟩ := hb; exact ⟨r + s, (EReal.coe_add r s).symm⟩

theorem fin_sub {a b : EReal} (ha : ∃ r : ℝ, a = (r : EReal)) (hb : ∃ r : ℝ, b = (r : EReal)) :
    ∃ r : ℝ, a - b = (r : EReal) := by
  obtain ⟨r, rfl⟩ := ha; obtain ⟨s, rfl⟩ := hb; exact ⟨r - s, (EReal.coe_sub r s).symm⟩

theorem fin_mul {a b : EReal} (ha : ∃ r : ℝ, a = (r : EReal)) (hb : ∃ r : ℝ, b = (r : EReal)) :
    ∃ r : ℝ, a * b = (r : EReal) := by
  obtain ⟨r, rfl⟩ := ha; obtain ⟨s, rfl⟩ := hb; exact ⟨r * s, (EReal.coe_mul r s).symm⟩

/-- The coercion from the reals commutes with finite sums (induction on the index set, one `coe_add` a step). -/
theorem coe_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem fin_sum {ι : Type*} (s : Finset ι) {f : ι → EReal} (hf : ∀ i, ∃ r : ℝ, f i = (r : EReal)) :
    ∃ r : ℝ, ∑ i ∈ s, f i = (r : EReal) := by
  choose F hF using hf
  exact ⟨∑ i ∈ s, F i, by simp only [hF, coe_sum]⟩

/-- Division by a nonzero real is multiplication by its reciprocal, hence finite on finite values. -/
theorem fin_div {a : EReal} (ha : ∃ r : ℝ, a = (r : EReal)) {y : ℝ} (hy : y ≠ 0) :
    ∃ r : ℝ, Ideal.div a (y : EReal) = (r : EReal) := by
  rw [Ideal.div_coe hy]; exact fin_mul ha ⟨_, rfl⟩

/-- The auxiliary array is finite: an integer, or an integer times a finite literal plus a finite literal, or 0. -/
theorem auxOf_finite {K : Nat} (nv : (⟨1, ![K]⟩ : Shape).Idx → BitVec 32) (co : (⟨2, ![K, 4]⟩ : Shape).Idx → BitVec 32)
    (i) : ∃ r : ℝ, auxOf nv co i = (r : EReal) := by
  unfold auxOf
  split_ifs
  · exact ⟨_, rfl⟩
  · exact fin_add (fin_mul ⟨_, rfl⟩ (ofBits_f32_finite _ (by decide))) (ofBits_f32_finite _ (by decide))
  · exact fin_add (fin_mul ⟨_, rfl⟩ (ofBits_f32_finite _ (by decide))) (ofBits_f32_finite _ (by decide))
  · exact ⟨0, zeroLit_eq⟩

/-! ### The linear layer's output is finite -/

/-- The mask at a real count is the real 0 or 1. -/
theorem mask_coe (a : ℝ) (p : Fin 100) :
    mask (a : EReal) p = (((if (p.val : ℝ) < a then 1 else 0 : ℝ)) : EReal) := by
  unfold mask
  by_cases h : (p.val : ℝ) < a
  · rw [if_pos (EReal.coe_lt_coe_iff.2 h), if_pos h, EReal.coe_one]
  · rw [if_neg (fun h' => h (EReal.coe_lt_coe_iff.1 h')), if_neg h, EReal.coe_zero]

/-- With count 0 no point is selected: no natural number lies below 0. -/
theorem mask_zero (p : Fin 100) : mask ((0 : ℝ) : EReal) p = 0 := by
  rw [mask_coe, if_neg (not_lt.2 (Nat.cast_nonneg _)), EReal.coe_zero]

/-- Each masked feature is finite. When the count is 0 the mean's quotient is infinite or junk, but the mask is 0
    and the product with 0 is 0; when the count is a nonzero real the quotient is a real. -/
theorem feat_finite {K : Nat} (x : (⟨3, ![K, 100, 4]⟩ : Shape).Idx → EReal) (aux : (⟨2, ![K, 8]⟩ : Shape).Idx → EReal)
    (hx : ∀ i, ∃ r : ℝ, x i = (r : EReal)) (ha : ∀ i, ∃ r : ℝ, aux i = (r : EReal))
    (k : Fin K) (p : Fin 100) (c : Fin 9) : ∃ r : ℝ, feat x aux k p c = (r : EReal) := by
  obtain ⟨a, ha0⟩ := ha (ix2 k (0 : Fin 8))
  unfold feat
  rw [ha0]
  by_cases h0 : a = 0
  · subst h0
    rw [mask_zero, mul_zero]
    exact ⟨0, rfl⟩
  · refine fin_mul ?_ ⟨_, mask_coe a p⟩
    split_ifs
    · exact hx _
    · exact fin_sub (hx _) (fin_div (fin_sum _ fun q => hx _) h0)
    · exact fin_sub (hx _) (ha _)
    · exact fin_sub (hx _) (ha _)

theorem lin_finite {K : Nat} (x : (⟨3, ![K, 100, 4]⟩ : Shape).Idx → EReal) (aux : (⟨2, ![K, 8]⟩ : Shape).Idx → EReal)
    (w : (⟨2, ![9, 64]⟩ : Shape).Idx → EReal)
    (hx : ∀ i, ∃ r : ℝ, x i = (r : EReal)) (ha : ∀ i, ∃ r : ℝ, aux i = (r : EReal))
    (hw : ∀ i, ∃ r : ℝ, w i = (r : EReal)) (k : Fin K) (p : Fin 100) (u : Fin 64) :
    ∃ r : ℝ, lin x aux w k p u = (r : EReal) := by
  unfold lin
  exact fin_sum _ fun c => fin_mul (feat_finite x aux hx ha k p c) (hw _)

/-! ### The variance identity over the reals -/

/-- For N real numbers with mean m = (∑ f) / N, the mean of the squared deviations is the mean of the squares
    minus the square of the mean: expand (f - m)^2 = f^2 - 2 m f + m^2, sum, and use ∑ f = N m. -/
theorem real_var_identity {ι : Type*} (s : Finset ι) (f : ι → ℝ) (N : ℝ) (hN : (s.card : ℝ) = N) (h0 : N ≠ 0) :
    (∑ i ∈ s, (f i - (∑ j ∈ s, f j) / N) * (f i - (∑ j ∈ s, f j) / N)) / N
      = (∑ i ∈ s, f i * f i) / N - (∑ j ∈ s, f j) / N * ((∑ j ∈ s, f j) / N) := by
  obtain ⟨m, hm⟩ : ∃ m : ℝ, m = (∑ j ∈ s, f j) / N := ⟨_, rfl⟩
  rw [← hm]
  have h2 : ∑ j ∈ s, f j = N * m := by rw [hm]; field_simp
  have h1 : ∑ i ∈ s, (f i - m) * (f i - m) = ∑ i ∈ s, f i * f i - 2 * m * (N * m) + N * (m * m) := by
    have e : ∀ i, (f i - m) * (f i - m) = f i * f i - 2 * m * f i + m * m := fun i => by ring
    simp only [e, Finset.sum_add_distrib, Finset.sum_sub_distrib, ← Finset.mul_sum, Finset.sum_const,
      nsmul_eq_mul, hN, h2]
    ring
  rw [h1]
  field_simp
  ring

/-- The mean of squared deviations is nonnegative. -/
theorem real_var_nonneg {ι : Type*} (s : Finset ι) (f : ι → ℝ) (m N : ℝ) (h0 : 0 < N) :
    0 ≤ (∑ i ∈ s, (f i - m) * (f i - m)) / N :=
  div_nonneg (Finset.sum_nonneg fun i _ => mul_self_nonneg _) h0.le

/-! ### The two spellings on finite values -/

/-- Dividing a real by the count literal. -/
theorem div_cnt (s : ℝ) : Ideal.div (s : EReal) cnt = ((s / 2000000 : ℝ) : EReal) := by
  rw [cnt_eq, Ideal.div_coe (by norm_num), ← EReal.coe_mul, mul_one_div]

/-- The reciprocal square root of a positive real is the real reciprocal of its square root. -/
theorem rsqrt_pos {r : ℝ} (h : 0 < r) : Ideal.rsqrt (r : EReal) = (((Real.sqrt r)⁻¹ : ℝ) : EReal) := by
  rw [Ideal.rsqrt_coe, if_neg (not_lt.2 h.le), if_neg h.ne']

theorem outK_eq_outR (x : (⟨3, ![20000, 100, 4]⟩ : Shape).Idx → EReal) (aux : (⟨2, ![20000, 8]⟩ : Shape).Idx → EReal)
    (w : (⟨2, ![9, 64]⟩ : Shape).Idx → EReal) (g b : (⟨1, ![64]⟩ : Shape).Idx → EReal)
    (hx : ∀ i, ∃ r : ℝ, x i = (r : EReal)) (ha : ∀ i, ∃ r : ℝ, aux i = (r : EReal))
    (hw : ∀ i, ∃ r : ℝ, w i = (r : EReal)) (hg : ∀ i, ∃ r : ℝ, g i = (r : EReal))
    (hb : ∀ i, ∃ r : ℝ, b i = (r : EReal))
    (k : Fin 20000) (u : Fin 64) : outK x aux w g b k u = outR x aux w g b k u := by
  -- real witnesses for the linear layer's output, gamma, beta and epsilon
  choose L hL using fun k p => lin_finite x aux w hx ha hw k p u
  obtain ⟨G, hG⟩ := hg (ix1 u)
  obtain ⟨B, hB⟩ := hb (ix1 u)
  obtain ⟨e, he0, he⟩ := eps_pos
  -- the statistics as sums over the 2000000 pairs (pillar, point)
  let F : Fin 20000 × Fin 100 → ℝ := fun i => L i.1 i.2
  have hF1 : ∑ k, ∑ p, L k p = ∑ i, F i := (Fintype.sum_prod_type' (fun k p => L k p)).symm
  have hF2 : ∑ k, ∑ p, L k p * L k p = ∑ i, F i * F i :=
    (Fintype.sum_prod_type' (fun k p => L k p * L k p)).symm
  have hcard : ((Finset.univ : Finset (Fin 20000 × Fin 100)).card : ℝ) = 2000000 := by
    rw [Finset.card_univ, Fintype.card_prod, Fintype.card_fin, Fintype.card_fin]; norm_num
  obtain ⟨m, hm⟩ : ∃ m : ℝ, m = (∑ i, F i) / 2000000 := ⟨_, rfl⟩
  have hFQ : ∑ k, ∑ p, (L k p - m) * (L k p - m) = ∑ i, (F i - m) * (F i - m) :=
    (Fintype.sum_prod_type' (fun k p => (L k p - m) * (L k p - m))).symm
  -- the sums and the mean are finite
  have hs1 : sum1 x aux w u = ((∑ i, F i : ℝ) : EReal) := by
    simp only [sum1, hL, coe_sum, hF1]
  have hs2 : sum2 x aux w u = ((∑ i, F i * F i : ℝ) : EReal) := by
    simp only [sum2, hL, ← EReal.coe_mul, coe_sum, hF2]
  have hmeanK : Ideal.div (sum1 x aux w u) cnt = (m : EReal) := by rw [hs1, div_cnt, hm]
  have hmeanR : meanR x aux w u = (m : EReal) := by
    unfold meanR; rw [zeroLit_eq, zero_add, hmeanK]
  -- the variance two ways, one real number v ≥ 0
  obtain ⟨v, hv⟩ : ∃ v : ℝ, v = (∑ i, (F i - m) * (F i - m)) / 2000000 := ⟨_, rfl⟩
  have hv0 : 0 ≤ v := hv ▸ real_var_nonneg _ F m _ (by norm_num)
  have hvK : v = (∑ i, F i * F i) / 2000000 - m * m := by
    rw [hv, hm]; exact real_var_identity _ F _ hcard (by norm_num)
  have hvarR : varR x aux w u = (v : EReal) := by
    unfold varR
    simp only [hmeanR, hL, ← EReal.coe_sub, ← EReal.coe_mul, coe_sum]
    rw [zeroLit_eq, zero_add, hFQ, div_cnt, hv]
  have hpos : 0 < v + e := add_pos_of_nonneg_of_pos hv0 he0
  -- the reciprocal square root, one real number
  have hrR : Ideal.rsqrt (varR x aux w u + eps) = (((Real.sqrt (v + e))⁻¹ : ℝ) : EReal) := by
    rw [hvarR, he, ← EReal.coe_add, rsqrt_pos hpos]
  have hscale : scaleK (sum1 x aux w) (sum2 x aux w) g u = ((G * (Real.sqrt (v + e))⁻¹ : ℝ) : EReal) := by
    unfold scaleK
    rw [hmeanK, hs2, div_cnt, hG, he, ← EReal.coe_mul, ← EReal.coe_sub, ← EReal.coe_add, ← hvK, rsqrt_pos hpos,
      ← EReal.coe_mul]
  have hshift : shiftK (sum1 x aux w) (sum2 x aux w) g b u
      = ((B - m * (G * (Real.sqrt (v + e))⁻¹) : ℝ) : EReal) := by
    unfold shiftK
    rw [hscale, hmeanK, hB, ← EReal.coe_mul, ← EReal.coe_sub]
  -- point by point the two affine forms agree
  unfold outK outR
  refine congrArg (fun f => (Finset.univ : Finset (Fin 100)).fold max negInf f) (funext fun p => ?_)
  refine congrArg (fun t => max t zeroLit) ?_
  rw [hscale, hshift, hrR, hmeanR, hL, hG, hB, ← EReal.coe_mul, ← EReal.coe_add, ← EReal.coe_sub, ← EReal.coe_mul,
    ← EReal.coe_mul, ← EReal.coe_add]
  refine congrArg (fun t : ℝ => (t : EReal)) ?_
  ring

end Cert.Spec

end
-- ==== Proof.Finite.lean ====
/-
  Finite inputs, read back from the precondition.

  The precondition computes, for each of the four float inputs `a`, the array of bits `|a i| < +∞`
  (the literal `0x7F800000` is the binary32 pattern of `+∞`), takes the conjunction of each array over
  all of its indices, and then the conjunction of the four results. The claim says that this single bit
  is `1`. Here we undo these steps one by one: a conjunction of bits that is `1` has both conjuncts `1`;
  a conjunction over a whole array that is `1` has every entry `1`; and over the extended reals
  `max x (-x) < ⊤` rules out both `x = ⊤` (then `max x (-x) = ⊤`) and `x = ⊥` (then `-x = ⊤`), so `x` is a
  real number.
-/
import proofs.«117744_j60705067762261_1_alg».proof.Proof.Gen.Pre_finite_inputs
import Idealize.ShloMosaic.Lib.ReduceAll
import Idealize.ShloMosaic.Lib.ValueIdx
import Idealize.ShloMosaic.PureOps.Ideal

noncomputable section

namespace Cert.Pre_finite_inputs.Fin

open Idealize.ShloMosaic Idealize.ShloMosaic.ValueIdx

/-- The binary32 pattern `0x7F800000` (sign 0, exponent field all ones, fraction 0) denotes `+∞`. -/
theorem posInf_eq : Ideal.ofBits .f32 0x7F800000#32 = (⊤ : EReal) := by
  simp [Ideal.ofBits, Ideal.ieee]

/-- An extended real whose absolute value `max x (-x)` is strictly below `⊤` is a real number:
    at `x = ⊤` the maximum is `⊤`, at `x = ⊥` the negation `-x` is `⊤`, and `⊤ < ⊤` is false. -/
theorem real_of_abs_lt_top (x : EReal) (h : Ideal.cmp .olt (max x (-x)) (⊤ : EReal) = 1#1) :
    ∃ r : ℝ, x = (r : EReal) := by
  induction x using EReal.rec with
  | bot => simp [Ideal.cmp] at h
  | coe r => exact ⟨r, rfl⟩
  | top => simp [Ideal.cmp] at h

/-- One entry of the compared array: if the bit `|a i| < +∞` is `1` then `a i` is real. The broadcast
    scalar reads the literal at every index, and the absolute value of an extended real `x` is
    `max x (-x)`. -/
theorem real_of_entry {s : Shape} (hb : S_.BroadcastsInDim s (![] : Fin 0 → Fin s.rank)) (a : FVec Ideal s .f32)
    (i : s.Idx)
    (h : cmpf .olt (Host.absf a) (broadcastInDim s ![] hb (constant (F := Ideal) S_ .f32 0x7F800000#32)) i = 1#1) :
    ∃ r : ℝ, a i = (r : EReal) := by
  refine real_of_abs_lt_top (a i) ?_
  rw [← posInf_eq]
  exact h

/-- The scalar shape has exactly one index. -/
instance : Subsingleton S_.Idx := ⟨fun a b => funext fun d => d.elim0⟩

/-- Under the precondition every entry of every float input is a real number. -/
theorem finite_of_pre [Cert.Pre_finite_inputs.Facts]
    (a0 : FVec Ideal Cert.Pre_finite_inputs.S20000x100x4 .f32) (a1 : IVec Cert.Pre_finite_inputs.S20000 32)
    (a2 : IVec Cert.Pre_finite_inputs.S20000x4 32) (a3 : FVec Ideal Cert.Pre_finite_inputs.S9x64 .f32)
    (a4 a5 : FVec Ideal Cert.Pre_finite_inputs.S64 .f32)
    (h : Cert.Pre_finite_inputs.fn (F := Ideal) a0 a1 a2 a3 a4 a5 = fun _ => 1#1) :
    (∀ i, ∃ r : ℝ, a0 i = (r : EReal)) ∧ (∀ i, ∃ r : ℝ, a3 i = (r : EReal)) ∧
      (∀ i, ∃ r : ℝ, a4 i = (r : EReal)) ∧ (∀ i, ∃ r : ℝ, a5 i = (r : EReal)) := by
  -- the one bit of the result, with the chain of operations in view
  have h0 := congrFun h ix0
  dsimp only [fn, fn_part1] at h0
  -- the result is ((all0 ∧ all3) ∧ all4) ∧ all5: peel the conjunctions from the outside
  obtain ⟨h034, h5⟩ := IntOp.andi_eq_one.1 h0
  obtain ⟨h03, h4⟩ := IntOp.andi_eq_one.1 h034
  obtain ⟨h0', h3⟩ := IntOp.andi_eq_one.1 h03
  -- each conjunction over a whole array gives the bit at every index, and the bit gives a real entry
  exact ⟨fun i => real_of_entry _ a0 i (Host.reduce_andi_all _ _ _ _ ix0 h0' i),
    fun i => real_of_entry _ a3 i (Host.reduce_andi_all _ _ _ _ ix0 h3 i),
    fun i => real_of_entry _ a4 i (Host.reduce_andi_all _ _ _ _ ix0 h4 i),
    fun i => real_of_entry _ a5 i (Host.reduce_andi_all _ _ _ _ ix0 h5 i)⟩

end Cert.Pre_finite_inputs.Fin

end
-- ==== Proof.lean ====
/-
  The certificate of the pillar feature network kernel against its reference.

  The kernel computes, in two passes over the 20000 pillars in blocks of 400, what the reference computes in one
  chain of whole-array operations: nine masked features per point, a 9 x 64 linear layer, batch normalisation with
  the statistics of all 2 000 000 points, a rectifier, and the maximum over each pillar's 100 points. The first
  pass accumulates the sum and the sum of squares of the linear layer's output per channel; between the passes the
  variance is formed as E[x^2] - (E x)^2 and the normalisation folded into one scale and one shift per channel; the
  second pass applies them and pools. The reference centres first and takes the mean squared deviation. On finite
  inputs the two are the same real numbers: the variance identity, and `x * (g r) + (b - mu (g r)) =
  (x - mu) r g + b`. Finiteness of the linear layer's output needs one remark: a pillar with count zero makes the
  mean's quotient infinite at the ideal instance, but its mask is then zero for every point, and zero times anything
  is zero on the extended reals.

  The frames: each program runs to the end and leaves its arguments as launched — for the two kernel programs by the
  run over the two pipeline regions and the host stretches around them, for the reference by its run read back.
-/
import proofs.«117744_j60705067762261_1_alg».proof.Defs
import proofs.«117744_j60705067762261_1_alg».proof.Proof.Gen.Kernel
import proofs.«117744_j60705067762261_1_alg».proof.Proof.Gen.KernelIdeal
import proofs.«117744_j60705067762261_1_alg».proof.Proof.Gen.ReferenceIdeal
import proofs.«117744_j60705067762261_1_alg».proof.Proof.Gen.Pre_finite_inputs
import proofs.«117744_j60705067762261_1_alg».proof.Proof.Run
import proofs.«117744_j60705067762261_1_alg».proof.Proof.BitsRun
import proofs.«117744_j60705067762261_1_alg».proof.Proof.KernelVal
import proofs.«117744_j60705067762261_1_alg».proof.Proof.RefVal
import proofs.«117744_j60705067762261_1_alg».proof.Proof.Algebra
import proofs.«117744_j60705067762261_1_alg».proof.Proof.Finite
import Idealize.ShloMosaic.Adequacy
import Idealize.ShloMosaic.Init

noncomputable section

namespace Cert.Proof

open Idealize.ShloMosaic Idealize.ShloMosaic.TcCoe Idealize.ShloMosaic.ValueIdx Idealize.SL.Sem

/-- The word-level kernel program runs and leaves its arguments as launched. -/
theorem frame_k : Cert.frame_Kernel := fun m ρ _ => Cert.Kernel.Hand.frame (F := Bits) m ρ

/-- So does the idealized kernel program. -/
theorem frame_ki : Cert.frame_KernelIdeal := fun m ρ _ => Cert.KernelIdeal.Hand.frame (F := Ideal) m ρ

/-- The reference is host operations only: its run read back, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both idealized programs end with the same result array: the kernel's
    is the first spelling of the specification, the reference's the second, and on the finite inputs the
    precondition admits the two spellings agree. -/
theorem algebraic : Cert.algebraic_KernelIdeal_ReferenceIdeal := by
  intro m ρ m' ρ' hpre hagree
  refine ⟨fun c => Cert.KernelIdeal.Hand.W4 (F := Ideal) m ρ c (Proc.devRef .tc Cert.KernelIdeal.main_v33), ?_, ?_⟩
  · refine (θ_run Cert.KernelIdeal.defs _ _).mono (fun r h c => ?_) (Cert.KernelIdeal.Hand.run_all (F := Ideal) m ρ)
    exact ⟨h c _ (Cert.KernelIdeal.Hand.mem_uc Cert.KernelIdeal.main_v33 (by decide)),
      (h c _ (Cert.KernelIdeal.Hand.mem_uc Cert.KernelIdeal.main_arg0 (by decide))).trans (Cert.KernelIdeal.Hand.W4_main_arg0 m ρ c),
      (h c _ (Cert.KernelIdeal.Hand.mem_uc Cert.KernelIdeal.main_arg1 (by decide))).trans (Cert.KernelIdeal.Hand.W4_main_arg1 m ρ c),
      (h c _ (Cert.KernelIdeal.Hand.mem_uc Cert.KernelIdeal.main_arg2 (by decide))).trans (Cert.KernelIdeal.Hand.W4_main_arg2 m ρ c),
      (h c _ (Cert.KernelIdeal.Hand.mem_uc Cert.KernelIdeal.main_arg3 (by decide))).trans (Cert.KernelIdeal.Hand.W4_main_arg3 m ρ c),
      (h c _ (Cert.KernelIdeal.Hand.mem_uc Cert.KernelIdeal.main_arg4 (by decide))).trans (Cert.KernelIdeal.Hand.W4_main_arg4 m ρ c),
      (h c _ (Cert.KernelIdeal.Hand.mem_uc Cert.KernelIdeal.main_arg5 (by decide))).trans (Cert.KernelIdeal.Hand.W4_main_arg5 m ρ c)⟩
  · refine (θ_run Cert.ReferenceIdeal.defs _ _).mono (fun r h c => ⟨(h c).1.trans ?_, (h c).2⟩)
      (Cert.ReferenceIdeal.Value.run (F := Ideal) m' ρ')
    obtain ⟨a0, a1, a2, a3, a4, a5⟩ := hagree c
    obtain ⟨f0, f3, f4, f5⟩ := Cert.Pre_finite_inputs.Fin.finite_of_pre _ _ _ _ _ _ (hpre c)
    funext i
    obtain ⟨k, u, rfl⟩ : ∃ (k : Fin 20000) (u : Fin 64), i = ix2 k u := ⟨i 0, i 1, eq_ix2 i⟩
    rw [Cert.ReferenceIdeal.RefValue.result_apply, a0, a1, a2, a3, a4, a5]
    refine (Cert.Spec.outK_eq_outR _ _ _ _ _ f0 (Cert.Spec.auxOf_finite _ _) f3 f4 f5 k u).symm.trans ?_
    exact (Cert.KernelIdeal.Val.result_apply m ρ c k u).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
